-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x4 : Shape := ⟨2, ![500000, 4]⟩
abbrev S100000x4 : Shape := ⟨2, ![100000, 4]⟩
abbrev S5000000 : Shape := ⟨1, ![5000000]⟩
abbrev S4x16 : Shape := ⟨2, ![4, 16]⟩
abbrev S16 : Shape := ⟨1, ![16]⟩
abbrev S16x16 : Shape := ⟨2, ![16, 16]⟩
abbrev S_ : Shape := ⟨0, ![]⟩

class Facts : Prop where
  bcast_S_S500000x4 : S_.BroadcastsInDim S500000x4 (![] : Fin 0 → Fin S500000x4.rank)
  reducesTo_S500000x4_S_d0_1 : S500000x4.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S5000000 : S_.BroadcastsInDim S5000000 (![] : Fin 0 → Fin S5000000.rank)
  reducesTo_S5000000_S_d0 : S5000000.ReducesTo [0] S_

variable [Facts]

def fn_part4 {F : FTy → Type} [FloatOps F] (main_arg2 : IVec S5000000 32) (main_arg4 : IVec S5000000 32) (main_v63 : IVec S_ 1) (main_v67 : IVec S_ 1) : IVec S_ 1 :=
  let main_v68 : IVec S_ 1 := andi main_v63 main_v67
  let main_c_26 : IVec S_ 32 := constantI S_ 32 0#32
  let main_v69 : IVec S5000000 32 := broadcastInDim S5000000 ![] bcast_S_S5000000 main_c_26
  let main_v70 : IVec S5000000 1 := cmpi .sge main_arg2 main_v69
  let main_c_27 : IVec S_ 32 := constantI S_ 32 500000#32
  let main_v71 : IVec S5000000 32 := broadcastInDim S5000000 ![] bcast_S_S5000000 main_c_27
  let main_v72 : IVec S5000000 1 := cmpi .slt main_arg2 main_v71
  let main_v73 : IVec S5000000 1 := andi main_v70 main_v72
  let main_c_28 : IVec S_ 1 := constantI S_ 1 1#1
  let main_v74 : IVec S_ 1 := (fun x v => Host.reduce IntOp.andi x v reducesTo_S5000000_S_d0 h_S_) main_v73 main_c_28
  let main_v75 : IVec S_ 1 := andi main_v68 main_v74
  let main_c_29 : IVec S_ 32 := constantI S_ 32 0#32
  let main_v76 : IVec S5000000 32 := broadcastInDim S5000000 ![] bcast_S_S5000000 main_c_29
  let main_v77 : IVec S5000000 1 := cmpi .sge main_arg4 main_v76
  let main_c_30 : IVec S_ 32 := constantI S_ 32 100000#32
  let main_v78 : IVec S5000000 32 := broadcastInDim S5000000 ![] bcast_S_S5000000 main_c_30
  let main_v79 : IVec S5000000 1 := cmpi .slt main_arg4 main_v78
  let main_v80 : IVec S5000000 1 := andi main_v77 main_v79
  let main_c_31 : IVec S_ 1 := constantI S_ 1 1#1
  let main_v81 : IVec S_ 1 := (fun x v => Host.reduce IntOp.andi x v reducesTo_S5000000_S_d0 h_S_) main_v80 main_c_31
  let main_v82 : IVec S_ 1 := andi main_v75 main_v81
  main_v82

def fn_part3 {F : FTy → Type} [FloatOps F] (main_arg2 : IVec S5000000 32) (main_arg4 : IVec S5000000 32) (main_arg15 : FVec F S16x16 .f32) (main_arg16 : FVec F S16 .f32) (main_arg17 : FVec F S16x16 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16x16 .f32 := Host.absf main_arg15
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg16
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg17
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg2 main_arg4 main_v63 main_v67

def fn_part2 {F : FTy → Type} [FloatOps F] (main_arg2 : IVec S5000000 32) (main_arg4 : IVec S5000000 32) (main_arg11 : FVec F S4x16 .f32) (main_arg12 : FVec F S16x16 .f32) (main_arg13 : FVec F S16 .f32) (main_arg14 : FVec F S16x16 .f32) (main_arg15 : FVec F S16x16 .f32) (main_arg16 : FVec F S16 .f32) (main_arg17 : FVec F S16x16 .f32) (main_v33 : IVec S_ 1) : IVec S_ 1 :=
  let main_v34 : FVec F S4x16 .f32 := Host.absf main_arg11
  let main_cst_12 : FVec F S_ .f32 := constant S_ .f32 0x7F800000#32
  let main_v35 : FVec F S4x16 .f32 := broadcastInDim S4x16 ![] bcast_S_S4x16 main_cst_12
  let main_v36 : IVec S4x16 1 := cmpf .olt main_v34 main_v35
  let main_c_13 : IVec S_ 1 := constantI S_ 1 1#1
  let main_v37 : IVec S_ 1 := (fun x v => Host.reduce IntOp.andi x v reducesTo_S4x16_S_d0_1 h_S_) main_v36 main_c_13
  let main_v38 : IVec S_ 1 := andi main_v33 main_v37
  let main_v39 : FVec F S16x16 .f32 := Host.absf main_arg12
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg13
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg14
  let main_cst_18 : FVec F S_ .f32 := constant S_ .f32 0x7F800000#32
  let main_v50 : FVec F S16x16 .f32 := broadcastInDim S16x16 ![] bcast_S_S16x16 main_cst_18
  fn_part3 (F := F) main_arg2 main_arg4 main_arg15 main_arg16 main_arg17 main_v48 main_v49 main_v50

def fn_part1 {F : FTy → Type} [FloatOps F] (main_arg2 : IVec S5000000 32) (main_arg4 : IVec S5000000 32) (main_arg8 : FVec F S4x16 .f32) (main_arg9 : FVec F S4x16 .f32) (main_arg10 : FVec F S16 .f32) (main_arg11 : FVec F S4x16 .f32) (main_arg12 : FVec F S16x16 .f32) (main_arg13 : FVec F S16 .f32) (main_arg14 : FVec F S16x16 .f32) (main_arg15 : FVec F S16x16 .f32) (main_arg16 : FVec F S16 .f32) (main_arg17 : FVec F S16x16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4x16 .f32 := Host.absf main_arg8
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  let main_v24 : FVec F S4x16 .f32 := Host.absf main_arg9
  let main_cst_8 : FVec F S_ .f32 := constant S_ .f32 0x7F800000#32
  let main_v25 : FVec F S4x16 .f32 := broadcastInDim S4x16 ![] bcast_S_S4x16 main_cst_8
  let main_v26 : IVec S4x16 1 := cmpf .olt main_v24 main_v25
  let main_c_9 : IVec S_ 1 := constantI S_ 1 1#1
  let main_v27 : IVec S_ 1 := (fun x v => Host.reduce IntOp.andi x v reducesTo_S4x16_S_d0_1 h_S_) main_v26 main_c_9
  let main_v28 : IVec S_ 1 := andi main_v23 main_v27
  let main_v29 : FVec F S16 .f32 := Host.absf main_arg10
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg2 main_arg4 main_arg11 main_arg12 main_arg13 main_arg14 main_arg15 main_arg16 main_arg17 main_v33

def fn {F : FTy → Type} [FloatOps F] (main_arg0 : FVec F S500000x4 .f32) (main_arg1 : FVec F S100000x4 .f32) (main_arg2 : IVec S5000000 32) (main_arg3 : IVec S5000000 32) (main_arg4 : IVec S5000000 32) (main_arg5 : IVec S5000000 32) (main_arg6 : FVec F S4x16 .f32) (main_arg7 : FVec F S16 .f32) (main_arg8 : FVec F S4x16 .f32) (main_arg9 : FVec F S4x16 .f32) (main_arg10 : FVec F S16 .f32) (main_arg11 : FVec F S4x16 .f32) (main_arg12 : FVec F S16x16 .f32) (main_arg13 : FVec F S16 .f32) (main_arg14 : FVec F S16x16 .f32) (main_arg15 : FVec F S16x16 .f32) (main_arg16 : FVec F S16 .f32) (main_arg17 : FVec F S16x16 .f32) : IVec S_ 1 :=
  let main_v0 : FVec F S500000x4 .f32 := Host.absf main_arg0
  let main_cst : FVec F S_ .f32 := constant S_ .f32 0x7F800000#32
  let main_v1 : FVec F S500000x4 .f32 := broadcastInDim S500000x4 ![] bcast_S_S500000x4 main_cst
  let main_v2 : IVec S500000x4 1 := cmpf .olt main_v0 main_v1
  let main_c : IVec S_ 1 := constantI S_ 1 1#1
  let main_v3 : IVec S_ 1 := (fun x v => Host.reduce IntOp.andi x v reducesTo_S500000x4_S_d0_1 h_S_) main_v2 main_c
  let main_v4 : FVec F S100000x4 .f32 := Host.absf main_arg1
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S4x16 .f32 := Host.absf main_arg6
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S16 .f32 := Host.absf main_arg7
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg2 main_arg4 main_arg8 main_arg9 main_arg10 main_arg11 main_arg12 main_arg13 main_arg14 main_arg15 main_arg16 main_arg17 main_v13 main_v16
-- ==== Kernel.lean ====
abbrev S500000x4 : Shape := ⟨2, ![500000, 4]⟩
abbrev S100000x4 : Shape := ⟨2, ![100000, 4]⟩
abbrev S5000000 : Shape := ⟨1, ![5000000]⟩
abbrev S4x16 : Shape := ⟨2, ![4, 16]⟩
abbrev S16 : Shape := ⟨1, ![16]⟩
abbrev S16x16 : Shape := ⟨2, ![16, 16]⟩
abbrev S_ : Shape := ⟨0, ![]⟩
abbrev S5000000x1 : Shape := ⟨2, ![5000000, 1]⟩
abbrev S1 : Shape := ⟨1, ![1]⟩
abbrev S1x1 : Shape := ⟨2, ![1, 1]⟩
abbrev S5000000x4 : Shape := ⟨2, ![5000000, 4]⟩
abbrev S100000 : Shape := ⟨1, ![100000]⟩
abbrev S100000x1 : Shape := ⟨2, ![100000, 1]⟩
abbrev S1x16 : Shape := ⟨2, ![1, 16]⟩
abbrev S100000x16 : Shape := ⟨2, ![100000, 16]⟩
abbrev S5000x4 : Shape := ⟨2, ![5000, 4]⟩
abbrev S5000x1 : Shape := ⟨2, ![5000, 1]⟩
abbrev S5000x16 : Shape := ⟨2, ![5000, 16]⟩
abbrev S500000 : Shape := ⟨1, ![500000]⟩
abbrev S500000x1 : Shape := ⟨2, ![500000, 1]⟩
abbrev S500000x16 : Shape := ⟨2, ![500000, 16]⟩
abbrev S5000000x16 : Shape := ⟨2, ![5000000, 16]⟩

abbrev nBuf : Space → Nat
  | .hbm => 162
  | .vmem => 44
  | .smem => 0
  | _ => 0

abbrev hbmTy0_0 (i : Nat) : BufTy := match i % 128 with
  | 0 => ⟨S500000x4, .f32⟩
  | 1 => ⟨S100000x4, .f32⟩
  | 2 => ⟨S5000000, .i32⟩
  | 3 => ⟨S5000000, .i32⟩
  | 4 => ⟨S5000000, .i32⟩
  | 5 => ⟨S5000000, .i32⟩
  | 6 => ⟨S4x16, .f32⟩
  | 7 => ⟨S16, .f32⟩
  | 8 => ⟨S4x16, .f32⟩
  | 9 => ⟨S4x16, .f32⟩
  | 10 => ⟨S16, .f32⟩
  | 11 => ⟨S4x16, .f32⟩
  | 12 => ⟨S16x16, .f32⟩
  | 13 => ⟨S16, .f32⟩
  | 14 => ⟨S16x16, .f32⟩
  | 15 => ⟨S16x16, .f32⟩
  | 16 => ⟨S16, .f32⟩
  | 17 => ⟨S16x16, .f32⟩
  | 18 => ⟨S_, .i32⟩
  | 19 => ⟨S5000000, .i32⟩
  | 20 => ⟨S5000000, .i1⟩
  | 21 => ⟨S_, .i32⟩
  | 22 => ⟨S5000000, .i32⟩
  | 23 => ⟨S5000000, .i32⟩
  | 24 => ⟨S5000000, .i32⟩
  | 25 => ⟨S5000000x1, .i32⟩
  | 26 => ⟨S1, .i32⟩
  | 27 => ⟨S_, .i32⟩
  | 28 => ⟨S5000000x1, .i32⟩
  | 29 => ⟨S5000000x1, .i1⟩
  | 30 => ⟨S1x1, .i32⟩
  | 31 => ⟨S5000000x1, .i32⟩
  | 32 => ⟨S5000000x1, .i1⟩
  | 33 => ⟨S5000000x1, .i1⟩
  | 34 => ⟨S_, .i1⟩
  | 35 => ⟨S5000000, .i1⟩
  | 36 => ⟨S5000000x4, .f32⟩
  | 37 => ⟨S5000000x4, .i1⟩
  | 38 => ⟨S_, .f32⟩
  | 39 => ⟨S5000000x4, .f32⟩
  | 40 => ⟨S5000000x4, .f32⟩
  | 41 => ⟨S_, .f32⟩
  | 42 => ⟨S100000x4, .f32⟩
  | 43 => ⟨S5000000x1, .i32⟩
  | 44 => ⟨S100000x4, .f32⟩
  | 45 => ⟨S_, .f32⟩
  | 46 => ⟨S5000000, .f32⟩
  | 47 => ⟨S_, .f32⟩
  | 48 => ⟨S100000, .f32⟩
  | 49 => ⟨S5000000x1, .i32⟩
  | 50 => ⟨S100000, .f32⟩
  | 51 => ⟨S100000x1, .f32⟩
  | 52 => ⟨S1x16, .f32⟩
  | 53 => ⟨S100000x16, .f32⟩
  | 54 => ⟨S_, .i32⟩
  | 55 => ⟨S5000000, .i32⟩
  | 56 => ⟨S5000000, .i1⟩
  | 57 => ⟨S_, .i32⟩
  | 58 => ⟨S5000000, .i32⟩
  | 59 => ⟨S5000000, .i32⟩
  | 60 => ⟨S5000000, .i32⟩
  | 61 => ⟨S5000000x1, .i32⟩
  | 62 => ⟨S1, .i32⟩
  | 63 => ⟨S_, .i32⟩
  | 64 => ⟨S5000000x1, .i32⟩
  | 65 => ⟨S5000000x1, .i1⟩
  | 66 => ⟨S1x1, .i32⟩
  | 67 => ⟨S5000000x1, .i32⟩
  | 68 => ⟨S5000000x1, .i1⟩
  | 69 => ⟨S5000000x1, .i1⟩
  | 70 => ⟨S_, .i1⟩
  | 71 => ⟨S5000000, .i1⟩
  | 72 => ⟨S5000000x4, .f32⟩
  | 73 => ⟨S5000000x4, .i1⟩
  | 74 => ⟨S_, .f32⟩
  | 75 => ⟨S5000000x4, .f32⟩
  | 76 => ⟨S5000000x4, .f32⟩
  | 77 => ⟨S_, .f32⟩
  | 78 => ⟨S500000x4, .f32⟩
  | 79 => ⟨S5000000x1, .i32⟩
  | 80 => ⟨S500000x4, .f32⟩
  | 81 => ⟨S_, .f32⟩
  | 82 => ⟨S5000000, .f32⟩
  | 83 => ⟨S_, .f32⟩
  | 84 => ⟨S500000, .f32⟩
  | 85 => ⟨S5000000x1, .i32⟩
  | 86 => ⟨S500000, .f32⟩
  | 87 => ⟨S500000x1, .f32⟩
  | 88 => ⟨S1x16, .f32⟩
  | 89 => ⟨S500000x16, .f32⟩
  | 90 => ⟨S_, .i32⟩
  | 91 => ⟨S5000000, .i32⟩
  | 92 => ⟨S5000000, .i1⟩
  | 93 => ⟨S_, .i32⟩
  | 94 => ⟨S5000000, .i32⟩
  | 95 => ⟨S5000000, .i32⟩
  | 96 => ⟨S5000000, .i32⟩
  | 97 => ⟨S5000000x1, .i32⟩
  | 98 => ⟨S1, .i32⟩
  | 99 => ⟨S_, .i32⟩
  | 100 => ⟨S5000000x1, .i32⟩
  | 101 => ⟨S5000000x1, .i1⟩
  | 102 => ⟨S1x1, .i32⟩
  | 103 => ⟨S5000000x1, .i32⟩
  | 104 => ⟨S5000000x1, .i1⟩
  | 105 => ⟨S5000000x1, .i1⟩
  | 106 => ⟨S_, .i1⟩
  | 107 => ⟨S5000000, .i1⟩
  | 108 => ⟨S5000000x16, .f32⟩
  | 109 => ⟨S5000000x16, .i1⟩
  | 110 => ⟨S_, .f32⟩
  | 111 => ⟨S5000000x16, .f32⟩
  | 112 => ⟨S5000000x16, .f32⟩
  | 113 => ⟨S_, .f32⟩
  | 114 => ⟨S100000x16, .f32⟩
  | 115 => ⟨S5000000x1, .i32⟩
  | 116 => ⟨S100000x16, .f32⟩
  | 117 => ⟨S_, .f32⟩
  | 118 => ⟨S5000000, .f32⟩
  | 119 => ⟨S_, .f32⟩
  | 120 => ⟨S100000, .f32⟩
  | 121 => ⟨S5000000x1, .i32⟩
  | 122 => ⟨S100000, .f32⟩
  | 123 => ⟨S100000x1, .f32⟩
  | 124 => ⟨S1x16, .f32⟩
  | 125 => ⟨S100000x16, .f32⟩
  | 126 => ⟨S_, .i32⟩
  | 127 => ⟨S5000000, .i32⟩
  | _ => ⟨S500000x4, .f32⟩

abbrev hbmTy0_1 (i : Nat) : BufTy := match i % 128 with
  | 0 => ⟨S5000000, .i1⟩
  | 1 => ⟨S_, .i32⟩
  | 2 => ⟨S5000000, .i32⟩
  | 3 => ⟨S5000000, .i32⟩
  | 4 => ⟨S5000000, .i32⟩
  | 5 => ⟨S5000000x1, .i32⟩
  | 6 => ⟨S1, .i32⟩
  | 7 => ⟨S_, .i32⟩
  | 8 => ⟨S5000000x1, .i32⟩
  | 9 => ⟨S5000000x1, .i1⟩
  | 10 => ⟨S1x1, .i32⟩
  | 11 => ⟨S5000000x1, .i32⟩
  | 12 => ⟨S5000000x1, .i1⟩
  | 13 => ⟨S5000000x1, .i1⟩
  | 14 => ⟨S_, .i1⟩
  | 15 => ⟨S5000000, .i1⟩
  | 16 => ⟨S5000000x16, .f32⟩
  | 17 => ⟨S5000000x16, .i1⟩
  | 18 => ⟨S_, .f32⟩
  | 19 => ⟨S5000000x16, .f32⟩
  | 20 => ⟨S5000000x16, .f32⟩
  | 21 => ⟨S_, .f32⟩
  | 22 => ⟨S500000x16, .f32⟩
  | 23 => ⟨S5000000x1, .i32⟩
  | 24 => ⟨S500000x16, .f32⟩
  | 25 => ⟨S_, .f32⟩
  | 26 => ⟨S5000000, .f32⟩
  | 27 => ⟨S_, .f32⟩
  | 28 => ⟨S500000, .f32⟩
  | 29 => ⟨S5000000x1, .i32⟩
  | 30 => ⟨S500000, .f32⟩
  | 31 => ⟨S500000x1, .f32⟩
  | 32 => ⟨S1x16, .f32⟩
  | 33 => ⟨S500000x16, .f32⟩
  | _ => ⟨S500000x4, .f32⟩

abbrev hbmTy (i : Nat) : BufTy := match i / 128 with
  | 0 => hbmTy0_0 i
  | 1 => hbmTy0_1 i
  | _ => ⟨S500000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S5000x1, .f32⟩
  | .local _ .vmem, ⟨3, _⟩ => ⟨S5000x1, .f32⟩
  | .local _ .vmem, ⟨4, _⟩ => ⟨S5000x4, .f32⟩
  | .local _ .vmem, ⟨5, _⟩ => ⟨S5000x4, .f32⟩
  | .local _ .vmem, ⟨6, _⟩ => ⟨S4x16, .f32⟩
  | .local _ .vmem, ⟨7, _⟩ => ⟨S1x16, .f32⟩
  | .local _ .vmem, ⟨8, _⟩ => ⟨S4x16, .f32⟩
  | .local _ .vmem, ⟨9, _⟩ => ⟨S5000x16, .f32⟩
  | .local _ .vmem, ⟨10, _⟩ => ⟨S5000x16, .f32⟩
  | .local _ .vmem, ⟨11, _⟩ => ⟨S5000x4, .f32⟩
  | .local _ .vmem, ⟨12, _⟩ => ⟨S5000x4, .f32⟩
  | .local _ .vmem, ⟨13, _⟩ => ⟨S5000x1, .f32⟩
  | .local _ .vmem, ⟨14, _⟩ => ⟨S5000x1, .f32⟩
  | .local _ .vmem, ⟨15, _⟩ => ⟨S5000x4, .f32⟩
  | .local _ .vmem, ⟨16, _⟩ => ⟨S5000x4, .f32⟩
  | .local _ .vmem, ⟨17, _⟩ => ⟨S4x16, .f32⟩
  | .local _ .vmem, ⟨18, _⟩ => ⟨S1x16, .f32⟩
  | .local _ .vmem, ⟨19, _⟩ => ⟨S4x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | .local _ .vmem, ⟨24, _⟩ => ⟨S5000x1, .f32⟩
  | .local _ .vmem, ⟨25, _⟩ => ⟨S5000x1, .f32⟩
  | .local _ .vmem, ⟨26, _⟩ => ⟨S5000x16, .f32⟩
  | .local _ .vmem, ⟨27, _⟩ => ⟨S5000x16, .f32⟩
  | .local _ .vmem, ⟨28, _⟩ => ⟨S16x16, .f32⟩
  | .local _ .vmem, ⟨29, _⟩ => ⟨S1x16, .f32⟩
  | .local _ .vmem, ⟨30, _⟩ => ⟨S16x16, .f32⟩
  | .local _ .vmem, ⟨31, _⟩ => ⟨S5000x16, .f32⟩
  | .local _ .vmem, ⟨32, _⟩ => ⟨S5000x16, .f32⟩
  | .local _ .vmem, ⟨33, _⟩ => ⟨S5000x16, .f32⟩
  | .local _ .vmem, ⟨34, _⟩ => ⟨S5000x16, .f32⟩
  | .local _ .vmem, ⟨35, _⟩ => ⟨S5000x1, .f32⟩
  | .local _ .vmem, ⟨36, _⟩ => ⟨S5000x1, .f32⟩
  | .local _ .vmem, ⟨37, _⟩ => ⟨S5000x16, .f32⟩
  | .local _ .vmem, ⟨38, _⟩ => ⟨S5000x16, .f32⟩
  | .local _ .vmem, ⟨39, _⟩ => ⟨S16x16, .f32⟩
  | .local _ .vmem, ⟨40, _⟩ => ⟨S1x16, .f32⟩
  | .local _ .vmem, ⟨41, _⟩ => ⟨S16x16, .f32⟩
  | .local _ .vmem, ⟨42, _⟩ => ⟨S5000x16, .f32⟩
  | .local _ .vmem, ⟨43, _⟩ => ⟨S5000x16, .f32⟩
  | _, _ => ⟨S500000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_cst : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v11 : Ref sig .tc := ⟨.hbm, 76, rfl⟩
abbrev main_cst_2 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_cst_3 : Ref sig .tc := ⟨.hbm, 81, rfl⟩
abbrev main_v15 : Ref sig .tc := ⟨.hbm, 82, rfl⟩
abbrev main_cst_4 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v22 : Ref sig .tc := ⟨.hbm, 112, rfl⟩
abbrev main_cst_5 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_cst_6 : Ref sig .tc := ⟨.hbm, 117, rfl⟩
abbrev main_v26 : Ref sig .tc := ⟨.hbm, 118, rfl⟩
abbrev main_cst_7 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_call3_c : Ref sig .tc := ⟨.hbm, 126, rfl⟩
abbrev main_call3_v0 : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_c_1 : Ref sig .tc := ⟨.hbm, 134, rfl⟩
abbrev main_call3_c_2 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_c_3 : Ref sig .tc := ⟨.hbm, 142, rfl⟩
abbrev main_call3_v12 : Ref sig .tc := ⟨.hbm, 143, rfl⟩
abbrev main_call3_v13 : Ref sig .tc := ⟨.hbm, 144, rfl⟩
abbrev main_call3_v14 : Ref sig .tc := ⟨.hbm, 145, rfl⟩
abbrev main_call3_cst : Ref sig .tc := ⟨.hbm, 146, rfl⟩
abbrev main_call3_v15 : Ref sig .tc := ⟨.hbm, 147, rfl⟩
abbrev main_v33 : Ref sig .tc := ⟨.hbm, 148, rfl⟩
abbrev main_cst_8 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_cst_9 : Ref sig .tc := ⟨.hbm, 153, rfl⟩
abbrev main_v37 : Ref sig .tc := ⟨.hbm, 154, rfl⟩
abbrev main_cst_10 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x16 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S5000000x1 : S_.BroadcastsInDim S5000000x1 (![] : Fin 0 → Fin S5000000x1.rank)
  bcast_S1_S1x1_1 : S1.BroadcastsInDim S1x1 (![1] : Fin 1 → Fin S1x1.rank)
  bcast_S1x1_S5000000x1_0_1 : S1x1.BroadcastsInDim S5000000x1 (![0, 1] : Fin 2 → Fin S5000000x1.rank)
  reducesTo_S5000000x1_S5000000_d1 : S5000000x1.ReducesTo [1] S5000000
  h_S_ : 0 < S_.numel
  bcast_S5000000_S5000000x4_0 : S5000000.BroadcastsInDim S5000000x4 (![0] : Fin 1 → Fin S5000000x4.rank)
  bcast_S_S5000000x4 : S_.BroadcastsInDim S5000000x4 (![] : Fin 0 → Fin S5000000x4.rank)
  bcast_S_S100000x4 : S_.BroadcastsInDim S100000x4 (![] : Fin 0 → Fin S100000x4.rank)
  bcast_S_S100000 : S_.BroadcastsInDim S100000 (![] : Fin 0 → Fin S100000.rank)
  shapeCasts_S100000_S100000x1 : S100000.ShapeCasts S100000x1
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  broadcasts_S5000x1_S5000x4 : S5000x1.Broadcasts S5000x4
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S500000x4 : S_.BroadcastsInDim S500000x4 (![] : Fin 0 → Fin S500000x4.rank)
  bcast_S_S500000 : S_.BroadcastsInDim S500000 (![] : Fin 0 → Fin S500000.rank)
  shapeCasts_S500000_S500000x1 : S500000.ShapeCasts S500000x1
  bcast_S5000000_S5000000x16_0 : S5000000.BroadcastsInDim S5000000x16 (![0] : Fin 1 → Fin S5000000x16.rank)
  bcast_S_S5000000x16 : S_.BroadcastsInDim S5000000x16 (![] : Fin 0 → Fin S5000000x16.rank)
  bcast_S_S100000x16 : S_.BroadcastsInDim S100000x16 (![] : Fin 0 → Fin S100000x16.rank)
  shapeCasts_S5000x16_S5000x16 : S5000x16.ShapeCasts S5000x16
  broadcasts_S5000x1_S5000x16 : S5000x1.Broadcasts S5000x16
  inb_S16x16_S16x16_0_0 : ∀ a, (![0, 0] : Fin 2 → Nat) a + S16x16.size a ≤ S16x16.size a
  h_S16x16 : 0 < S16x16.numel
  bcast_S_S500000x16 : S_.BroadcastsInDim S500000x16 (![] : Fin 0 → Fin S500000x16.rank)
  gather_S500000x4_S5000000x1_S5000000x4_1_0_n_n_0_1_14_wf : GatherDims.WF S500000x4 S5000000x1 S5000000x4 [1] [0] [] [0] [] 1 ![1, 4]
  scatter_S100000x4_S5000000x1_S5000000x4_1_0_0_1_wf : ScatterDims.WF S100000x4 S5000000x1 S5000000x4 [1] [0] [0] 1
  scatter_S100000_S5000000x1_S5000000_n_0_0_1_wf : ScatterDims.WF S100000 S5000000x1 S5000000 [] [0] [0] 1
  dot_S5000x4_S4x16_S5000x16_1_0_0_1_n_n_wf : DotDims.WF S5000x4 S4x16 S5000x16 [1] [0] [0] [1] [] []
  gather_S100000x4_S5000000x1_S5000000x4_1_0_n_n_0_1_14_wf : GatherDims.WF S100000x4 S5000000x1 S5000000x4 [1] [0] [] [0] [] 1 ![1, 4]
  scatter_S500000x4_S5000000x1_S5000000x4_1_0_0_1_wf : ScatterDims.WF S500000x4 S5000000x1 S5000000x4 [1] [0] [0] 1
  scatter_S500000_S5000000x1_S5000000_n_0_0_1_wf : ScatterDims.WF S500000 S5000000x1 S5000000 [] [0] [0] 1
  gather_S500000x16_S5000000x1_S5000000x16_1_0_n_n_0_1_116_wf : GatherDims.WF S500000x16 S5000000x1 S5000000x16 [1] [0] [] [0] [] 1 ![1, 16]
  scatter_S100000x16_S5000000x1_S5000000x16_1_0_0_1_wf : ScatterDims.WF S100000x16 S5000000x1 S5000000x16 [1] [0] [0] 1
  dot_S5000x16_S16x16_S5000x16_1_0_0_1_n_n_wf : DotDims.WF S5000x16 S16x16 S5000x16 [1] [0] [0] [1] [] []
  gather_S100000x16_S5000000x1_S5000000x16_1_0_n_n_0_1_116_wf : GatherDims.WF S100000x16 S5000000x1 S5000000x16 [1] [0] [] [0] [] 1 ![1, 16]
  scatter_S500000x16_S5000000x1_S5000000x16_1_0_0_1_wf : ScatterDims.WF S500000x16 S5000000x1 S5000000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S100000x4.size a
  hwx0_2 : ∀ i : grid0.Coords, EltTy.bits .f32 = 32 ∨ (Rect.block (s := S100000x4) S5000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x16.size a ≤ S4x16.size a
  hwx0_5 : ∀ i : grid0.Coords, EltTy.bits .f32 = 32 ∨ (Rect.block (s := S4x16) S4x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S500000x1.size a
  hwx1_1 : ∀ i : grid1.Coords, EltTy.bits .f32 = 32 ∨ (Rect.block (s := S500000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S500000x4.size a
  hwx1_2 : ∀ i : grid1.Coords, EltTy.bits .f32 = 32 ∨ (Rect.block (s := S500000x4) S5000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x16.size a ≤ S4x16.size a
  hwx1_3 : ∀ i : grid1.Coords, EltTy.bits .f32 = 32 ∨ (Rect.block (s := S4x16) S4x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x16.size a ≤ S4x16.size a
  hwx1_5 : ∀ i : grid1.Coords, EltTy.bits .f32 = 32 ∨ (Rect.block (s := S4x16) S4x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x16.size a ≤ S500000x16.size a
  hwx1_6 : ∀ i : grid1.Coords, EltTy.bits .f32 = 32 ∨ (Rect.block (s := S500000x16) S5000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x16.size a ≤ S16x16.size a
  hwx2_5 : ∀ i : grid2.Coords, EltTy.bits .f32 = 32 ∨ (Rect.block (s := S16x16) S16x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x16.size a ≤ S100000x16.size a
  hwx2_6 : ∀ i : grid2.Coords, EltTy.bits .f32 = 32 ∨ (Rect.block (s := S100000x16) S5000x16.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S500000x16.size a
  hwx3_0 : ∀ i : grid3.Coords, EltTy.bits .f32 = 32 ∨ (Rect.block (s := S500000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S500000x1.size a
  hwx3_1 : ∀ i : grid3.Coords, EltTy.bits .f32 = 32 ∨ (Rect.block (s := S500000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S500000x16.size a
  hwx3_2 : ∀ i : grid3.Coords, EltTy.bits .f32 = 32 ∨ (Rect.block (s := S500000x16) S5000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x16.size a ≤ S16x16.size a
  hwx3_5 : ∀ i : grid3.Coords, EltTy.bits .f32 = 32 ∨ (Rect.block (s := S16x16) S16x16.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x16.size a ≤ S500000x16.size a
  hwx3_6 : ∀ i : grid3.Coords, EltTy.bits .f32 = 32 ∨ (Rect.block (s := S500000x16) S5000x16.size (cc3_transform_6 i) (hinb3_6 i)).WholeWords (EltTy.packing .f32)

variable [Facts₀]

def gather_S500000x4_S5000000x1_S5000000x4_1_0_n_n_0_1_14 : GatherDims S500000x4 S5000000x1 S5000000x4 where
  offsetDims := [1]
  collapsedSliceDims := [0]
  operandBatchingDims := []
  startIndicesBatchingDims := []
  startIndexMap := [0]
  indexVectorDim := 1
  sliceSizes := ![1, 4]
  wf := gather_S500000x4_S5000000x1_S5000000x4_1_0_n_n_0_1_14_wf
def scatter_S100000x4_S5000000x1_S5000000x4_1_0_0_1 : ScatterDims S100000x4 S5000000x1 S5000000x4 where
  updateWindowDims := [1]
  insertedWindowDims := [0]
  scatterDimsToOperandDims := [0]
  indexVectorDim := 1
  wf := scatter_S100000x4_S5000000x1_S5000000x4_1_0_0_1_wf
def scatter_S100000_S5000000x1_S5000000_n_0_0_1 : ScatterDims S100000 S5000000x1 S5000000 where
  updateWindowDims := []
  insertedWindowDims := [0]
  scatterDimsToOperandDims := [0]
  indexVectorDim := 1
  wf := scatter_S100000_S5000000x1_S5000000_n_0_0_1_wf
def dot_S5000x4_S4x16_S5000x16_1_0_0_1_n_n : DotDims S5000x4 S4x16 S5000x16 where
  lhsContracting := [1]
  rhsContracting := [0]
  lhsNonContracting := [0]
  rhsNonContracting := [1]
  lhsBatch := []
  rhsBatch := []
  wf := dot_S5000x4_S4x16_S5000x16_1_0_0_1_n_n_wf
def gather_S100000x4_S5000000x1_S5000000x4_1_0_n_n_0_1_14 : GatherDims S100000x4 S5000000x1 S5000000x4 where
  offsetDims := [1]
  collapsedSliceDims := [0]
  operandBatchingDims := []
  startIndicesBatchingDims := []
  startIndexMap := [0]
  indexVectorDim := 1
  sliceSizes := ![1, 4]
  wf := gather_S100000x4_S5000000x1_S5000000x4_1_0_n_n_0_1_14_wf
def scatter_S500000x4_S5000000x1_S5000000x4_1_0_0_1 : ScatterDims S500000x4 S5000000x1 S5000000x4 where
  updateWindowDims := [1]
  insertedWindowDims := [0]
  scatterDimsToOperandDims := [0]
  indexVectorDim := 1
  wf := scatter_S500000x4_S5000000x1_S5000000x4_1_0_0_1_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S100000x16_S5000000x1_S5000000x16_1_0_0_1 : ScatterDims S100000x16 S5000000x1 S5000000x16 where
  updateWindowDims := [1]
  insertedWindowDims := [0]
  scatterDimsToOperandDims := [0]
  indexVectorDim := 1
  wf := scatter_S100000x16_S5000000x1_S5000000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf

abbrev win0_0 : Pipeline.Window sig grid0 :=
  Pipeline.Window.ofSpec (Memref.whole main_v3) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S4x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S4x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S4x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S16x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S5000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S5000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S16x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v43) S5000x16.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S500000x4 : Shape := ⟨2, ![500000, 4]⟩
abbrev S100000x4 : Shape := ⟨2, ![100000, 4]⟩
abbrev S5000000 : Shape := ⟨1, ![5000000]⟩
abbrev S4x16 : Shape := ⟨2, ![4, 16]⟩
abbrev S16 : Shape := ⟨1, ![16]⟩
abbrev S16x16 : Shape := ⟨2, ![16, 16]⟩
abbrev S_ : Shape := ⟨0, ![]⟩
abbrev S5000000x1 : Shape := ⟨2, ![5000000, 1]⟩
abbrev S5000000x4 : Shape := ⟨2, ![5000000, 4]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩
abbrev S500000 : Shape := ⟨1, ![500000]⟩
abbrev S500000x1 : Shape := ⟨2, ![500000, 1]⟩
abbrev S500000x16 : Shape := ⟨2, ![500000, 16]⟩
abbrev S5000000x16 : Shape := ⟨2, ![5000000, 16]⟩

abbrev nBuf : Space → Nat
  | .hbm => 154
  | .vmem => 0
  | .smem => 0
  | _ => 0

abbrev hbmTy0_0 (i : Nat) : BufTy := match i % 128 with
  | 0 => ⟨S500000x4, .f32⟩
  | 1 => ⟨S100000x4, .f32⟩
  | 2 => ⟨S5000000, .i32⟩
  | 3 => ⟨S5000000, .i32⟩
  | 4 => ⟨S5000000, .i32⟩
  | 5 => ⟨S5000000, .i32⟩
  | 6 => ⟨S4x16, .f32⟩
  | 7 => ⟨S16, .f32⟩
  | 8 => ⟨S4x16, .f32⟩
  | 9 => ⟨S4x16, .f32⟩
  | 10 => ⟨S16, .f32⟩
  | 11 => ⟨S4x16, .f32⟩
  | 12 => ⟨S16x16, .f32⟩
  | 13 => ⟨S16, .f32⟩
  | 14 => ⟨S16x16, .f32⟩
  | 15 => ⟨S16x16, .f32⟩
  | 16 => ⟨S16, .f32⟩
  | 17 => ⟨S16x16, .f32⟩
  | 18 => ⟨S_, .i32⟩
  | 19 => ⟨S5000000, .i32⟩
  | 20 => ⟨S5000000, .i1⟩
  | 21 => ⟨S_, .i32⟩
  | 22 => ⟨S5000000, .i32⟩
  | 23 => ⟨S5000000, .i32⟩
  | 24 => ⟨S5000000, .i32⟩
  | 25 => ⟨S5000000x1, .i32⟩
  | 26 => ⟨S5000000x4, .f32⟩
  | 27 => ⟨S_, .f32⟩
  | 28 => ⟨S100000x4, .f32⟩
  | 29 => ⟨S5000000x1, .i32⟩
  | 30 => ⟨S100000x4, .f32⟩
  | 31 => ⟨S_, .f32⟩
  | 32 => ⟨S5000000, .f32⟩
  | 33 => ⟨S_, .f32⟩
  | 34 => ⟨S100000, .f32⟩
  | 35 => ⟨S5000000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x4, .f32⟩
  | 42 => ⟨S100000x4, .f32⟩
  | 43 => ⟨S100000x16, .f32⟩
  | 44 => ⟨S1x16, .f32⟩
  | 45 => ⟨S100000x16, .f32⟩
  | 46 => ⟨S100000x16, .f32⟩
  | 47 => ⟨S100000x16, .f32⟩
  | 48 => ⟨S100000x16, .f32⟩
  | 49 => ⟨S_, .f32⟩
  | 50 => ⟨S100000x16, .f32⟩
  | 51 => ⟨S100000x16, .f32⟩
  | 52 => ⟨S_, .i32⟩
  | 53 => ⟨S5000000, .i32⟩
  | 54 => ⟨S5000000, .i1⟩
  | 55 => ⟨S_, .i32⟩
  | 56 => ⟨S5000000, .i32⟩
  | 57 => ⟨S5000000, .i32⟩
  | 58 => ⟨S5000000, .i32⟩
  | 59 => ⟨S5000000x1, .i32⟩
  | 60 => ⟨S5000000x4, .f32⟩
  | 61 => ⟨S_, .f32⟩
  | 62 => ⟨S500000x4, .f32⟩
  | 63 => ⟨S5000000x1, .i32⟩
  | 64 => ⟨S500000x4, .f32⟩
  | 65 => ⟨S_, .f32⟩
  | 66 => ⟨S5000000, .f32⟩
  | 67 => ⟨S_, .f32⟩
  | 68 => ⟨S500000, .f32⟩
  | 69 => ⟨S5000000x1, .i32⟩
  | 70 => ⟨S500000, .f32⟩
  | 71 => ⟨S_, .f32⟩
  | 72 => ⟨S500000, .f32⟩
  | 73 => ⟨S500000, .f32⟩
  | 74 => ⟨S500000x1, .f32⟩
  | 75 => ⟨S500000x4, .f32⟩
  | 76 => ⟨S500000x4, .f32⟩
  | 77 => ⟨S500000x16, .f32⟩
  | 78 => ⟨S1x16, .f32⟩
  | 79 => ⟨S500000x16, .f32⟩
  | 80 => ⟨S500000x16, .f32⟩
  | 81 => ⟨S500000x16, .f32⟩
  | 82 => ⟨S500000x16, .f32⟩
  | 83 => ⟨S_, .f32⟩
  | 84 => ⟨S500000x16, .f32⟩
  | 85 => ⟨S500000x16, .f32⟩
  | 86 => ⟨S_, .i32⟩
  | 87 => ⟨S5000000, .i32⟩
  | 88 => ⟨S5000000, .i1⟩
  | 89 => ⟨S_, .i32⟩
  | 90 => ⟨S5000000, .i32⟩
  | 91 => ⟨S5000000, .i32⟩
  | 92 => ⟨S5000000, .i32⟩
  | 93 => ⟨S5000000x1, .i32⟩
  | 94 => ⟨S5000000x16, .f32⟩
  | 95 => ⟨S_, .f32⟩
  | 96 => ⟨S100000x16, .f32⟩
  | 97 => ⟨S5000000x1, .i32⟩
  | 98 => ⟨S100000x16, .f32⟩
  | 99 => ⟨S_, .f32⟩
  | 100 => ⟨S5000000, .f32⟩
  | 101 => ⟨S_, .f32⟩
  | 102 => ⟨S100000, .f32⟩
  | 103 => ⟨S5000000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x16, .f32⟩
  | 110 => ⟨S100000x16, .f32⟩
  | 111 => ⟨S100000x16, .f32⟩
  | 112 => ⟨S1x16, .f32⟩
  | 113 => ⟨S100000x16, .f32⟩
  | 114 => ⟨S100000x16, .f32⟩
  | 115 => ⟨S100000x16, .f32⟩
  | 116 => ⟨S100000x16, .f32⟩
  | 117 => ⟨S_, .f32⟩
  | 118 => ⟨S100000x16, .f32⟩
  | 119 => ⟨S100000x16, .f32⟩
  | 120 => ⟨S_, .i32⟩
  | 121 => ⟨S5000000, .i32⟩
  | 122 => ⟨S5000000, .i1⟩
  | 123 => ⟨S_, .i32⟩
  | 124 => ⟨S5000000, .i32⟩
  | 125 => ⟨S5000000, .i32⟩
  | 126 => ⟨S5000000, .i32⟩
  | 127 => ⟨S5000000x1, .i32⟩
  | _ => ⟨S500000x4, .f32⟩

abbrev hbmTy0_1 (i : Nat) : BufTy := match i % 128 with
  | 0 => ⟨S5000000x16, .f32⟩
  | 1 => ⟨S_, .f32⟩
  | 2 => ⟨S500000x16, .f32⟩
  | 3 => ⟨S5000000x1, .i32⟩
  | 4 => ⟨S500000x16, .f32⟩
  | 5 => ⟨S_, .f32⟩
  | 6 => ⟨S5000000, .f32⟩
  | 7 => ⟨S_, .f32⟩
  | 8 => ⟨S500000, .f32⟩
  | 9 => ⟨S5000000x1, .i32⟩
  | 10 => ⟨S500000, .f32⟩
  | 11 => ⟨S_, .f32⟩
  | 12 => ⟨S500000, .f32⟩
  | 13 => ⟨S500000, .f32⟩
  | 14 => ⟨S500000x1, .f32⟩
  | 15 => ⟨S500000x16, .f32⟩
  | 16 => ⟨S500000x16, .f32⟩
  | 17 => ⟨S500000x16, .f32⟩
  | 18 => ⟨S1x16, .f32⟩
  | 19 => ⟨S500000x16, .f32⟩
  | 20 => ⟨S500000x16, .f32⟩
  | 21 => ⟨S500000x16, .f32⟩
  | 22 => ⟨S500000x16, .f32⟩
  | 23 => ⟨S_, .f32⟩
  | 24 => ⟨S500000x16, .f32⟩
  | 25 => ⟨S500000x16, .f32⟩
  | _ => ⟨S500000x4, .f32⟩

abbrev hbmTy (i : Nat) : BufTy := match i / 128 with
  | 0 => hbmTy0_0 i
  | 1 => hbmTy0_1 i
  | _ => ⟨S500000x4, .f32⟩

abbrev bufTy : (tb : Table) → Fin (tcTables nBuf tb) → BufTy
  | .hbm, ⟨i, _⟩ => hbmTy i
  | _, _ => ⟨S500000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call0_cst : Ref sig .tc := ⟨.hbm, 49, rfl⟩
abbrev main_call0_v0 : Ref sig .tc := ⟨.hbm, 50, rfl⟩
abbrev main_v25 : Ref sig .tc := ⟨.hbm, 51, rfl⟩
abbrev main_c_4 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_9 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call1_cst : Ref sig .tc := ⟨.hbm, 83, rfl⟩
abbrev main_call1_v0 : Ref sig .tc := ⟨.hbm, 84, rfl⟩
abbrev main_v51 : Ref sig .tc := ⟨.hbm, 85, rfl⟩
abbrev main_c_10 : Ref sig .tc := ⟨.hbm, 86, rfl⟩
abbrev main_v52 : Ref sig .tc := ⟨.hbm, 87, rfl⟩
abbrev main_v53 : Ref sig .tc := ⟨.hbm, 88, rfl⟩
abbrev main_c_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_12 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_13 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_15 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call2_cst : Ref sig .tc := ⟨.hbm, 117, rfl⟩
abbrev main_call2_v0 : Ref sig .tc := ⟨.hbm, 118, rfl⟩
abbrev main_v77 : Ref sig .tc := ⟨.hbm, 119, rfl⟩
abbrev main_c_16 : Ref sig .tc := ⟨.hbm, 120, rfl⟩
abbrev main_v78 : Ref sig .tc := ⟨.hbm, 121, rfl⟩
abbrev main_v79 : Ref sig .tc := ⟨.hbm, 122, rfl⟩
abbrev main_c_17 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_19 : Ref sig .tc := ⟨.hbm, 133, rfl⟩
abbrev main_v88 : Ref sig .tc := ⟨.hbm, 134, rfl⟩
abbrev main_cst_20 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_21 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_call3_cst : Ref sig .tc := ⟨.hbm, 151, rfl⟩
abbrev main_call3_v0 : Ref sig .tc := ⟨.hbm, 152, rfl⟩
abbrev main_v103 : Ref sig .tc := ⟨.hbm, 153, rfl⟩

abbrev nD : Nat := 1
abbrev τ : Topo := Topo.v7x

variable {F : FTy → Type} [FloatOps F]

class Facts₀ : Prop where
  bcast_S_S5000000 : S_.BroadcastsInDim S5000000 (![] : Fin 0 → Fin S5000000.rank)
  bcast_S5000000_S5000000x1_0 : S5000000.BroadcastsInDim S5000000x1 (![0] : Fin 1 → Fin S5000000x1.rank)
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S500000x4 : S_.BroadcastsInDim S500000x4 (![] : Fin 0 → Fin S500000x4.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  bcast_S100000x1_S100000x16_0_1 : S100000x1.BroadcastsInDim S100000x16 (![0, 1] : Fin 2 → Fin S100000x16.rank)
  bcast_S500000x1_S500000x16_0_1 : S500000x1.BroadcastsInDim S500000x16 (![0, 1] : Fin 2 → Fin S500000x16.rank)
  gather_S500000x4_S5000000x1_S5000000x4_1_0_n_n_0_1_14_wf : GatherDims.WF S500000x4 S5000000x1 S5000000x4 [1] [0] [] [0] [] 1 ![1, 4]
  scatter_S100000x4_S5000000x1_S5000000x4_1_0_0_1_wf : ScatterDims.WF S100000x4 S5000000x1 S5000000x4 [1] [0] [0] 1
  scatter_S100000_S5000000x1_S5000000_n_0_0_1_wf : ScatterDims.WF S100000 S5000000x1 S5000000 [] [0] [0] 1
  dot_S100000x4_S4x16_S100000x16_1_0_0_1_n_n_wf : DotDims.WF S100000x4 S4x16 S100000x16 [1] [0] [0] [1] [] []
  gather_S100000x4_S5000000x1_S5000000x4_1_0_n_n_0_1_14_wf : GatherDims.WF S100000x4 S5000000x1 S5000000x4 [1] [0] [] [0] [] 1 ![1, 4]
  scatter_S500000x4_S5000000x1_S5000000x4_1_0_0_1_wf : ScatterDims.WF S500000x4 S5000000x1 S5000000x4 [1] [0] [0] 1
  scatter_S500000_S5000000x1_S5000000_n_0_0_1_wf : ScatterDims.WF S500000 S5000000x1 S5000000 [] [0] [0] 1
  dot_S500000x4_S4x16_S500000x16_1_0_0_1_n_n_wf : DotDims.WF S500000x4 S4x16 S500000x16 [1] [0] [0] [1] [] []
  gather_S500000x16_S5000000x1_S5000000x16_1_0_n_n_0_1_116_wf : GatherDims.WF S500000x16 S5000000x1 S5000000x16 [1] [0] [] [0] [] 1 ![1, 16]
  scatter_S100000x16_S5000000x1_S5000000x16_1_0_0_1_wf : ScatterDims.WF S100000x16 S5000000x1 S5000000x16 [1] [0] [0] 1
  dot_S100000x16_S16x16_S100000x16_1_0_0_1_n_n_wf : DotDims.WF S100000x16 S16x16 S100000x16 [1] [0] [0] [1] [] []
  gather_S100000x16_S5000000x1_S5000000x16_1_0_n_n_0_1_116_wf : GatherDims.WF S100000x16 S5000000x1 S5000000x16 [1] [0] [] [0] [] 1 ![1, 16]
  scatter_S500000x16_S5000000x1_S5000000x16_1_0_0_1_wf : ScatterDims.WF S500000x16 S5000000x1 S5000000x16 [1] [0] [0] 1
  dot_S500000x16_S16x16_S500000x16_1_0_0_1_n_n_wf : DotDims.WF S500000x16 S16x16 S500000x16 [1] [0] [0] [1] [] []

variable [Facts₀]

def gather_S500000x4_S5000000x1_S5000000x4_1_0_n_n_0_1_14 : GatherDims S500000x4 S5000000x1 S5000000x4 where
  offsetDims := [1]
  collapsedSliceDims := [0]
  operandBatchingDims := []
  startIndicesBatchingDims := []
  startIndexMap := [0]
  indexVectorDim := 1
  sliceSizes := ![1, 4]
  wf := gather_S500000x4_S5000000x1_S5000000x4_1_0_n_n_0_1_14_wf
def scatter_S100000x4_S5000000x1_S5000000x4_1_0_0_1 : ScatterDims S100000x4 S5000000x1 S5000000x4 where
  updateWindowDims := [1]
  insertedWindowDims := [0]
  scatterDimsToOperandDims := [0]
  indexVectorDim := 1
  wf := scatter_S100000x4_S5000000x1_S5000000x4_1_0_0_1_wf
def scatter_S100000_S5000000x1_S5000000_n_0_0_1 : ScatterDims S100000 S5000000x1 S5000000 where
  updateWindowDims := []
  insertedWindowDims := [0]
  scatterDimsToOperandDims := [0]
  indexVectorDim := 1
  wf := scatter_S100000_S5000000x1_S5000000_n_0_0_1_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000x4_S5000000x1_S5000000x4_1_0_n_n_0_1_14 : GatherDims S100000x4 S5000000x1 S5000000x4 where
  offsetDims := [1]
  collapsedSliceDims := [0]
  operandBatchingDims := []
  startIndicesBatchingDims := []
  startIndexMap := [0]
  indexVectorDim := 1
  sliceSizes := ![1, 4]
  wf := gather_S100000x4_S5000000x1_S5000000x4_1_0_n_n_0_1_14_wf
def scatter_S500000x4_S5000000x1_S5000000x4_1_0_0_1 : ScatterDims S500000x4 S5000000x1 S5000000x4 where
  updateWindowDims := [1]
  insertedWindowDims := [0]
  scatterDimsToOperandDims := [0]
  indexVectorDim := 1
  wf := scatter_S500000x4_S5000000x1_S5000000x4_1_0_0_1_wf
def scatter_S500000_S5000000x1_S5000000_n_0_0_1 : ScatterDims S500000 S5000000x1 S5000000 where
  updateWindowDims := []
  insertedWindowDims := [0]
  scatterDimsToOperandDims := [0]
  indexVectorDim := 1
  wf := scatter_S500000_S5000000x1_S5000000_n_0_0_1_wf
def dot_S500000x4_S4x16_S500000x16_1_0_0_1_n_n : DotDims S500000x4 S4x16 S500000x16 where
  lhsContracting := [1]
  rhsContracting := [0]
  lhsNonContracting := [0]
  rhsNonContracting := [1]
  lhsBatch := []
  rhsBatch := []
  wf := dot_S500000x4_S4x16_S500000x16_1_0_0_1_n_n_wf
def gather_S500000x16_S5000000x1_S5000000x16_1_0_n_n_0_1_116 : GatherDims S500000x16 S5000000x1 S5000000x16 where
  offsetDims := [1]
  collapsedSliceDims := [0]
  operandBatchingDims := []
  startIndicesBatchingDims := []
  startIndexMap := [0]
  indexVectorDim := 1
  sliceSizes := ![1, 16]
  wf := gather_S500000x16_S5000000x1_S5000000x16_1_0_n_n_0_1_116_wf
def scatter_S100000x16_S5000000x1_S5000000x16_1_0_0_1 : ScatterDims S100000x16 S5000000x1 S5000000x16 where
  updateWindowDims := [1]
  insertedWindowDims := [0]
  scatterDimsToOperandDims := [0]
  indexVectorDim := 1
  wf := scatter_S100000x16_S5000000x1_S5000000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S5000000x1_S5000000x16_1_0_n_n_0_1_116 : GatherDims S100000x16 S5000000x1 S5000000x16 where
  offsetDims := [1]
  collapsedSliceDims := [0]
  operandBatchingDims := []
  startIndicesBatchingDims := []
  startIndexMap := [0]
  indexVectorDim := 1
  sliceSizes := ![1, 16]
  wf := gather_S100000x16_S5000000x1_S5000000x16_1_0_n_n_0_1_116_wf
def scatter_S500000x16_S5000000x1_S5000000x16_1_0_0_1 : ScatterDims S500000x16 S5000000x1 S5000000x16 where
  updateWindowDims := [1]
  insertedWindowDims := [0]
  scatterDimsToOperandDims := [0]
  indexVectorDim := 1
  wf := scatter_S500000x16_S5000000x1_S5000000x16_1_0_0_1_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf

class Facts : Prop extends Facts₀ where

variable [Facts]
-- ==== Proof.KStretch.lean ====
/- The host operations between each gather and its pallas_call, as functions: the neighbour sums (a scatter-add of the
  gathered rows into zeros, by destination), the neighbour counts (a scatter-add of ones), the counts reshaped to a
  column and the bias reshaped to a row. Each stretch is read off ANY buffer contents it starts from.
-/
import proofs.«404925_j76931454206189_1_alg».proof.Proof.Gen.KernelIdeal.Launch
import Idealize.ShloMosaic.Lib.StableHlo.Run
import Idealize.ShloMosaic.PureOps.Ideal

noncomputable section

namespace Cert.KernelIdeal.Stretch

open Idealize.ShloMosaic Idealize.ShloMosaic.StableHlo Idealize.ShloMosaic.TcCoe Idealize.SL.Sem Cert.KernelIdeal Cert.KernelIdeal.Gen

/-- Neighbour counts per destination row (100000 rows): ones scattered and added into zeros. -/
def cntU (dst : IVec S5000000 32) : FVec Ideal S100000 .f32 :=
  Host.scatterAdd scatter_S100000_S5000000x1_S5000000_n_0_0_1 (broadcastInDim S100000 ![] bcast_S_S100000 (constant S_ .f32 0x00000000#32))
    (broadcastInDim S5000000x1 ![0] bcast_S5000000_S5000000x1_0 dst) (broadcastInDim S5000000 ![] bcast_S_S5000000 (constant S_ .f32 0x3F800000#32))

/-- Neighbour sums per destination row (100000 rows of 4): the gathered rows scattered and added into zeros. -/
def sumsU4 (dst : IVec S5000000 32) (msg : FVec Ideal S5000000x4 .f32) : FVec Ideal S100000x4 .f32 :=
  Host.scatterAdd scatter_S100000x4_S5000000x1_S5000000x4_1_0_0_1 (broadcastInDim S100000x4 ![] bcast_S_S100000x4 (constant S_ .f32 0x00000000#32))
    (broadcastInDim S5000000x1 ![0] bcast_S5000000_S5000000x1_0 dst) msg

/-- Neighbour sums per destination row (100000 rows of 16): the gathered rows scattered and added into zeros. -/
def sumsU16 (dst : IVec S5000000 32) (msg : FVec Ideal S5000000x16 .f32) : FVec Ideal S100000x16 .f32 :=
  Host.scatterAdd scatter_S100000x16_S5000000x1_S5000000x16_1_0_0_1 (broadcastInDim S100000x16 ![] bcast_S_S100000x16 (constant S_ .f32 0x00000000#32))
    (broadcastInDim S5000000x1 ![0] bcast_S5000000_S5000000x1_0 dst) msg

/-- Neighbour counts per destination row (500000 rows): ones scattered and added into zeros. -/
def cntP (dst : IVec S5000000 32) : FVec Ideal S500000 .f32 :=
  Host.scatterAdd scatter_S500000_S5000000x1_S5000000_n_0_0_1 (broadcastInDim S500000 ![] bcast_S_S500000 (constant S_ .f32 0x00000000#32))
    (broadcastInDim S5000000x1 ![0] bcast_S5000000_S5000000x1_0 dst) (broadcastInDim S5000000 ![] bcast_S_S5000000 (constant S_ .f32 0x3F800000#32))

/-- Neighbour sums per destination row (500000 rows of 4): the gathered rows scattered and added into zeros. -/
def sumsP4 (dst : IVec S5000000 32) (msg : FVec Ideal S5000000x4 .f32) : FVec Ideal S500000x4 .f32 :=
  Host.scatterAdd scatter_S500000x4_S5000000x1_S5000000x4_1_0_0_1 (broadcastInDim S500000x4 ![] bcast_S_S500000x4 (constant S_ .f32 0x00000000#32))
    (broadcastInDim S5000000x1 ![0] bcast_S5000000_S5000000x1_0 dst) msg

/-- Neighbour sums per destination row (500000 rows of 16): the gathered rows scattered and added into zeros. -/
def sumsP16 (dst : IVec S5000000 32) (msg : FVec Ideal S5000000x16 .f32) : FVec Ideal S500000x16 .f32 :=
  Host.scatterAdd scatter_S500000x16_S5000000x1_S5000000x16_1_0_0_1 (broadcastInDim S500000x16 ![] bcast_S_S500000x16 (constant S_ .f32 0x00000000#32))
    (broadcastInDim S5000000x1 ![0] bcast_S5000000_S5000000x1_0 dst) msg

/-! ## Stretch before region 0 -/

theorem after0_sums (W : Valuation τ sig (Elt Ideal)) :
    StableHlo.after (hostOps0_1 (F := Ideal)) W (Proc.devRef .tc main_v3) = sumsU4 (W (Proc.devRef .tc main_arg3)) (W (Proc.devRef .tc main_v0)) := by
  after_results
  rfl

theorem after0_cnt (W : Valuation τ sig (Elt Ideal)) :
    StableHlo.after (hostOps0_1 (F := Ideal)) W (Proc.devRef .tc main_v8)
      = fun i => shapeCast S100000x1 (cntU (W (Proc.devRef .tc main_arg3))) shapeCasts_S100000_S100000x1 i := by
  after_results
  rfl

theorem after0_bias (W : Valuation τ sig (Elt Ideal)) :
    StableHlo.after (hostOps0_1 (F := Ideal)) W (Proc.devRef .tc main_v9)
      = fun i => shapeCast S1x16 (W (Proc.devRef .tc main_arg7)) shapeCasts_S16_S1x16 i := by
  after_results
  rfl

/-! ## Stretch before region 1 -/

theorem after1_sums (W : Valuation τ sig (Elt Ideal)) :
    StableHlo.after (hostOps1_1 (F := Ideal)) W (Proc.devRef .tc main_v14) = sumsP4 (W (Proc.devRef .tc main_arg5)) (W (Proc.devRef .tc main_v11)) := by
  after_results
  rfl

theorem after1_cnt (W : Valuation τ sig (Elt Ideal)) :
    StableHlo.after (hostOps1_1 (F := Ideal)) W (Proc.devRef .tc main_v19)
      = fun i => shapeCast S500000x1 (cntP (W (Proc.devRef .tc main_arg5))) shapeCasts_S500000_S500000x1 i := by
  after_results
  rfl

theorem after1_bias (W : Valuation τ sig (Elt Ideal)) :
    StableHlo.after (hostOps1_1 (F := Ideal)) W (Proc.devRef .tc main_v20)
      = fun i => shapeCast S1x16 (W (Proc.devRef .tc main_arg10)) shapeCasts_S16_S1x16 i := by
  after_results
  rfl

/-! ## Stretch before region 2 -/

theorem after2_sums (W : Valuation τ sig (Elt Ideal)) :
    StableHlo.after (hostOps2_1 (F := Ideal)) W (Proc.devRef .tc main_v25) = sumsU16 (W (Proc.devRef .tc main_arg3)) (W (Proc.devRef .tc main_v22)) := by
  after_results
  rfl

theorem after2_cnt (W : Valuation τ sig (Elt Ideal)) :
    StableHlo.after (hostOps2_1 (F := Ideal)) W (Proc.devRef .tc main_v30)
      = fun i => shapeCast S100000x1 (cntU (W (Proc.devRef .tc main_arg3))) shapeCasts_S100000_S100000x1 i := by
  after_results
  rfl

theorem after2_bias (W : Valuation τ sig (Elt Ideal)) :
    StableHlo.after (hostOps2_1 (F := Ideal)) W (Proc.devRef .tc main_v31)
      = fun i => shapeCast S1x16 (W (Proc.devRef .tc main_arg13)) shapeCasts_S16_S1x16 i := by
  after_results
  rfl

/-! ## Stretch before region 3 -/

theorem after3_sums (W : Valuation τ sig (Elt Ideal)) :
    StableHlo.after (hostOps3_1 (F := Ideal)) W (Proc.devRef .tc main_v36) = sumsP16 (W (Proc.devRef .tc main_arg5)) (W (Proc.devRef .tc main_v33)) := by
  after_results
  rfl

theorem after3_cnt (W : Valuation τ sig (Elt Ideal)) :
    StableHlo.after (hostOps3_1 (F := Ideal)) W (Proc.devRef .tc main_v41)
      = fun i => shapeCast S500000x1 (cntP (W (Proc.devRef .tc main_arg5))) shapeCasts_S500000_S500000x1 i := by
  after_results
  rfl

theorem after3_bias (W : Valuation τ sig (Elt Ideal)) :
    StableHlo.after (hostOps3_1 (F := Ideal)) W (Proc.devRef .tc main_v42)
      = fun i => shapeCast S1x16 (W (Proc.devRef .tc main_arg16)) shapeCasts_S16_S1x16 i := by
  after_results
  rfl

end Cert.KernelIdeal.Stretch

end
-- ==== Proof.KTake.lean ====
/-
  The kernel side's four index takes (the 500000-row node table by one edge type's source ids, the 100000-row table by
  the other edge type's source ids, and the same two on the first layer's outputs), each as ONE function of the table and the edge-source vector,
  and the fact that a take whose every index lies inside the table is the plain gather.

  A take of a table of N rows at the index vector `src`: wrap a negative index once (`src + N` where `src < 0`), lay
  the wrapped indices out as a column, gather the rows the column names, and keep a gathered row only where the
  wrapped index lies in [0, N - 1]; every other row is the quiet-NaN word. The range test is a reduction by `and`, over
  the column's one-wide second axis and from the word 1, of the two comparisons `0 ≤ index` and `index ≤ N - 1`.

  When every index already lies in [0, N): the wrap changes nothing (the "negative" test fails at every position), both
  comparisons hold at every row, the reduction is 1 at every row, its broadcast over the features is 1 at every
  entry, and the selection is the gather itself.
-/
import proofs.«404925_j76931454206189_1_alg».proof.Proof.Gen.KernelIdeal.Launch
import Idealize.ShloMosaic.Lib.StableHlo.Run
import Idealize.ShloMosaic.Lib.ReduceAll
import Idealize.ShloMosaic.Lib.ValueIdx
import Idealize.ShloMosaic.Lib.DynamicIndex

noncomputable section

namespace Cert.KernelIdeal.Take

open Idealize.ShloMosaic Idealize.ShloMosaic.StableHlo Cert.KernelIdeal Cert.KernelIdeal.Gen

/-! ## Facts at any shape: an all-ones mask selects the first branch -/

section Generic

variable {s t u : Shape} {α : Type}

/-- An `and`-fold over words that are all 1, started at 1, ends at 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_ones f hf l _ (IntOp.andi_eq_one.2 ⟨h, hf a⟩)

/-- A reduction by `and`, from an initial word 1, of an array whose every word is 1 is 1 at every result index. -/
theorem reduce_andi_ones {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl]
  exact foldl_andi_ones x hx _ _ hinit

/-- Broadcasts of two vectors that agree at every index agree. -/
theorem bcast_congr {dims : Fin s.rank → Fin t.rank} (hb : s.BroadcastsInDim t dims) (v w : s.Idx → α)
    (h : ∀ e, v e = w e) : broadcastInDim t dims hb v = broadcastInDim t dims hb w := by
  rw [show v = w from funext h]

/-- A broadcast read at an index is the operand read at some index. -/
theorem bcast_exists {dims : Fin s.rank → Fin t.rank} (hb : s.BroadcastsInDim t dims) (w : s.Idx → α) (j : t.Idx) :
    ∃ e : s.Idx, broadcastInDim t dims hb w j = w e := by
  unfold broadcastInDim
  exact ⟨_, rfl⟩

/-- A select whose mask is a broadcast of a vector of ones is its first branch. -/
theorem select_bcast_ones {dims : Fin s.rank → Fin t.rank} (hb : s.BroadcastsInDim t dims) (c : IVec s 1)
    (hc : ∀ e, c e = 1#1) (a b : t.Idx → α) : select (broadcastInDim t dims hb c) a b = a := by
  funext j
  obtain ⟨e, he⟩ := bcast_exists hb c j
  rw [ValueIdx.select_apply, he, hc e]
  exact ValueIdx.select_one _ _

/-- A word in `[0, hi]`, read signed, passes both comparisons of the range test. -/
theorem inRange_bits (v hi : BitVec 32) (h0 : 0 ≤ v.toInt) (h1 : v.toInt ≤ hi.toInt) :
    IntOp.andi (IntOp.cmpi .sge v 0#32) (IntOp.cmpi .sle v hi) = 1#1 :=
  IntOp.andi_eq_one.2 ⟨IntOp.cmpi_sge.2 (by rw [BitVec.toInt_zero]; exact h0), IntOp.cmpi_sle.2 h1⟩

end Generic

/-! ## The wrap and the range test over the edge vector's shape, at any table size -/

/-- The wrapped indices as a column: `src + n` where `src < 0`, else `src`; entry (e, 0) is position e's. -/
def wrapCol (n : BitVec 32) (src : IVec S5000000 32) : IVec S5000000x1 32 :=
  broadcastInDim S5000000x1 ![0] bcast_S5000000_S5000000x1_0
    (select (cmpi .slt src (broadcastInDim S5000000 ![] bcast_S_S5000000 (constantI S_ 32 0#32)))
      (addi src (broadcastInDim S5000000 ![] bcast_S_S5000000 (constantI S_ 32 n))) src)

/-- At a position whose index is not negative the wrap leaves the index as it is. -/
theorem wrap_nonneg (n : BitVec 32) (src : IVec S5000000 32) (e : S5000000.Idx) (h : 0 ≤ (src e).toInt) :
    select (cmpi .slt src (broadcastInDim S5000000 ![] bcast_S_S5000000 (constantI S_ 32 0#32)))
      (addi src (broadcastInDim S5000000 ![] bcast_S_S5000000 (constantI S_ 32 n))) src e = src e :=
  select_slt_zero_of_nonneg src _ _ e h

/-- With no negative index the wrapped column is the index vector itself, as a column. -/
theorem wrapCol_eq (n : BitVec 32) (src : IVec S5000000 32) (h0 : ∀ e : S5000000.Idx, 0 ≤ (src e).toInt) :
    wrapCol n src = broadcastInDim S5000000x1 ![0] bcast_S5000000_S5000000x1_0 src := by
  unfold wrapCol
  exact bcast_congr _ _ _ (fun e => wrap_nonneg n src e (h0 e))

/-- So every entry of the wrapped column is one of the indices. -/
theorem wrapCol_apply (n : BitVec 32) (src : IVec S5000000 32) (h0 : ∀ e : S5000000.Idx, 0 ≤ (src e).toInt)
    (i : S5000000x1.Idx) : ∃ e : S5000000.Idx, wrapCol n src i = src e := by
  rw [wrapCol_eq n src h0]
  exact bcast_exists _ src i

/-- The range test against a table whose last row is `hi`: per position, `and` over the column's second axis of
    `0 ≤ index` and `index ≤ hi`. -/
def maskOf (hi : BitVec 32) (col : IVec S5000000x1 32) : IVec S5000000 1 :=
  Host.reduce IntOp.andi
    (andi (cmpi .sge col (broadcastInDim S5000000x1 ![] bcast_S_S5000000x1 (constantI S_ 32 0#32)))
      (cmpi .sle col (broadcastInDim S5000000x1 ![0, 1] bcast_S1x1_S5000000x1_0_1
        (broadcastInDim S1x1 ![1] bcast_S1_S1x1_1 (constantI S1 32 hi)))))
    (constantI S_ 1 1#1) reducesTo_S5000000x1_S5000000_d1 h_S_

/-- A column whose every entry lies in [0, hi] passes the range test at every position. -/
theorem maskOf_ones (hi : BitVec 32) (col : IVec S5000000x1 32)
    (hcol : ∀ i, 0 ≤ (col i).toInt ∧ (col i).toInt ≤ hi.toInt) (e : S5000000.Idx) : maskOf hi col e = 1#1 := by
  unfold maskOf
  apply reduce_andi_ones
  · rfl
  · intro i
    show IntOp.andi (IntOp.cmpi .sge (col i) 0#32) (IntOp.cmpi .sle (col i) hi) = 1#1
    exact inRange_bits (col i) hi (hcol i).1 (hcol i).2

/-- Indices all in [0, hi]: the wrapped column passes the range test at every position. -/
theorem mask_wrap_ones (n hi : BitVec 32) (src : IVec S5000000 32)
    (h : ∀ e : S5000000.Idx, 0 ≤ (src e).toInt ∧ (src e).toInt ≤ hi.toInt) (e : S5000000.Idx) :
    maskOf hi (wrapCol n src) e = 1#1 := by
  refine maskOf_ones hi (wrapCol n src) (fun i => ?_) e
  obtain ⟨e', he'⟩ := wrapCol_apply n src (fun e => (h e).1) i
  rw [he']
  exact h e'

/-! ## The four takes -/

/-- The wrapped index column of a take from the 500000-row tables. -/
def colP (src : IVec S5000000 32) : IVec S5000000x1 32 :=
  broadcastInDim S5000000x1 ![0] bcast_S5000000_S5000000x1_0
    (select (cmpi .slt src (broadcastInDim S5000000 ![] bcast_S_S5000000 (constantI S_ 32 0#32)))
      (addi src (broadcastInDim S5000000 ![] bcast_S_S5000000 (constantI S_ 32 500000#32))) src)

/-- The wrapped index column of a take from the 100000-row tables. -/
def colU (src : IVec S5000000 32) : IVec S5000000x1 32 :=
  broadcastInDim S5000000x1 ![0] bcast_S5000000_S5000000x1_0
    (select (cmpi .slt src (broadcastInDim S5000000 ![] bcast_S_S5000000 (constantI S_ 32 0#32)))
      (addi src (broadcastInDim S5000000 ![] bcast_S_S5000000 (constantI S_ 32 100000#32))) src)

theorem colP_eq_wrap (src : IVec S5000000 32) : colP src = wrapCol 500000#32 src := rfl
theorem colU_eq_wrap (src : IVec S5000000 32) : colU src = wrapCol 100000#32 src := rfl

/-- With no negative index the column is the index vector as a column. -/
theorem colP_eq_col (src : IVec S5000000 32) (h0 : ∀ e : S5000000.Idx, 0 ≤ (src e).toInt) :
    colP src = broadcastInDim S5000000x1 ![0] bcast_S5000000_S5000000x1_0 src := by
  rw [colP_eq_wrap]; exact wrapCol_eq _ src h0
theorem colU_eq_col (src : IVec S5000000 32) (h0 : ∀ e : S5000000.Idx, 0 ≤ (src e).toInt) :
    colU src = broadcastInDim S5000000x1 ![0] bcast_S5000000_S5000000x1_0 src := by
  rw [colU_eq_wrap]; exact wrapCol_eq _ src h0

theorem maskP_ones (src : IVec S5000000 32) (h : ∀ e : S5000000.Idx, 0 ≤ (src e).toInt ∧ (src e).toInt < 500000)
    (e : S5000000.Idx) : maskOf 499999#32 (colP src) e = 1#1 := by
  rw [colP_eq_wrap]
  refine mask_wrap_ones 500000#32 499999#32 src (fun e' => ⟨(h e').1, ?_⟩) e
  rw [toInt_ofNat_of_lt (k := 499999) (by decide)]
  have := (h e').2
  omega

theorem maskU_ones (src : IVec S5000000 32) (h : ∀ e : S5000000.Idx, 0 ≤ (src e).toInt ∧ (src e).toInt < 100000)
    (e : S5000000.Idx) : maskOf 99999#32 (colU src) e = 1#1 := by
  rw [colU_eq_wrap]
  refine mask_wrap_ones 100000#32 99999#32 src (fun e' => ⟨(h e').1, ?_⟩) e
  rw [toInt_ofNat_of_lt (k := 99999) (by decide)]
  have := (h e').2
  omega

/-- The take of the 500000 × 4 table. -/
def takeP4 (x : FVec Ideal S500000x4 .f32) (src : IVec S5000000 32) : FVec Ideal S5000000x4 .f32 :=
  select (broadcastInDim S5000000x4 ![0] bcast_S5000000_S5000000x4_0 (maskOf 499999#32 (colP src)))
    (Host.gather gather_S500000x4_S5000000x1_S5000000x4_1_0_n_n_0_1_14 x (colP src))
    (broadcastInDim S5000000x4 ![] bcast_S_S5000000x4 (constant (F := Ideal) S_ .f32 0x7FC00000#32))

/-- The take of the 100000 × 4 table. -/
def takeU4 (x : FVec Ideal S100000x4 .f32) (src : IVec S5000000 32) : FVec Ideal S5000000x4 .f32 :=
  select (broadcastInDim S5000000x4 ![0] bcast_S5000000_S5000000x4_0 (maskOf 99999#32 (colU src)))
    (Host.gather gather_S100000x4_S5000000x1_S5000000x4_1_0_n_n_0_1_14 x (colU src))
    (broadcastInDim S5000000x4 ![] bcast_S_S5000000x4 (constant (F := Ideal) S_ .f32 0x7FC00000#32))

/-- The take of the 500000 × 16 table. -/
def takeP16 (x : FVec Ideal S500000x16 .f32) (src : IVec S5000000 32) : FVec Ideal S5000000x16 .f32 :=
  select (broadcastInDim S5000000x16 ![0] bcast_S5000000_S5000000x16_0 (maskOf 499999#32 (colP src)))
    (Host.gather gather_S500000x16_S5000000x1_S5000000x16_1_0_n_n_0_1_116 x (colP src))
    (broadcastInDim S5000000x16 ![] bcast_S_S5000000x16 (constant (F := Ideal) S_ .f32 0x7FC00000#32))

/-- The take of the 100000 × 16 table. -/
def takeU16 (x : FVec Ideal S100000x16 .f32) (src : IVec S5000000 32) : FVec Ideal S5000000x16 .f32 :=
  select (broadcastInDim S5000000x16 ![0] bcast_S5000000_S5000000x16_0 (maskOf 99999#32 (colU src)))
    (Host.gather gather_S100000x16_S5000000x1_S5000000x16_1_0_n_n_0_1_116 x (colU src))
    (broadcastInDim S5000000x16 ![] bcast_S_S5000000x16 (constant (F := Ideal) S_ .f32 0x7FC00000#32))

/-! ## Each stretch of host operations computes its take, from any contents

A value written to its buffer and read back is the value (the buffer's type is the value's). What is left of the
stretch's result is then the take's own term with the arguments read off their buffers. The reduction is carried
through the comparison of the two sides as one unnamed function of its operands: the two sides apply it to equal
arguments, and what it computes plays no part. -/

/-- Contents moved to a typed reference's buffer type and back are the contents. -/
theorem ofBuf_toBuf {sig : RefSig} {Val : EltTy → Type} {T : BufTy} (x : TRef sig T) (v : T.Contents Val) :
    x.ofBuf (x.toBuf v) = v := by
  obtain ⟨r, h, hd, hu⟩ := x
  subst h
  rfl

theorem after_take0 (W : Valuation τ sig (Elt Ideal)) :
    StableHlo.after (hostOps0 (F := Ideal)) W (Proc.devRef .tc main_v0)
      = takeP4 (W (Proc.devRef .tc main_arg0)) (W (Proc.devRef .tc main_arg2)) := by
  unfold takeP4 maskOf
  after_results_simp
  simp only [ofBuf_toBuf]
  generalize @Host.reduce S5000000x1 (BitVec 1) [1] S5000000 S_ IntOp.andi = R
  rfl

theorem after_take1 (W : Valuation τ sig (Elt Ideal)) :
    StableHlo.after (hostOps1 (F := Ideal)) W (Proc.devRef .tc main_v11)
      = takeU4 (W (Proc.devRef .tc main_arg1)) (W (Proc.devRef .tc main_arg4)) := by
  unfold takeU4 maskOf
  after_results_simp
  simp only [ofBuf_toBuf]
  generalize @Host.reduce S5000000x1 (BitVec 1) [1] S5000000 S_ IntOp.andi = R
  rfl

theorem after_take2 (W : Valuation τ sig (Elt Ideal)) :
    StableHlo.after (hostOps2 (F := Ideal)) W (Proc.devRef .tc main_v22)
      = takeP16 (W (Proc.devRef .tc main_v21)) (W (Proc.devRef .tc main_arg2)) := by
  unfold takeP16 maskOf
  after_results_simp
  simp only [ofBuf_toBuf]
  generalize @Host.reduce S5000000x1 (BitVec 1) [1] S5000000 S_ IntOp.andi = R
  rfl

theorem after_take3 (W : Valuation τ sig (Elt Ideal)) :
    StableHlo.after (hostOps3 (F := Ideal)) W (Proc.devRef .tc main_v33)
      = takeU16 (W (Proc.devRef .tc main_v10)) (W (Proc.devRef .tc main_arg4)) := by
  unfold takeU16 maskOf
  after_results_simp
  simp only [ofBuf_toBuf]
  generalize @Host.reduce S5000000x1 (BitVec 1) [1] S5000000 S_ IntOp.andi = R
  rfl

/-! ## Under in-range indices each take is the gather -/

theorem takeP4_eq (x : FVec Ideal S500000x4 .f32) (src : IVec S5000000 32)
    (h : ∀ e : S5000000.Idx, 0 ≤ (src e).toInt ∧ (src e).toInt < 500000) :
    takeP4 x src = Host.gather gather_S500000x4_S5000000x1_S5000000x4_1_0_n_n_0_1_14 x (colP src) := by
  unfold takeP4
  exact select_bcast_ones _ _ (maskP_ones src h) _ _

theorem takeU4_eq (x : FVec Ideal S100000x4 .f32) (src : IVec S5000000 32)
    (h : ∀ e : S5000000.Idx, 0 ≤ (src e).toInt ∧ (src e).toInt < 100000) :
    takeU4 x src = Host.gather gather_S100000x4_S5000000x1_S5000000x4_1_0_n_n_0_1_14 x (colU src) := by
  unfold takeU4
  exact select_bcast_ones _ _ (maskU_ones src h) _ _

theorem takeP16_eq (x : FVec Ideal S500000x16 .f32) (src : IVec S5000000 32)
    (h : ∀ e : S5000000.Idx, 0 ≤ (src e).toInt ∧ (src e).toInt < 500000) :
    takeP16 x src = Host.gather gather_S500000x16_S5000000x1_S5000000x16_1_0_n_n_0_1_116 x (colP src) := by
  unfold takeP16
  exact select_bcast_ones _ _ (maskP_ones src h) _ _

theorem takeU16_eq (x : FVec Ideal S100000x16 .f32) (src : IVec S5000000 32)
    (h : ∀ e : S5000000.Idx, 0 ≤ (src e).toInt ∧ (src e).toInt < 100000) :
    takeU16 x src = Host.gather gather_S100000x16_S5000000x1_S5000000x16_1_0_n_n_0_1_116 x (colU src) := by
  unfold takeU16
  exact select_bcast_ones _ _ (maskU_ones src h) _ _

end Cert.KernelIdeal.Take

end
-- ==== Proof.SageSpec.lean ====
/-
  One SAGE layer with mean aggregation, as a function of its six arrays, element by element, on the extended reals:
  row p, column q of the result is
      max ( Σ_k (S p k / max (C p) 1) · Wl k q  +  bl q  +  Σ_k X p k · Wr k q ,  0 ),
  where S holds the neighbour sums, C the neighbour counts, X the node's own features. The quotient is the float
  quotient read on the extended reals, and 1 and 0 are the two float words the programs carry.
-/
import Idealize.ShloMosaic.PureOps.Ideal
import Idealize.ShloMosaic.Lib.ValueIdx

noncomputable section

namespace Cert.Sage

open Idealize.ShloMosaic Idealize.ShloMosaic.ValueIdx

/-- The float word of 1, read as an extended real. -/
abbrev one32 : EReal := Ideal.ofBits .f32 0x3F800000#32
/-- The float word of 0, read as an extended real. -/
abbrev zero32 : EReal := Ideal.ofBits .f32 0x00000000#32

/-- Entry (p, q) of the layer: the mean of the neighbour sums through Wl, the bias, the node's own features
    through Wr, clipped below at zero. -/
def layer {n fi : ℕ} (S : Fin n → Fin fi → EReal) (C : Fin n → EReal) (X : Fin n → Fin fi → EReal)
    (Wl : Fin fi → Fin 16 → EReal) (bl : Fin 16 → EReal) (Wr : Fin fi → Fin 16 → EReal) (p : Fin n) (q : Fin 16) : EReal :=
  max (((∑ k : Fin fi, Ideal.div (S p k) (max (C p) one32) * Wl k q) + bl q) + ∑ k : Fin fi, X p k * Wr k q) zero32

/-- The layer over arrays: sums and features [n, fi], counts [n], weights [fi, 16], bias [16]. -/
def layerArr {n fi : ℕ} (S : (⟨2, ![n, fi]⟩ : Shape).Idx → EReal) (C : (⟨1, ![n]⟩ : Shape).Idx → EReal)
    (X : (⟨2, ![n, fi]⟩ : Shape).Idx → EReal) (Wl : (⟨2, ![fi, 16]⟩ : Shape).Idx → EReal)
    (bl : (⟨1, ![16]⟩ : Shape).Idx → EReal) (Wr : (⟨2, ![fi, 16]⟩ : Shape).Idx → EReal) :
    (⟨2, ![n, 16]⟩ : Shape).Idx → EReal :=
  fun i => layer (fun p k => S (ix2 p k)) (fun p => C (ix1 p)) (fun p k => X (ix2 p k)) (fun k q => Wl (ix2 k q))
    (fun q => bl (ix1 q)) (fun k q => Wr (ix2 k q)) (i 0) (i 1)

/-- The same with the counts as a column [n, 1] and the bias as a row [1, 16]. -/
def layerArrK {n fi : ℕ} (S : (⟨2, ![n, fi]⟩ : Shape).Idx → EReal) (C : (⟨2, ![n, 1]⟩ : Shape).Idx → EReal)
    (X : (⟨2, ![n, fi]⟩ : Shape).Idx → EReal) (Wl : (⟨2, ![fi, 16]⟩ : Shape).Idx → EReal)
    (bl : (⟨2, ![1, 16]⟩ : Shape).Idx → EReal) (Wr : (⟨2, ![fi, 16]⟩ : Shape).Idx → EReal) :
    (⟨2, ![n, 16]⟩ : Shape).Idx → EReal :=
  fun i => layer (fun p k => S (ix2 p k)) (fun p => C (ix2 p 0)) (fun p k => X (ix2 p k)) (fun k q => Wl (ix2 k q))
    (fun q => bl (ix2 0 q)) (fun k q => Wr (ix2 k q)) (i 0) (i 1)

/-- With the column a reshape of the counts and the row a reshape of the bias the two forms agree. -/
theorem layerArrK_eq {n fi : ℕ} (S : (⟨2, ![n, fi]⟩ : Shape).Idx → EReal) (C : (⟨1, ![n]⟩ : Shape).Idx → EReal)
    (C2 : (⟨2, ![n, 1]⟩ : Shape).Idx → EReal) (X : (⟨2, ![n, fi]⟩ : Shape).Idx → EReal)
    (Wl : (⟨2, ![fi, 16]⟩ : Shape).Idx → EReal) (bl : (⟨1, ![16]⟩ : Shape).Idx → EReal)
    (bl2 : (⟨2, ![1, 16]⟩ : Shape).Idx → EReal) (Wr : (⟨2, ![fi, 16]⟩ : Shape).Idx → EReal)
    (hC : ∀ p : Fin n, C2 (ix2 p 0) = C (ix1 p)) (hb : ∀ q : Fin 16, bl2 (ix2 0 q) = bl (ix1 q)) :
    layerArrK S C2 X Wl bl2 Wr = layerArr S C X Wl bl Wr := by
  funext i
  unfold layerArrK layerArr
  simp only [hC, hb]

end Cert.Sage

end
-- ==== Proof.KernelPay.lean ====
/-
  One row block of a SAGE layer with mean aggregation, as the kernel's body computes it, read at an entry on the
  extended reals.

  The body divides the block of neighbour sums by the neighbour counts clipped below at 1 (a column, spread over the
  feature axis), multiplies the quotient by Wl and the node's own features by Wr (two products into a zero
  accumulator, so each entry is a plain sum over the feature index), adds the bias row (spread over the rows) between
  the two products and clips the result below at 0. The changes of float format in between are the identity on the
  extended reals and the shape casts are to the same shape. So entry (p, q) of the stored block is the layer's entry
  (p, q), Cert.Sage.layer, of the six operand blocks. The layer with 4 input features and the one with 16 are the
  same computation at two widths.
-/
import proofs.«404925_j76931454206189_1_alg».proof.Proof.Gen.KernelIdeal.Skeleton
import proofs.«404925_j76931454206189_1_alg».proof.Proof.SageSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## A column spread over a feature axis, a row spread over the rows -/

/-- A column [a, 1] broadcast to [a, b] reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The clipped counts, a column of 5000, spread over 4 features: entry (p, k) is the count of row p. -/
theorem counts_over4 (v : FVec Ideal S5000x1 .f32) (h : S5000x1.Broadcasts S5000x4) (p : Fin 5000) (k : Fin 4) :
    broadcastTo S5000x4 v h (ix2 p k) = v (ix2 p 0) :=
  broadcastTo_a1_ab_apply v h p k
/-- The same column spread over 16 features. -/
theorem counts_over16 (v : FVec Ideal S5000x1 .f32) (h : S5000x1.Broadcasts S5000x16) (p : Fin 5000) (k : Fin 16) :
    broadcastTo S5000x16 v h (ix2 p k) = v (ix2 p 0) :=
  broadcastTo_a1_ab_apply v h p k
/-- The bias, one row of 16, spread over the 5000 rows: entry (p, q) is the bias at q. -/
theorem bias_over_rows (v : FVec Ideal S1x16 .f32) (h : S1x16.Broadcasts S5000x16) (p : Fin 5000) (q : Fin 16) :
    broadcastTo S5000x16 v h (ix2 p q) = v (ix2 0 q) :=
  broadcastTo_1b_ab_apply v h p q

/-! ## The product of a [5000, 4] block with its [4, 16] weights, entry by entry -/

/-- Row coordinate of the left operand at a result entry: the entry's row. -/
theorem lhs4_0 (i : S5000x16.Idx) (q : dot_S5000x4_S4x16_S5000x16_1_0_0_1_n_n.contr.Idx) :
    (dot_S5000x4_S4x16_S5000x16_1_0_0_1_n_n.lhsIdx i q 0).val = (i 0).val := by
  unfold DotDims.lhsIdx
  rw [dif_neg (show ¬(0 : Fin S5000x4.rank) ∈ dot_S5000x4_S4x16_S5000x16_1_0_0_1_n_n.lhsBatch by decide), dif_pos (show (0 : Fin S5000x4.rank) ∈ dot_S5000x4_S4x16_S5000x16_1_0_0_1_n_n.lhsNonContracting by decide)]
  rfl
/-- Column coordinate of the left operand: the summation index. -/
theorem lhs4_1 (i : S5000x16.Idx) (q : dot_S5000x4_S4x16_S5000x16_1_0_0_1_n_n.contr.Idx) :
    (dot_S5000x4_S4x16_S5000x16_1_0_0_1_n_n.lhsIdx i q 1).val = (q ⟨0, by decide⟩).val :=
  dot_S5000x4_S4x16_S5000x16_1_0_0_1_n_n.lhsIdx_val_of_single rfl i q
/-- Row coordinate of the right operand: the summation index. -/
theorem rhs4_0 (i : S5000x16.Idx) (q : dot_S5000x4_S4x16_S5000x16_1_0_0_1_n_n.contr.Idx) :
    (dot_S5000x4_S4x16_S5000x16_1_0_0_1_n_n.rhsIdx i q 0).val = (q ⟨0, by decide⟩).val :=
  dot_S5000x4_S4x16_S5000x16_1_0_0_1_n_n.rhsIdx_val_of_single rfl i q
/-- Column coordinate of the right operand: the entry's column. -/
theorem rhs4_1 (i : S5000x16.Idx) (q : dot_S5000x4_S4x16_S5000x16_1_0_0_1_n_n.contr.Idx) :
    (dot_S5000x4_S4x16_S5000x16_1_0_0_1_n_n.rhsIdx i q 1).val = (i 1).val := by
  unfold DotDims.rhsIdx
  rw [dif_neg (show ¬(1 : Fin S4x16.rank) ∈ dot_S5000x4_S4x16_S5000x16_1_0_0_1_n_n.rhsBatch by decide), dif_pos (show (1 : Fin S4x16.rank) ∈ dot_S5000x4_S4x16_S5000x16_1_0_0_1_n_n.rhsNonContracting by decide)]
  rfl
/-- The left operand's index for result entry i and summand k: (row of i, k). -/
abbrev lidx4 (i : S5000x16.Idx) (k : Fin 4) : S5000x4.Idx := fun a => match a with
  | ⟨0, _⟩ => ⟨(i 0).val, (i 0).isLt⟩
  | ⟨1, _⟩ => ⟨k.val, k.isLt⟩
/-- The right operand's index for result entry i and summand k: (k, column of i). -/
abbrev ridx4 (i : S5000x16.Idx) (k : Fin 4) : S4x16.Idx := fun a => match a with
  | ⟨0, _⟩ => ⟨k.val, k.isLt⟩
  | ⟨1, _⟩ => ⟨(i 1).val, (i 1).isLt⟩
/-- Into a zero accumulator the product's entry i is the sum over the 4 features of left times right: the
    accumulator's word is the extended real 0, and the summation index set is one axis of extent 4. -/
theorem matmul4_apply (l : FVec Ideal S5000x4 .bf16) (r : FVec Ideal S4x16 .bf16) (i : S5000x16.Idx) :
    matmul dot_S5000x4_S4x16_S5000x16_1_0_0_1_n_n none l r (constant S5000x16 .f32 0x00000000#32) i
      = ∑ k : Fin 4, l (lidx4 i k) * r (ridx4 i k) := by
  simp only [matmul]
  rw [Ideal.matmul_constant_zero_apply, ← Equiv.sum_comp (ValueIdx.contrEquiv1 dot_S5000x4_S4x16_S5000x16_1_0_0_1_n_n 4 rfl rfl).symm]
  refine Finset.sum_congr rfl fun k _ => ?_
  have hk := ValueIdx.contrEquiv1_symm_val dot_S5000x4_S4x16_S5000x16_1_0_0_1_n_n 4 rfl rfl k
  have el : dot_S5000x4_S4x16_S5000x16_1_0_0_1_n_n.lhsIdx i ((ValueIdx.contrEquiv1 dot_S5000x4_S4x16_S5000x16_1_0_0_1_n_n 4 rfl rfl).symm k) = lidx4 i k := funext fun a => Fin.ext (by
    match a with
    | ⟨0, _⟩ => exact lhs4_0 _ _
    | ⟨1, _⟩ => exact (lhs4_1 _ _).trans hk)
  have er : dot_S5000x4_S4x16_S5000x16_1_0_0_1_n_n.rhsIdx i ((ValueIdx.contrEquiv1 dot_S5000x4_S4x16_S5000x16_1_0_0_1_n_n 4 rfl rfl).symm k) = ridx4 i k := funext fun a => Fin.ext (by
    match a with
    | ⟨0, _⟩ => exact (rhs4_0 _ _).trans hk
    | ⟨1, _⟩ => exact rhs4_1 _ _)
  rw [el, er]
/-- The same at entry (p, q): the sum over k of left (p, k) times right (k, q). -/
theorem matmul4_ix (l : FVec Ideal S5000x4 .bf16) (r : FVec Ideal S4x16 .bf16) (p : Fin 5000) (q : Fin 16) :
    matmul dot_S5000x4_S4x16_S5000x16_1_0_0_1_n_n none l r (constant S5000x16 .f32 0x00000000#32) (ix2 p q)
      = ∑ k : Fin 4, l (ix2 p k) * r (ix2 k q) := by
  refine (matmul4_apply l r (ix2 p q)).trans (Finset.sum_congr rfl fun k _ => ?_)
  have e1 : lidx4 (ix2 p q) k = ix2 p k :=
    funext fun a => Fin.ext (by match a with | ⟨0, _⟩ => rfl | ⟨1, _⟩ => rfl)
  have e2 : ridx4 (ix2 p q) k = ix2 k q :=
    funext fun a => Fin.ext (by match a with | ⟨0, _⟩ => rfl | ⟨1, _⟩ => rfl)
  rw [e1, e2]

/-! ## The product of a [5000, 16] block with its [16, 16] weights, entry by entry -/

/-- Row coordinate of the left operand at a result entry: the entry's row. -/
theorem lhs16_0 (i : S5000x16.Idx) (q : dot_S5000x16_S16x16_S5000x16_1_0_0_1_n_n.contr.Idx) :
    (dot_S5000x16_S16x16_S5000x16_1_0_0_1_n_n.lhsIdx i q 0).val = (i 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
/-- Column coordinate of the left operand: the summation index. -/
theorem lhs16_1 (i : S5000x16.Idx) (q : dot_S5000x16_S16x16_S5000x16_1_0_0_1_n_n.contr.Idx) :
    (dot_S5000x16_S16x16_S5000x16_1_0_0_1_n_n.lhsIdx i q 1).val = (q ⟨0, by decide⟩).val :=
  dot_S5000x16_S16x16_S5000x16_1_0_0_1_n_n.lhsIdx_val_of_single rfl i q
/-- Row coordinate of the right operand: the summation index. -/
theorem rhs16_0 (i : S5000x16.Idx) (q : dot_S5000x16_S16x16_S5000x16_1_0_0_1_n_n.contr.Idx) :
    (dot_S5000x16_S16x16_S5000x16_1_0_0_1_n_n.rhsIdx i q 0).val = (q ⟨0, by decide⟩).val :=
  dot_S5000x16_S16x16_S5000x16_1_0_0_1_n_n.rhsIdx_val_of_single rfl i q
/-- Column coordinate of the right operand: the entry's column. -/
theorem rhs16_1 (i : S5000x16.Idx) (q : dot_S5000x16_S16x16_S5000x16_1_0_0_1_n_n.contr.Idx) :
    (dot_S5000x16_S16x16_S5000x16_1_0_0_1_n_n.rhsIdx i q 1).val = (i 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl
/-- The left operand's index for result entry i and summand k: (row of i, k). -/
abbrev lidx16 (i : S5000x16.Idx) (k : Fin 16) : S5000x16.Idx := fun a => match a with
  | ⟨0, _⟩ => ⟨(i 0).val, (i 0).isLt⟩
  | ⟨1, _⟩ => ⟨k.val, k.isLt⟩
/-- The right operand's index for result entry i and summand k: (k, column of i). -/
abbrev ridx16 (i : S5000x16.Idx) (k : Fin 16) : S16x16.Idx := fun a => match a with
  | ⟨0, _⟩ => ⟨k.val, k.isLt⟩
  | ⟨1, _⟩ => ⟨(i 1).val, (i 1).isLt⟩
/-- Into a zero accumulator the product's entry i is the sum over the 16 features of left times right. -/
theorem matmul16_apply (l : FVec Ideal S5000x16 .bf16) (r : FVec Ideal S16x16 .bf16) (i : S5000x16.Idx) :
    matmul dot_S5000x16_S16x16_S5000x16_1_0_0_1_n_n none l r (constant S5000x16 .f32 0x00000000#32) i
      = ∑ k : Fin 16, l (lidx16 i k) * r (ridx16 i k) := by
  simp only [matmul]
  rw [Ideal.matmul_constant_zero_apply, ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx i ((ValueIdx.contrEquiv1 dot_S5000x16_S16x16_S5000x16_1_0_0_1_n_n 16 rfl rfl).symm k) = lidx16 i k := funext fun a => Fin.ext (by
    match a with
    | ⟨0, _⟩ => exact lhs16_0 _ _
    | ⟨1, _⟩ => exact (lhs16_1 _ _).trans hk)
  have er : dot_S5000x16_S16x16_S5000x16_1_0_0_1_n_n.rhsIdx i ((ValueIdx.contrEquiv1 dot_S5000x16_S16x16_S5000x16_1_0_0_1_n_n 16 rfl rfl).symm k) = ridx16 i k := funext fun a => Fin.ext (by
    match a with
    | ⟨0, _⟩ => exact (rhs16_0 _ _).trans hk
    | ⟨1, _⟩ => exact rhs16_1 _ _)
  rw [el, er]
/-- The same at entry (p, q): the sum over k of left (p, k) times right (k, q). -/
theorem matmul16_ix (l : FVec Ideal S5000x16 .bf16) (r : FVec Ideal S16x16 .bf16) (p : Fin 5000) (q : Fin 16) :
    matmul dot_S5000x16_S16x16_S5000x16_1_0_0_1_n_n none l r (constant S5000x16 .f32 0x00000000#32) (ix2 p q)
      = ∑ k : Fin 16, l (ix2 p k) * r (ix2 k q) := by
  refine (matmul16_apply l r (ix2 p q)).trans (Finset.sum_congr rfl fun k _ => ?_)
  have e1 : lidx16 (ix2 p q) k = ix2 p k :=
    funext fun a => Fin.ext (by match a with | ⟨0, _⟩ => rfl | ⟨1, _⟩ => rfl)
  have e2 : ridx16 (ix2 p q) k = ix2 k q :=
    funext fun a => Fin.ext (by match a with | ⟨0, _⟩ => rfl | ⟨1, _⟩ => rfl)
  rw [e1, e2]

/-! ## The body's result at an entry -/

/-- With 4 input features: entry (p, q) of what the body stores is the layer's entry (p, q) of the six operand blocks.
    The quotient of the sums by the clipped counts goes through Wl, the node's own features through Wr, the bias is
    added between the two products, and the sum is clipped below at zero; the format changes are the identity and the
    shape casts are to the same shape. -/
theorem pay4 (v0 : Vec Ideal S5000x1 .f32) (v2 v9 : Vec Ideal S5000x4 .f32) (v11 v13 : Vec Ideal S4x16 .f32)
    (v16 : Vec Ideal S1x16 .f32) (p : Fin 5000) (q : Fin 16) :
    k0_pay1 (F := Ideal) v0 v2 v9 v11 v13 v16 (ix2 p q)
      = Cert.Sage.layer (fun p k => v2 (ix2 p k)) (fun p => v0 (ix2 p 0)) (fun p k => v9 (ix2 p k))
          (fun k q => v11 (ix2 k q)) (fun q => v16 (ix2 0 q)) (fun k q => v13 (ix2 k q)) p q := by
  unfold k0_pay1 Cert.Sage.layer
  simp only [maximumf_apply, addf_apply, divf_apply, truncf_apply, broadcast_apply, shapeCast_self, matmul4_ix,
    counts_over4, bias_over_rows, Ideal.ofBits_def] <;> rfl

/-- With 16 input features: the same computation one layer later. -/
theorem pay16 (v0 : Vec Ideal S5000x1 .f32) (v2 v9 : Vec Ideal S5000x16 .f32) (v12 v14 : Vec Ideal S16x16 .f32)
    (v17 : Vec Ideal S1x16 .f32) (p : Fin 5000) (q : Fin 16) :
    k2_pay1 (F := Ideal) v0 v2 v9 v12 v14 v17 (ix2 p q)
      = Cert.Sage.layer (fun p k => v2 (ix2 p k)) (fun p => v0 (ix2 p 0)) (fun p k => v9 (ix2 p k))
          (fun k q => v12 (ix2 k q)) (fun q => v17 (ix2 0 q)) (fun k q => v14 (ix2 k q)) p q := by
  unfold k2_pay1 Cert.Sage.layer
  simp only [maximumf_apply, addf_apply, divf_apply, truncf_apply, broadcast_apply, shapeCast_self, matmul16_ix,
    counts_over16, bias_over_rows, Ideal.ofBits_def] <;> rfl

/-- The second kernel of each width has the first one's body. -/
theorem k1_eq : @k1_pay1 = @k0_pay1 := rfl
theorem k3_eq : @k3_pay1 = @k2_pay1 := rfl

end Cert.KernelIdeal.Pay

end
-- ==== Proof.KBlocks01.lean ====
/-
  The output arrays of the first two layer kernels after their runs, each as ONE function of the arrays its kernel reads.

  A kernel walks the rows in blocks of 5000. At block b it reads rows 5000·b … 5000·b + 4999 of the neighbour sums, of the
  neighbour counts and of the node's own features, all of the two weight matrices and of the bias row, and it writes the
  same rows of the result. What it writes at (p, q) of the block is the layer's entry (p, q) over the blocks, and the
  layer works row by row: that is the layer's entry (5000·b + p, q) over the whole arrays. Every row r lies in block
  r / 5000, so the blocks cover the result, which therefore ends holding the layer of the whole arrays.
-/
import proofs.«404925_j76931454206189_1_alg».proof.Proof.Gen.KernelIdeal.Frame
import proofs.«404925_j76931454206189_1_alg».proof.Proof.KernelPay
import proofs.«404925_j76931454206189_1_alg».proof.Proof.SageSpec
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.ShloMosaic.Pipeline
open Cert.KernelIdeal Cert.KernelIdeal.Gen

/-! ## What holds for both kernels -/

/-- The zero offsets of a whole block, as the printed rectangles spell them. -/
theorem zeros2 : (![0, 0] : Fin 2 → Nat) = fun _ => 0 := funext fun a => by fin_cases a <;> rfl

/-- The layer over arrays at the index with coordinates (p, q) is the layer's entry (p, q). -/
theorem layerArrK_ix2 {n fi : ℕ} (S : (⟨2, ![n, fi]⟩ : Shape).Idx → EReal) (C : (⟨2, ![n, 1]⟩ : Shape).Idx → EReal)
    (X : (⟨2, ![n, fi]⟩ : Shape).Idx → EReal) (Wl : (⟨2, ![fi, 16]⟩ : Shape).Idx → EReal)
    (bl : (⟨2, ![1, 16]⟩ : Shape).Idx → EReal) (Wr : (⟨2, ![fi, 16]⟩ : Shape).Idx → EReal) (p : Fin n) (q : Fin 16) :
    Cert.Sage.layerArrK S C X Wl bl Wr (ix2 p q)
      = Cert.Sage.layer (fun p k => S (ix2 p k)) (fun p => C (ix2 p 0)) (fun p k => X (ix2 p k))
          (fun k q => Wl (ix2 k q)) (fun q => bl (ix2 0 q)) (fun k q => Wr (ix2 k q)) p q := rfl

/-- ONE BLOCK IS ITS ROWS OF THE WHOLE. If the three row blocks x0, x1, x2 hold the rows `r p` of the arrays A0, A1, A2
    and the weight and bias blocks x3, x4, x5 hold all of A3, A4, A5, then the kernel's value at (p, q) of the block is
    the layer of the whole arrays at (r p, q): the layer's entry in a row reads that row only. -/
theorem point_eq {n : ℕ} (A0 : (⟨2, ![n, 4]⟩ : Shape).Idx → EReal) (A1 : (⟨2, ![n, 1]⟩ : Shape).Idx → EReal)
    (A2 : (⟨2, ![n, 4]⟩ : Shape).Idx → EReal) (A3 : (⟨2, ![4, 16]⟩ : Shape).Idx → EReal)
    (A4 : (⟨2, ![1, 16]⟩ : Shape).Idx → EReal) (A5 : (⟨2, ![4, 16]⟩ : Shape).Idx → EReal)
    (x0 : Vec Ideal S5000x4 .f32) (x1 : Vec Ideal S5000x1 .f32) (x2 : Vec Ideal S5000x4 .f32)
    (x3 : Vec Ideal S4x16 .f32) (x4 : Vec Ideal S1x16 .f32) (x5 : Vec Ideal S4x16 .f32)
    (r : Fin 5000 → Fin n)
    (h0 : ∀ (p : Fin 5000) (k : Fin 4), x0 (ix2 p k) = A0 (ix2 (r p) k))
    (h1 : ∀ p : Fin 5000, x1 (ix2 p 0) = A1 (ix2 (r p) 0))
    (h2 : ∀ (p : Fin 5000) (k : Fin 4), x2 (ix2 p k) = A2 (ix2 (r p) k))
    (h3 : ∀ (k : Fin 4) (q : Fin 16), x3 (ix2 k q) = A3 (ix2 k q))
    (h4 : ∀ q : Fin 16, x4 (ix2 0 q) = A4 (ix2 0 q))
    (h5 : ∀ (k : Fin 4) (q : Fin 16), x5 (ix2 k q) = A5 (ix2 k q))
    (p : Fin 5000) (q : Fin 16) :
    k0_pay1 (F := Ideal) x1 x0 x2 x3 x5 x4 (ix2 p q) = Cert.Sage.layerArrK A0 A1 A2 A3 A4 A5 (ix2 (r p) q) := by
  rw [Pay.pay4, layerArrK_ix2]
  unfold Cert.Sage.layer
  simp only [h0, h1, h2, h3, h4, h5]

/-- The same for the second kernel, whose body is the first one's. -/
theorem point_eq' {n : ℕ} (A0 : (⟨2, ![n, 4]⟩ : Shape).Idx → EReal) (A1 : (⟨2, ![n, 1]⟩ : Shape).Idx → EReal)
    (A2 : (⟨2, ![n, 4]⟩ : Shape).Idx → EReal) (A3 : (⟨2, ![4, 16]⟩ : Shape).Idx → EReal)
    (A4 : (⟨2, ![1, 16]⟩ : Shape).Idx → EReal) (A5 : (⟨2, ![4, 16]⟩ : Shape).Idx → EReal)
    (x0 : Vec Ideal S5000x4 .f32) (x1 : Vec Ideal S5000x1 .f32) (x2 : Vec Ideal S5000x4 .f32)
    (x3 : Vec Ideal S4x16 .f32) (x4 : Vec Ideal S1x16 .f32) (x5 : Vec Ideal S4x16 .f32)
    (r : Fin 5000 → Fin n)
    (h0 : ∀ (p : Fin 5000) (k : Fin 4), x0 (ix2 p k) = A0 (ix2 (r p) k))
    (h1 : ∀ p : Fin 5000, x1 (ix2 p 0) = A1 (ix2 (r p) 0))
    (h2 : ∀ (p : Fin 5000) (k : Fin 4), x2 (ix2 p k) = A2 (ix2 (r p) k))
    (h3 : ∀ (k : Fin 4) (q : Fin 16), x3 (ix2 k q) = A3 (ix2 k q))
    (h4 : ∀ q : Fin 16, x4 (ix2 0 q) = A4 (ix2 0 q))
    (h5 : ∀ (k : Fin 4) (q : Fin 16), x5 (ix2 k q) = A5 (ix2 k q))
    (p : Fin 5000) (q : Fin 16) :
    k1_pay1 (F := Ideal) x1 x0 x2 x3 x5 x4 (ix2 p q) = Cert.Sage.layerArrK A0 A1 A2 A3 A4 A5 (ix2 (r p) q) := by
  rw [Pay.k1_eq]
  exact point_eq A0 A1 A2 A3 A4 A5 x0 x1 x2 x3 x4 x5 r h0 h1 h2 h3 h4 h5 p q

variable (V : (c : Dev nD) → (b : Ref sig .tc) → Buf (Elt Ideal) ((c : Thread nD τ).loc b))

/-! ## The first kernel: 20 blocks of 5000 rows, arrays of 100000 rows -/

/-- The printed index maps, decided over the 20 points: the three row windows move with the output's rows, their
    column block is 0; the weight and bias windows stay at block (0, 0); the output's row block is the point itself. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_6.index t (0 : Fin 2) < 20 :=
  (by decide +kernel : ∀ t : Fin grid0.N, _)

/-- The output window's block is never cut, so what is written back is all of what the body left. -/
theorem cut0 (t : Fin cfg0.N) (X : Vec Ideal S5000x16 .f32) : (cfg0.win 6).cut (grid0.coords t) X = X := rfl

/-- The sums' block at point t, read at (p, k), is the sums at row 5000·(block) + p. -/
theorem read0_0 (A : S100000x4.Idx → EReal) (t : Fin cfg0.N) (p : Fin 5000) (k : Fin 4)
    (h : win0_6.index t (0 : Fin 2) * 5000 + p.val < 100000) :
    ((cfg0.win 0).blk t).view.read (Elt Ideal) A (ix2 p k)
      = A (ix2 (⟨win0_6.index t (0 : Fin 2) * 5000 + p.val, h⟩ : Fin 100000) k) := by
  obtain ⟨e00, e01, e10, e11, e20, e21, e30, e31, e40, e41, e50, e51, e60, e61, e6b⟩ := idx_facts0 t
  have E : ((cfg0.win 0).blk t).view.emb (ix2 p k)
      = (ix2 (⟨win0_6.index t (0 : Fin 2) * 5000 + p.val, h⟩ : Fin 100000) k : S100000x4.Idx) := by
    funext a; apply Fin.ext
    match a with
    | ⟨0, _⟩ => show win0_0.index t (0 : Fin 2) * 5000 + 1 * p.val = win0_6.index t (0 : Fin 2) * 5000 + p.val; omega
    | ⟨1, _⟩ => show win0_0.index t (1 : Fin 2) * 4 + 1 * k.val = k.val; omega
  show A (((cfg0.win 0).blk t).view.emb (ix2 p k)) = A _
  rw [E]

/-- The counts' block likewise (one column). -/
theorem read0_1 (A : S100000x1.Idx → EReal) (t : Fin cfg0.N) (p : Fin 5000) (z : Fin 1)
    (h : win0_6.index t (0 : Fin 2) * 5000 + p.val < 100000) :
    ((cfg0.win 1).blk t).view.read (Elt Ideal) A (ix2 p z)
      = A (ix2 (⟨win0_6.index t (0 : Fin 2) * 5000 + p.val, h⟩ : Fin 100000) z) := by
  obtain ⟨e00, e01, e10, e11, e20, e21, e30, e31, e40, e41, e50, e51, e60, e61, e6b⟩ := idx_facts0 t
  have E : ((cfg0.win 1).blk t).view.emb (ix2 p z)
      = (ix2 (⟨win0_6.index t (0 : Fin 2) * 5000 + p.val, h⟩ : Fin 100000) z : S100000x1.Idx) := by
    funext a; apply Fin.ext
    match a with
    | ⟨0, _⟩ => show win0_1.index t (0 : Fin 2) * 5000 + 1 * p.val = win0_6.index t (0 : Fin 2) * 5000 + p.val; omega
    | ⟨1, _⟩ => show win0_1.index t (1 : Fin 2) * 1 + 1 * z.val = z.val; omega
  show A (((cfg0.win 1).blk t).view.emb (ix2 p z)) = A _
  rw [E]

/-- The node features' block likewise. -/
theorem read0_2 (A : S100000x4.Idx → EReal) (t : Fin cfg0.N) (p : Fin 5000) (k : Fin 4)
    (h : win0_6.index t (0 : Fin 2) * 5000 + p.val < 100000) :
    ((cfg0.win 2).blk t).view.read (Elt Ideal) A (ix2 p k)
      = A (ix2 (⟨win0_6.index t (0 : Fin 2) * 5000 + p.val, h⟩ : Fin 100000) k) := by
  obtain ⟨e00, e01, e10, e11, e20, e21, e30, e31, e40, e41, e50, e51, e60, e61, e6b⟩ := idx_facts0 t
  have E : ((cfg0.win 2).blk t).view.emb (ix2 p k)
      = (ix2 (⟨win0_6.index t (0 : Fin 2) * 5000 + p.val, h⟩ : Fin 100000) k : S100000x4.Idx) := by
    funext a; apply Fin.ext
    match a with
    | ⟨0, _⟩ => show win0_2.index t (0 : Fin 2) * 5000 + 1 * p.val = win0_6.index t (0 : Fin 2) * 5000 + p.val; omega
    | ⟨1, _⟩ => show win0_2.index t (1 : Fin 2) * 4 + 1 * k.val = k.val; omega
  show A (((cfg0.win 2).blk t).view.emb (ix2 p k)) = A _
  rw [E]

/-- The left weights' block is the whole matrix at every point. -/
theorem read0_3 (A : S4x16.Idx → EReal) (t : Fin cfg0.N) (k : Fin 4) (q : Fin 16) :
    ((cfg0.win 3).blk t).view.read (Elt Ideal) A (ix2 k q) = A (ix2 k q) := by
  obtain ⟨e00, e01, e10, e11, e20, e21, e30, e31, e40, e41, e50, e51, e60, e61, e6b⟩ := idx_facts0 t
  have E : ((cfg0.win 3).blk t).view.emb (ix2 k q) = (ix2 k q : S4x16.Idx) := by
    funext a; apply Fin.ext
    match a with
    | ⟨0, _⟩ => show win0_3.index t (0 : Fin 2) * 4 + 1 * k.val = k.val; omega
    | ⟨1, _⟩ => show win0_3.index t (1 : Fin 2) * 16 + 1 * q.val = q.val; omega
  show A (((cfg0.win 3).blk t).view.emb (ix2 k q)) = A _
  rw [E]

/-- The bias block is the whole row at every point. -/
theorem read0_4 (A : S1x16.Idx → EReal) (t : Fin cfg0.N) (z : Fin 1) (q : Fin 16) :
    ((cfg0.win 4).blk t).view.read (Elt Ideal) A (ix2 z q) = A (ix2 z q) := by
  obtain ⟨e00, e01, e10, e11, e20, e21, e30, e31, e40, e41, e50, e51, e60, e61, e6b⟩ := idx_facts0 t
  have E : ((cfg0.win 4).blk t).view.emb (ix2 z q) = (ix2 z q : S1x16.Idx) := by
    funext a; apply Fin.ext
    match a with
    | ⟨0, _⟩ => show win0_4.index t (0 : Fin 2) * 1 + 1 * z.val = z.val; omega
    | ⟨1, _⟩ => show win0_4.index t (1 : Fin 2) * 16 + 1 * q.val = q.val; omega
  show A (((cfg0.win 4).blk t).view.emb (ix2 z q)) = A _
  rw [E]

/-- The right weights' block is the whole matrix at every point. -/
theorem read0_5 (A : S4x16.Idx → EReal) (t : Fin cfg0.N) (k : Fin 4) (q : Fin 16) :
    ((cfg0.win 5).blk t).view.read (Elt Ideal) A (ix2 k q) = A (ix2 k q) := by
  obtain ⟨e00, e01, e10, e11, e20, e21, e30, e31, e40, e41, e50, e51, e60, e61, e6b⟩ := idx_facts0 t
  have E : ((cfg0.win 5).blk t).view.emb (ix2 k q) = (ix2 k q : S4x16.Idx) := by
    funext a; apply Fin.ext
    match a with
    | ⟨0, _⟩ => show win0_5.index t (0 : Fin 2) * 4 + 1 * k.val = k.val; omega
    | ⟨1, _⟩ => show win0_5.index t (1 : Fin 2) * 16 + 1 * q.val = q.val; omega
  show A (((cfg0.win 5).blk t).view.emb (ix2 k q)) = A _
  rw [E]

/-- The output's block at point t, read at (p, q), is the array at row 5000·(block) + p, column q. -/
theorem read0_6 (G : S100000x16.Idx → EReal) (t : Fin cfg0.N) (p : Fin 5000) (q : Fin 16)
    (h : win0_6.index t (0 : Fin 2) * 5000 + p.val < 100000) :
    ((cfg0.win 6).blk t).view.read (Elt Ideal) G (ix2 p q)
      = G (ix2 (⟨win0_6.index t (0 : Fin 2) * 5000 + p.val, h⟩ : Fin 100000) q) := by
  obtain ⟨e00, e01, e10, e11, e20, e21, e30, e31, e40, e41, e50, e51, e60, e61, e6b⟩ := idx_facts0 t
  have E : ((cfg0.win 6).blk t).view.emb (ix2 p q)
      = (ix2 (⟨win0_6.index t (0 : Fin 2) * 5000 + p.val, h⟩ : Fin 100000) q : S100000x16.Idx) := by
    funext a; apply Fin.ext
    match a with
    | ⟨0, _⟩ => show win0_6.index t (0 : Fin 2) * 5000 + 1 * p.val = win0_6.index t (0 : Fin 2) * 5000 + p.val; omega
    | ⟨1, _⟩ => show win0_6.index t (1 : Fin 2) * 16 + 1 * q.val = q.val; omega
  show G (((cfg0.win 6).blk t).view.emb (ix2 p q)) = G _
  rw [E]

/-- WHAT POINT t WRITES BACK is block t of the layer of the arrays the region finds. -/
theorem flushed0_eq (c : Dev nD) (t : Fin cfg0.N) :
    (dat0 (F := Ideal) V c).flushed 6 t
      = ((cfg0.win 6).blk t).view.read (Elt Ideal)
          (Cert.Sage.layerArrK (n := 100000) (fi := 4) (V c main_v3) (V c main_v8) (V c main_arg1) (V c main_arg6)
            (V c main_v9) (V c main_arg8)) := by
  show (cfg0.win 6).cut (grid0.coords t) ((dat0 (F := Ideal) V c).after 6 t) = _
  rw [after0_6]
  unfold out0_6
  rw [View.canon_unit_zero zeros2]
  simp only [View.ld_unit_zero (S := S5000x1) zeros2, View.ld_unit_zero (S := S5000x4) zeros2,
    View.ld_unit_zero (S := S4x16) zeros2, View.ld_unit_zero (S := S1x16) zeros2]
  rw [cut0]
  obtain ⟨e00, e01, e10, e11, e20, e21, e30, e31, e40, e41, e50, e51, e60, e61, e6b⟩ := idx_facts0 t
  have hr : ∀ p : Fin 5000, win0_6.index t (0 : Fin 2) * 5000 + p.val < 100000 := fun p => by
    have hp := p.isLt
    omega
  funext j
  obtain ⟨p, q, rfl⟩ : ∃ (p : Fin 5000) (q : Fin 16), j = ix2 p q := ⟨j 0, j 1, eq_ix2 (n0 := 5000) (n1 := 16) j⟩
  refine (point_eq (n := 100000) (V c main_v3) (V c main_v8) (V c main_arg1) (V c main_arg6) (V c main_v9)
    (V c main_arg8) (iblk0 V c 0 t) (iblk0 V c 1 t) (iblk0 V c 2 t) (iblk0 V c 3 t) (iblk0 V c 4 t) (iblk0 V c 5 t)
    (fun p => ⟨win0_6.index t (0 : Fin 2) * 5000 + p.val, hr p⟩)
    (fun p k => read0_0 (V c main_v3) t p k (hr p))
    (fun p => read0_1 (V c main_v8) t p 0 (hr p))
    (fun p k => read0_2 (V c main_arg1) t p k (hr p))
    (fun k q => read0_3 (V c main_arg6) t k q)
    (fun q => read0_4 (V c main_v9) t 0 q)
    (fun k q => read0_5 (V c main_arg8) t k q) p q).trans ?_
  exact (read0_6 _ t p q (hr p)).symm

/-- An index of the result is in point t's block iff each coordinate is in the block's range on its axis. -/
theorem mem_blk0 (t : Fin cfg0.N) (i : S100000x16.Idx) :
    i ∈ ((cfg0.win 6).blk t).view.set ↔ ∀ a : Fin 2, win0_6.index t a * S5000x16.size a ≤ (i a).val
      ∧ (i a).val < win0_6.index t a * S5000x16.size a + S5000x16.size a := by
  show i ∈ ((View.whole main_v10).slice (win0_6.rect t)).set ↔ _
  rw [View.set_slice_whole, Rect.mem_set_unit]
  exact Iff.rfl

/-- THE BLOCKS COVER THE RESULT: row r is in the block of point r / 5000. -/
theorem cover0 (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21, e30, e31, e40, e41, e50, e51, e60, e61, e6b⟩ := idx_facts0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 16 ≤ (i 1).val ∧ (i 1).val < win0_6.index t (1 : Fin 2) * 16 + 16
    omega

/-- THE FIRST KERNEL'S RESULT after its run: the layer of the sums, the counts, the node features, the left weights,
    the bias row and the right weights as the region finds them. -/
theorem arr0 (c : Dev nD) :
    (dat0 (F := Ideal) V c).arrAt 6 cfg0.N
      = Cert.Sage.layerArrK (n := 100000) (fi := 4) (V c main_v3) (V c main_v8) (V c main_arg1) (V c main_arg6)
          (V c main_v9) (V c main_arg8) :=
  (dat0 (F := Ideal) V c).arrAt_eq_of_cover 6 _ (fun t _ => flushed0_eq V c t) cover0

/-! ## The second kernel: 100 blocks of 5000 rows, arrays of 500000 rows -/

/-- The printed index maps, decided over the 100 points: the three row windows move with the output's rows, their
    column block is 0; the weight and bias windows stay at block (0, 0); the output's row block is the point itself. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_6.index t (0 : Fin 2) < 100 :=
  (by decide +kernel : ∀ t : Fin grid1.N, _)

/-- The output window's block is never cut, so what is written back is all of what the body left. -/
theorem cut1 (t : Fin cfg1.N) (X : Vec Ideal S5000x16 .f32) : (cfg1.win 6).cut (grid1.coords t) X = X := rfl

/-- The sums' block at point t, read at (p, k), is the sums at row 5000·(block) + p. -/
theorem read1_0 (A : S500000x4.Idx → EReal) (t : Fin cfg1.N) (p : Fin 5000) (k : Fin 4)
    (h : win1_6.index t (0 : Fin 2) * 5000 + p.val < 500000) :
    ((cfg1.win 0).blk t).view.read (Elt Ideal) A (ix2 p k)
      = A (ix2 (⟨win1_6.index t (0 : Fin 2) * 5000 + p.val, h⟩ : Fin 500000) k) := by
  obtain ⟨e00, e01, e10, e11, e20, e21, e30, e31, e40, e41, e50, e51, e60, e61, e6b⟩ := idx_facts1 t
  have E : ((cfg1.win 0).blk t).view.emb (ix2 p k)
      = (ix2 (⟨win1_6.index t (0 : Fin 2) * 5000 + p.val, h⟩ : Fin 500000) k : S500000x4.Idx) := by
    funext a; apply Fin.ext
    match a with
    | ⟨0, _⟩ => show win1_0.index t (0 : Fin 2) * 5000 + 1 * p.val = win1_6.index t (0 : Fin 2) * 5000 + p.val; omega
    | ⟨1, _⟩ => show win1_0.index t (1 : Fin 2) * 4 + 1 * k.val = k.val; omega
  show A (((cfg1.win 0).blk t).view.emb (ix2 p k)) = A _
  rw [E]

/-- The counts' block likewise (one column). -/
theorem read1_1 (A : S500000x1.Idx → EReal) (t : Fin cfg1.N) (p : Fin 5000) (z : Fin 1)
    (h : win1_6.index t (0 : Fin 2) * 5000 + p.val < 500000) :
    ((cfg1.win 1).blk t).view.read (Elt Ideal) A (ix2 p z)
      = A (ix2 (⟨win1_6.index t (0 : Fin 2) * 5000 + p.val, h⟩ : Fin 500000) z) := by
  obtain ⟨e00, e01, e10, e11, e20, e21, e30, e31, e40, e41, e50, e51, e60, e61, e6b⟩ := idx_facts1 t
  have E : ((cfg1.win 1).blk t).view.emb (ix2 p z)
      = (ix2 (⟨win1_6.index t (0 : Fin 2) * 5000 + p.val, h⟩ : Fin 500000) z : S500000x1.Idx) := by
    funext a; apply Fin.ext
    match a with
    | ⟨0, _⟩ => show win1_1.index t (0 : Fin 2) * 5000 + 1 * p.val = win1_6.index t (0 : Fin 2) * 5000 + p.val; omega
    | ⟨1, _⟩ => show win1_1.index t (1 : Fin 2) * 1 + 1 * z.val = z.val; omega
  show A (((cfg1.win 1).blk t).view.emb (ix2 p z)) = A _
  rw [E]

/-- The node features' block likewise. -/
theorem read1_2 (A : S500000x4.Idx → EReal) (t : Fin cfg1.N) (p : Fin 5000) (k : Fin 4)
    (h : win1_6.index t (0 : Fin 2) * 5000 + p.val < 500000) :
    ((cfg1.win 2).blk t).view.read (Elt Ideal) A (ix2 p k)
      = A (ix2 (⟨win1_6.index t (0 : Fin 2) * 5000 + p.val, h⟩ : Fin 500000) k) := by
  obtain ⟨e00, e01, e10, e11, e20, e21, e30, e31, e40, e41, e50, e51, e60, e61, e6b⟩ := idx_facts1 t
  have E : ((cfg1.win 2).blk t).view.emb (ix2 p k)
      = (ix2 (⟨win1_6.index t (0 : Fin 2) * 5000 + p.val, h⟩ : Fin 500000) k : S500000x4.Idx) := by
    funext a; apply Fin.ext
    match a with
    | ⟨0, _⟩ => show win1_2.index t (0 : Fin 2) * 5000 + 1 * p.val = win1_6.index t (0 : Fin 2) * 5000 + p.val; omega
    | ⟨1, _⟩ => show win1_2.index t (1 : Fin 2) * 4 + 1 * k.val = k.val; omega
  show A (((cfg1.win 2).blk t).view.emb (ix2 p k)) = A _
  rw [E]

/-- The left weights' block is the whole matrix at every point. -/
theorem read1_3 (A : S4x16.Idx → EReal) (t : Fin cfg1.N) (k : Fin 4) (q : Fin 16) :
    ((cfg1.win 3).blk t).view.read (Elt Ideal) A (ix2 k q) = A (ix2 k q) := by
  obtain ⟨e00, e01, e10, e11, e20, e21, e30, e31, e40, e41, e50, e51, e60, e61, e6b⟩ := idx_facts1 t
  have E : ((cfg1.win 3).blk t).view.emb (ix2 k q) = (ix2 k q : S4x16.Idx) := by
    funext a; apply Fin.ext
    match a with
    | ⟨0, _⟩ => show win1_3.index t (0 : Fin 2) * 4 + 1 * k.val = k.val; omega
    | ⟨1, _⟩ => show win1_3.index t (1 : Fin 2) * 16 + 1 * q.val = q.val; omega
  show A (((cfg1.win 3).blk t).view.emb (ix2 k q)) = A _
  rw [E]

/-- The bias block is the whole row at every point. -/
theorem read1_4 (A : S1x16.Idx → EReal) (t : Fin cfg1.N) (z : Fin 1) (q : Fin 16) :
    ((cfg1.win 4).blk t).view.read (Elt Ideal) A (ix2 z q) = A (ix2 z q) := by
  obtain ⟨e00, e01, e10, e11, e20, e21, e30, e31, e40, e41, e50, e51, e60, e61, e6b⟩ := idx_facts1 t
  have E : ((cfg1.win 4).blk t).view.emb (ix2 z q) = (ix2 z q : S1x16.Idx) := by
    funext a; apply Fin.ext
    match a with
    | ⟨0, _⟩ => show win1_4.index t (0 : Fin 2) * 1 + 1 * z.val = z.val; omega
    | ⟨1, _⟩ => show win1_4.index t (1 : Fin 2) * 16 + 1 * q.val = q.val; omega
  show A (((cfg1.win 4).blk t).view.emb (ix2 z q)) = A _
  rw [E]

/-- The right weights' block is the whole matrix at every point. -/
theorem read1_5 (A : S4x16.Idx → EReal) (t : Fin cfg1.N) (k : Fin 4) (q : Fin 16) :
    ((cfg1.win 5).blk t).view.read (Elt Ideal) A (ix2 k q) = A (ix2 k q) := by
  obtain ⟨e00, e01, e10, e11, e20, e21, e30, e31, e40, e41, e50, e51, e60, e61, e6b⟩ := idx_facts1 t
  have E : ((cfg1.win 5).blk t).view.emb (ix2 k q) = (ix2 k q : S4x16.Idx) := by
    funext a; apply Fin.ext
    match a with
    | ⟨0, _⟩ => show win1_5.index t (0 : Fin 2) * 4 + 1 * k.val = k.val; omega
    | ⟨1, _⟩ => show win1_5.index t (1 : Fin 2) * 16 + 1 * q.val = q.val; omega
  show A (((cfg1.win 5).blk t).view.emb (ix2 k q)) = A _
  rw [E]

/-- The output's block at point t, read at (p, q), is the array at row 5000·(block) + p, column q. -/
theorem read1_6 (G : S500000x16.Idx → EReal) (t : Fin cfg1.N) (p : Fin 5000) (q : Fin 16)
    (h : win1_6.index t (0 : Fin 2) * 5000 + p.val < 500000) :
    ((cfg1.win 6).blk t).view.read (Elt Ideal) G (ix2 p q)
      = G (ix2 (⟨win1_6.index t (0 : Fin 2) * 5000 + p.val, h⟩ : Fin 500000) q) := by
  obtain ⟨e00, e01, e10, e11, e20, e21, e30, e31, e40, e41, e50, e51, e60, e61, e6b⟩ := idx_facts1 t
  have E : ((cfg1.win 6).blk t).view.emb (ix2 p q)
      = (ix2 (⟨win1_6.index t (0 : Fin 2) * 5000 + p.val, h⟩ : Fin 500000) q : S500000x16.Idx) := by
    funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 16 + 1 * q.val = q.val; omega
  show G (((cfg1.win 6).blk t).view.emb (ix2 p q)) = G _
  rw [E]

/-- WHAT POINT t WRITES BACK is block t of the layer of the arrays the region finds. -/
theorem flushed1_eq (c : Dev nD) (t : Fin cfg1.N) :
    (dat1 (F := Ideal) V c).flushed 6 t
      = ((cfg1.win 6).blk t).view.read (Elt Ideal)
          (Cert.Sage.layerArrK (n := 500000) (fi := 4) (V c main_v14) (V c main_v19) (V c main_arg0) (V c main_arg9)
            (V c main_v20) (V c main_arg11)) := by
  show (cfg1.win 6).cut (grid1.coords t) ((dat1 (F := Ideal) V c).after 6 t) = _
  rw [after1_6]
  unfold out1_6
  rw [View.canon_unit_zero zeros2]
  simp only [View.ld_unit_zero (S := S5000x1) zeros2, View.ld_unit_zero (S := S5000x4) zeros2,
    View.ld_unit_zero (S := S4x16) zeros2, View.ld_unit_zero (S := S1x16) zeros2]
  rw [cut1]
  obtain ⟨e00, e01, e10, e11, e20, e21, e30, e31, e40, e41, e50, e51, e60, e61, e6b⟩ := idx_facts1 t
  have hr : ∀ p : Fin 5000, win1_6.index t (0 : Fin 2) * 5000 + p.val < 500000 := fun p => by
    have hp := p.isLt
    omega
  funext j
  obtain ⟨p, q, rfl⟩ : ∃ (p : Fin 5000) (q : Fin 16), j = ix2 p q := ⟨j 0, j 1, eq_ix2 (n0 := 5000) (n1 := 16) j⟩
  refine (point_eq' (n := 500000) (V c main_v14) (V c main_v19) (V c main_arg0) (V c main_arg9) (V c main_v20)
    (V c main_arg11) (iblk1 V c 0 t) (iblk1 V c 1 t) (iblk1 V c 2 t) (iblk1 V c 3 t) (iblk1 V c 4 t) (iblk1 V c 5 t)
    (fun p => ⟨win1_6.index t (0 : Fin 2) * 5000 + p.val, hr p⟩)
    (fun p k => read1_0 (V c main_v14) t p k (hr p))
    (fun p => read1_1 (V c main_v19) t p 0 (hr p))
    (fun p k => read1_2 (V c main_arg0) t p k (hr p))
    (fun k q => read1_3 (V c main_arg9) t k q)
    (fun q => read1_4 (V c main_v20) t 0 q)
    (fun k q => read1_5 (V c main_arg11) t k q) p q).trans ?_
  exact (read1_6 _ t p q (hr p)).symm

/-- An index of the result is in point t's block iff each coordinate is in the block's range on its axis. -/
theorem mem_blk1 (t : Fin cfg1.N) (i : S500000x16.Idx) :
    i ∈ ((cfg1.win 6).blk t).view.set ↔ ∀ a : Fin 2, win1_6.index t a * S5000x16.size a ≤ (i a).val
      ∧ (i a).val < win1_6.index t a * S5000x16.size a + S5000x16.size a := by
  show i ∈ ((View.whole main_v21).slice (win1_6.rect t)).set ↔ _
  rw [View.set_slice_whole, Rect.mem_set_unit]
  exact Iff.rfl

/-- THE BLOCKS COVER THE RESULT: row r is in the block of point r / 5000. -/
theorem cover1 (i : S500000x16.Idx) :
    ∃ t : Fin cfg1.N, (cfg1.win 6).flush t = true ∧ i ∈ ((cfg1.win 6).blk t).view.set := by
  have hi0 : (i 0).val < 500000 := (i 0).isLt
  have hi1 : (i 1).val < 16 := (i 1).isLt
  have hN : cfg1.N = 100 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61, e6b⟩ := idx_facts1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 16 ≤ (i 1).val ∧ (i 1).val < win1_6.index t (1 : Fin 2) * 16 + 16
    omega

/-- THE SECOND KERNEL'S RESULT after its run: the layer of the sums, the counts, the node features, the left weights,
    the bias row and the right weights as the region finds them. -/
theorem arr1 (c : Dev nD) :
    (dat1 (F := Ideal) V c).arrAt 6 cfg1.N
      = Cert.Sage.layerArrK (n := 500000) (fi := 4) (V c main_v14) (V c main_v19) (V c main_arg0) (V c main_arg9)
          (V c main_v20) (V c main_arg11) :=
  (dat1 (F := Ideal) V c).arrAt_eq_of_cover 6 _ (fun t _ => flushed1_eq V c t) cover1

end Cert.KernelIdeal.Blocks

end
-- ==== Proof.KBlocks23.lean ====
/-
  The output arrays of the two 16-feature layers' kernel regions after the run, each as ONE function of the arrays the
  region reads: region 2 writes [100000, 16] in 20 row blocks of 5000, region 3 writes [500000, 16] in 100.

  At grid point t the sums, counts and features windows hold rows 5000 t … 5000 t + 4999 of their arrays, the two weight
  windows and the bias window hold their whole arrays, and the output window is written back to the same rows. One row of
  a layer reads one row of the sums, of the counts and of the features, so what point t writes back is rows
  5000 t … 5000 t + 4999 of the layer of the WHOLE arrays. The row blocks cover the output (row r lies in block r / 5000),
  so the array ends holding the layer of the whole arrays, whatever it held at entry.
-/
import proofs.«404925_j76931454206189_1_alg».proof.Proof.Gen.KernelIdeal.Frame
import proofs.«404925_j76931454206189_1_alg».proof.Proof.KernelPay
import proofs.«404925_j76931454206189_1_alg».proof.Proof.SageSpec
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.ShloMosaic.Pipeline
open Cert.KernelIdeal Cert.KernelIdeal.Gen

/-! ## One row of a layer -/

/-- The two zero offsets, as the constant function. -/
theorem zeroOff : (![0, 0] : Fin 2 → Nat) = fun _ => 0 := funext fun a => by fin_cases a <;> rfl

/-- Entry (r, q) of the layer over arrays is the layer of the arrays' rows and columns at (r, q). -/
theorem layerArrK_at {n fi : ℕ} (S : (⟨2, ![n, fi]⟩ : Shape).Idx → EReal) (C : (⟨2, ![n, 1]⟩ : Shape).Idx → EReal)
    (X : (⟨2, ![n, fi]⟩ : Shape).Idx → EReal) (Wl : (⟨2, ![fi, 16]⟩ : Shape).Idx → EReal)
    (bl : (⟨2, ![1, 16]⟩ : Shape).Idx → EReal) (Wr : (⟨2, ![fi, 16]⟩ : Shape).Idx → EReal) (r : Fin n) (q : Fin 16) :
    Cert.Sage.layerArrK S C X Wl bl Wr (ix2 r q)
      = Cert.Sage.layer (fun p k => S (ix2 p k)) (fun p => C (ix2 p 0)) (fun p k => X (ix2 p k))
          (fun k q => Wl (ix2 k q)) (fun q => bl (ix2 0 q)) (fun k q => Wr (ix2 k q)) r q := rfl

/-- Entry (p, q) of a layer reads row p of the sums, of the counts and of the features, column q of the weights and
    entry q of the bias: two layers that agree there agree at the entry, whatever their numbers of rows. -/
theorem layer_row {n n' fi : ℕ} (S : Fin n → Fin fi → EReal) (C : Fin n → EReal) (X : Fin n → Fin fi → EReal)
    (Wl : Fin fi → Fin 16 → EReal) (bl : Fin 16 → EReal) (Wr : Fin fi → Fin 16 → EReal)
    (S' : Fin n' → Fin fi → EReal) (C' : Fin n' → EReal) (X' : Fin n' → Fin fi → EReal)
    (Wl' : Fin fi → Fin 16 → EReal) (bl' : Fin 16 → EReal) (Wr' : Fin fi → Fin 16 → EReal)
    (p : Fin n) (r : Fin n') (q : Fin 16)
    (hS : ∀ k, S p k = S' r k) (hC : C p = C' r) (hX : ∀ k, X p k = X' r k)
    (hWl : ∀ k, Wl k q = Wl' k q) (hbl : bl q = bl' q) (hWr : ∀ k, Wr k q = Wr' k q) :
    Cert.Sage.layer S C X Wl bl Wr p q = Cert.Sage.layer S' C' X' Wl' bl' Wr' r q := by
  unfold Cert.Sage.layer
  simp only [hS, hC, hX, hWl, hbl, hWr]

/-- THE PAYLOAD ON ROW BLOCKS. If row p of the sums, counts and features blocks is row r of three arrays of n rows, and
    the weight and bias blocks are the weight and bias arrays, then entry (p, q) of the body's payload is entry (r, q) of
    the layer of the arrays. -/
theorem pay_rows {n : ℕ} (x0 : Vec Ideal S5000x16 .f32) (x1 : Vec Ideal S5000x1 .f32) (x2 : Vec Ideal S5000x16 .f32)
    (x3 : Vec Ideal S16x16 .f32) (x4 : Vec Ideal S1x16 .f32) (x5 : Vec Ideal S16x16 .f32)
    (A0 : (⟨2, ![n, 16]⟩ : Shape).Idx → EReal) (A1 : (⟨2, ![n, 1]⟩ : Shape).Idx → EReal)
    (A2 : (⟨2, ![n, 16]⟩ : Shape).Idx → EReal) (A3 : (⟨2, ![16, 16]⟩ : Shape).Idx → EReal)
    (A4 : (⟨2, ![1, 16]⟩ : Shape).Idx → EReal) (A5 : (⟨2, ![16, 16]⟩ : Shape).Idx → EReal)
    (p : Fin 5000) (q : Fin 16) (r : Fin n)
    (h0 : ∀ k : Fin 16, x0 (ix2 p k) = A0 (ix2 r k)) (h1 : x1 (ix2 p 0) = A1 (ix2 r 0))
    (h2 : ∀ k : Fin 16, x2 (ix2 p k) = A2 (ix2 r k)) (h3 : ∀ k : Fin 16, x3 (ix2 k q) = A3 (ix2 k q))
    (h4 : x4 (ix2 0 q) = A4 (ix2 0 q)) (h5 : ∀ k : Fin 16, x5 (ix2 k q) = A5 (ix2 k q)) :
    k2_pay1 (F := Ideal) x1 x0 x2 x3 x5 x4 (ix2 p q) = Cert.Sage.layerArrK A0 A1 A2 A3 A4 A5 (ix2 r q) := by
  rw [Pay.pay16, layerArrK_at]
  exact layer_row _ _ _ _ _ _ _ _ _ _ _ _ p r q h0 h1 h2 h3 h4 h5

/-- The same for region 3's payload, which is region 2's. -/
theorem pay_rows3 {n : ℕ} (x0 : Vec Ideal S5000x16 .f32) (x1 : Vec Ideal S5000x1 .f32) (x2 : Vec Ideal S5000x16 .f32)
    (x3 : Vec Ideal S16x16 .f32) (x4 : Vec Ideal S1x16 .f32) (x5 : Vec Ideal S16x16 .f32)
    (A0 : (⟨2, ![n, 16]⟩ : Shape).Idx → EReal) (A1 : (⟨2, ![n, 1]⟩ : Shape).Idx → EReal)
    (A2 : (⟨2, ![n, 16]⟩ : Shape).Idx → EReal) (A3 : (⟨2, ![16, 16]⟩ : Shape).Idx → EReal)
    (A4 : (⟨2, ![1, 16]⟩ : Shape).Idx → EReal) (A5 : (⟨2, ![16, 16]⟩ : Shape).Idx → EReal)
    (p : Fin 5000) (q : Fin 16) (r : Fin n)
    (h0 : ∀ k : Fin 16, x0 (ix2 p k) = A0 (ix2 r k)) (h1 : x1 (ix2 p 0) = A1 (ix2 r 0))
    (h2 : ∀ k : Fin 16, x2 (ix2 p k) = A2 (ix2 r k)) (h3 : ∀ k : Fin 16, x3 (ix2 k q) = A3 (ix2 k q))
    (h4 : x4 (ix2 0 q) = A4 (ix2 0 q)) (h5 : ∀ k : Fin 16, x5 (ix2 k q) = A5 (ix2 k q)) :
    k3_pay1 (F := Ideal) x1 x0 x2 x3 x5 x4 (ix2 p q) = Cert.Sage.layerArrK A0 A1 A2 A3 A4 A5 (ix2 r q) := by
  rw [Pay.k3_eq]
  exact pay_rows x0 x1 x2 x3 x4 x5 A0 A1 A2 A3 A4 A5 p q r h0 h1 h2 h3 h4 h5

variable (V : (c : Dev nD) → (b : Ref sig .tc) → Buf (Elt Ideal) ((c : Thread nD τ).loc b))

/-! ## Region 2: [100000, 16] in 20 row blocks -/

/-- The layer of the six arrays region 2 reads, as the region finds them. -/
abbrev G2 (c : Dev nD) : S100000x16.Idx → EReal :=
  Cert.Sage.layerArrK (V c main_v25) (V c main_v30) (V c main_v10) (V c main_arg12) (V c main_v31) (V c main_arg14)

/-- The printed index maps over the grid's 20 points: the sums, counts, features and output windows sit at block (t, 0),
    the weight and bias windows at block (0, 0). -/
theorem maps2 : ∀ t : Fin cfg2.N, t.val < 20
    ∧ (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Every one of the 20 block rows is some point's. -/
theorem pts2 : ∀ b : Fin 20, ∃ t : Fin cfg2.N, t.val = b.val :=
  (by decide +kernel : ∀ b : Fin 20, ∃ t : Fin grid2.N, t.val = b.val)

/-- The sums block at point t: row p is row 5000 t + p of the sums. -/
theorem read2_0 (c : Dev nD) (t : Fin cfg2.N) (p : Fin 5000) (k : Fin 16) (r : Fin 100000)
    (hr : r.val = t.val * 5000 + p.val) :
    (iblk2 (F := Ideal) V c 0 t : S5000x16.Idx → EReal) (ix2 p k) = (V c main_v25 : S100000x16.Idx → EReal) (ix2 r k) := by
  obtain ⟨-, ⟨e0, e1⟩, -⟩ := maps2 t
  show V c main_v25 (((cfg2.win 0).blk t).view.emb (ix2 p k)) = V c main_v25 (ix2 r k)
  refine congrArg (V c main_v25) (funext fun a => Fin.ext ?_)
  match a with
  | ⟨0, _⟩ => show win2_0.index t (0 : Fin 2) * 5000 + 1 * p.val = r.val; omega
  | ⟨1, _⟩ => show win2_0.index t (1 : Fin 2) * 16 + 1 * k.val = k.val; omega

/-- The counts block at point t: row p is row 5000 t + p of the counts. -/
theorem read2_1 (c : Dev nD) (t : Fin cfg2.N) (p : Fin 5000) (z : Fin 1) (r : Fin 100000)
    (hr : r.val = t.val * 5000 + p.val) :
    (iblk2 (F := Ideal) V c 1 t : S5000x1.Idx → EReal) (ix2 p z) = (V c main_v30 : S100000x1.Idx → EReal) (ix2 r z) := by
  obtain ⟨-, -, ⟨e0, e1⟩, -⟩ := maps2 t
  show V c main_v30 (((cfg2.win 1).blk t).view.emb (ix2 p z)) = V c main_v30 (ix2 r z)
  refine congrArg (V c main_v30) (funext fun a => Fin.ext ?_)
  match a with
  | ⟨0, _⟩ => show win2_1.index t (0 : Fin 2) * 5000 + 1 * p.val = r.val; omega
  | ⟨1, _⟩ => show win2_1.index t (1 : Fin 2) * 1 + 1 * z.val = z.val; omega

/-- The features block at point t: row p is row 5000 t + p of the features. -/
theorem read2_2 (c : Dev nD) (t : Fin cfg2.N) (p : Fin 5000) (k : Fin 16) (r : Fin 100000)
    (hr : r.val = t.val * 5000 + p.val) :
    (iblk2 (F := Ideal) V c 2 t : S5000x16.Idx → EReal) (ix2 p k) = (V c main_v10 : S100000x16.Idx → EReal) (ix2 r k) := by
  obtain ⟨-, -, -, ⟨e0, e1⟩, -⟩ := maps2 t
  show V c main_v10 (((cfg2.win 2).blk t).view.emb (ix2 p k)) = V c main_v10 (ix2 r k)
  refine congrArg (V c main_v10) (funext fun a => Fin.ext ?_)
  match a with
  | ⟨0, _⟩ => show win2_2.index t (0 : Fin 2) * 5000 + 1 * p.val = r.val; omega
  | ⟨1, _⟩ => show win2_2.index t (1 : Fin 2) * 16 + 1 * k.val = k.val; omega

/-- The first weight block at every point is the whole array. -/
theorem read2_3 (c : Dev nD) (t : Fin cfg2.N) (k q : Fin 16) :
    (iblk2 (F := Ideal) V c 3 t : S16x16.Idx → EReal) (ix2 k q) = (V c main_arg12 : S16x16.Idx → EReal) (ix2 k q) := by
  obtain ⟨-, -, -, -, ⟨e0, e1⟩, -⟩ := maps2 t
  show V c main_arg12 (((cfg2.win 3).blk t).view.emb (ix2 k q)) = V c main_arg12 (ix2 k q)
  refine congrArg (V c main_arg12) (funext fun a => Fin.ext ?_)
  match a with
  | ⟨0, _⟩ => show win2_3.index t (0 : Fin 2) * 16 + 1 * k.val = k.val; omega
  | ⟨1, _⟩ => show win2_3.index t (1 : Fin 2) * 16 + 1 * q.val = q.val; omega

/-- The bias block at every point is the whole row. -/
theorem read2_4 (c : Dev nD) (t : Fin cfg2.N) (z : Fin 1) (q : Fin 16) :
    (iblk2 (F := Ideal) V c 4 t : S1x16.Idx → EReal) (ix2 z q) = (V c main_v31 : S1x16.Idx → EReal) (ix2 z q) := by
  obtain ⟨-, -, -, -, -, ⟨e0, e1⟩, -⟩ := maps2 t
  show V c main_v31 (((cfg2.win 4).blk t).view.emb (ix2 z q)) = V c main_v31 (ix2 z q)
  refine congrArg (V c main_v31) (funext fun a => Fin.ext ?_)
  match a with
  | ⟨0, _⟩ => show win2_4.index t (0 : Fin 2) * 1 + 1 * z.val = z.val; omega
  | ⟨1, _⟩ => show win2_4.index t (1 : Fin 2) * 16 + 1 * q.val = q.val; omega

/-- The second weight block at every point is the whole array. -/
theorem read2_5 (c : Dev nD) (t : Fin cfg2.N) (k q : Fin 16) :
    (iblk2 (F := Ideal) V c 5 t : S16x16.Idx → EReal) (ix2 k q) = (V c main_arg14 : S16x16.Idx → EReal) (ix2 k q) := by
  obtain ⟨-, -, -, -, -, -, ⟨e0, e1⟩, -⟩ := maps2 t
  show V c main_arg14 (((cfg2.win 5).blk t).view.emb (ix2 k q)) = V c main_arg14 (ix2 k q)
  refine congrArg (V c main_arg14) (funext fun a => Fin.ext ?_)
  match a with
  | ⟨0, _⟩ => show win2_5.index t (0 : Fin 2) * 16 + 1 * k.val = k.val; omega
  | ⟨1, _⟩ => show win2_5.index t (1 : Fin 2) * 16 + 1 * q.val = q.val; omega

/-- Entry (p, q) of the output block at point t is entry (5000 t + p, q) of the output array. -/
theorem out2 (t : Fin cfg2.N) (p : Fin 5000) (q : Fin 16) (r : Fin 100000) (hr : r.val = t.val * 5000 + p.val) :
    ((cfg2.win 6).blk t).view.emb (ix2 p q) = (ix2 r q : S100000x16.Idx) := by
  obtain ⟨-, -, -, -, -, -, -, ⟨e0, e1⟩⟩ := maps2 t
  refine funext fun a => Fin.ext ?_
  match a with
  | ⟨0, _⟩ => show win2_6.index t (0 : Fin 2) * 5000 + 1 * p.val = r.val; omega
  | ⟨1, _⟩ => show win2_6.index t (1 : Fin 2) * 16 + 1 * q.val = q.val; omega

/-- AT A POINT: entry (p, q) of what point t writes back is entry (p, q) of block t of the layer of the whole arrays. -/
theorem point2 (c : Dev nD) (t : Fin cfg2.N) (p : Fin 5000) (q : Fin 16) (r : Fin 100000)
    (hr : r.val = t.val * 5000 + p.val) :
    (cfg2.win 6).cut (grid2.coords t) (k2_pay1 (F := Ideal) (iblk2 V c 1 t) (iblk2 V c 0 t) (iblk2 V c 2 t)
        (iblk2 V c 3 t) (iblk2 V c 5 t) (iblk2 V c 4 t)) (ix2 p q)
      = ((cfg2.win 6).blk t).view.read (Elt Ideal) (G2 V c) (ix2 p q) := by
  show k2_pay1 (F := Ideal) (iblk2 V c 1 t) (iblk2 V c 0 t) (iblk2 V c 2 t) (iblk2 V c 3 t) (iblk2 V c 5 t)
      (iblk2 V c 4 t) (ix2 p q) = G2 V c (((cfg2.win 6).blk t).view.emb (ix2 p q))
  refine Eq.trans ?_ (congrArg (G2 V c) (out2 t p q r hr).symm)
  exact pay_rows (n := 100000) (iblk2 (F := Ideal) V c 0 t) (iblk2 (F := Ideal) V c 1 t) (iblk2 (F := Ideal) V c 2 t)
    (iblk2 (F := Ideal) V c 3 t) (iblk2 (F := Ideal) V c 4 t) (iblk2 (F := Ideal) V c 5 t)
    (V c main_v25) (V c main_v30) (V c main_v10) (V c main_arg12) (V c main_v31) (V c main_arg14) p q r
    (fun k => read2_0 V c t p k r hr) (read2_1 V c t p 0 r hr) (fun k => read2_2 V c t p k r hr)
    (fun k => read2_3 V c t k q) (read2_4 V c t 0 q) (fun k => read2_5 V c t k q)

/-- WHAT POINT t WRITES BACK is block t of the layer of the whole arrays. -/
theorem flushed2 (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero zeroOff]
  simp only [View.ld_unit_zero (S := S5000x1) zeroOff, View.ld_unit_zero (S := S5000x16) zeroOff,
    View.ld_unit_zero (S := S16x16) zeroOff, View.ld_unit_zero (S := S1x16) zeroOff]
  refine funext fun (j : S5000x16.Idx) => ?_
  obtain ⟨p, q, rfl⟩ : ∃ (p : Fin 5000) (q : Fin 16), j = ix2 p q := ⟨j 0, j 1, eq_ix2 j⟩
  have ht : t.val < 20 := (maps2 t).1
  have hp : p.val < 5000 := p.isLt
  exact point2 V c t p q ⟨t.val * 5000 + p.val, by omega⟩ rfl

/-- An index of the output array is in point t's block iff each coordinate is in the block's range on its axis. -/
theorem mem_blk2 (t : Fin cfg2.N) (i : S100000x16.Idx) :
    i ∈ ((cfg2.win 6).blk t).view.set ↔ ∀ a : Fin 2, win2_6.index t a * S5000x16.size a ≤ (i a).val
      ∧ (i a).val < win2_6.index t a * S5000x16.size a + S5000x16.size a := by
  show i ∈ ((View.whole main_v32).slice (win2_6.rect t)).set ↔ _
  rw [View.set_slice_whole, Rect.mem_set_unit]
  exact Iff.rfl

/-- THE BLOCKS COVER THE ARRAY: row r is in the block of point r / 5000. -/
theorem cover2 (i : S100000x16.Idx) :
    ∃ t : Fin cfg2.N, (cfg2.win 6).flush t = true ∧ i ∈ ((cfg2.win 6).blk t).view.set := by
  have hi0 : (i 0).val < 100000 := (i 0).isLt
  have hi1 : (i 1).val < 16 := (i 1).isLt
  obtain ⟨t, ht⟩ := pts2 ⟨(i 0).val / 5000, by omega⟩
  have ht' : t.val = (i 0).val / 5000 := ht
  obtain ⟨-, -, -, -, -, -, -, ⟨e0, e1⟩⟩ := maps2 t
  refine ⟨t, flush2_6 t, ?_⟩
  rw [mem_blk2]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 16 ≤ (i 1).val ∧ (i 1).val < win2_6.index t (1 : Fin 2) * 16 + 16
    omega

/-- REGION 2'S OUTPUT ARRAY after the run is the layer of the six arrays the region reads, as it finds them. -/
theorem arr2 (c : Dev nD) : (dat2 (F := Ideal) V c).arrAt 6 cfg2.N
    = Cert.Sage.layerArrK (V c main_v25) (V c main_v30) (V c main_v10) (V c main_arg12) (V c main_v31) (V c main_arg14) :=
  (dat2 (F := Ideal) V c).arrAt_eq_of_cover 6 (G2 V c) (fun t _ => flushed2 V c t) cover2

/-! ## Region 3: [500000, 16] in 100 row blocks -/

/-- The layer of the six arrays region 3 reads, as the region finds them. -/
abbrev G3 (c : Dev nD) : S500000x16.Idx → EReal :=
  Cert.Sage.layerArrK (V c main_v36) (V c main_v41) (V c main_v21) (V c main_arg15) (V c main_v42) (V c main_arg17)

/-- The printed index maps over the grid's 100 points: the sums, counts, features and output windows sit at block (t, 0),
    the weight and bias windows at block (0, 0). -/
theorem maps3 : ∀ t : Fin cfg3.N, t.val < 100
    ∧ (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0) :=
  (by decide +kernel : ∀ t : Fin grid3.N, _)

/-- Every one of the 100 block rows is some point's. -/
theorem pts3 : ∀ b : Fin 100, ∃ t : Fin cfg3.N, t.val = b.val :=
  (by decide +kernel : ∀ b : Fin 100, ∃ t : Fin grid3.N, t.val = b.val)

/-- The sums block at point t: row p is row 5000 t + p of the sums. -/
theorem read3_0 (c : Dev nD) (t : Fin cfg3.N) (p : Fin 5000) (k : Fin 16) (r : Fin 500000)
    (hr : r.val = t.val * 5000 + p.val) :
    (iblk3 (F := Ideal) V c 0 t : S5000x16.Idx → EReal) (ix2 p k) = (V c main_v36 : S500000x16.Idx → EReal) (ix2 r k) := by
  obtain ⟨-, ⟨e0, e1⟩, -⟩ := maps3 t
  show V c main_v36 (((cfg3.win 0).blk t).view.emb (ix2 p k)) = V c main_v36 (ix2 r k)
  refine congrArg (V c main_v36) (funext fun a => Fin.ext ?_)
  match a with
  | ⟨0, _⟩ => show win3_0.index t (0 : Fin 2) * 5000 + 1 * p.val = r.val; omega
  | ⟨1, _⟩ => show win3_0.index t (1 : Fin 2) * 16 + 1 * k.val = k.val; omega

/-- The counts block at point t: row p is row 5000 t + p of the counts. -/
theorem read3_1 (c : Dev nD) (t : Fin cfg3.N) (p : Fin 5000) (z : Fin 1) (r : Fin 500000)
    (hr : r.val = t.val * 5000 + p.val) :
    (iblk3 (F := Ideal) V c 1 t : S5000x1.Idx → EReal) (ix2 p z) = (V c main_v41 : S500000x1.Idx → EReal) (ix2 r z) := by
  obtain ⟨-, -, ⟨e0, e1⟩, -⟩ := maps3 t
  show V c main_v41 (((cfg3.win 1).blk t).view.emb (ix2 p z)) = V c main_v41 (ix2 r z)
  refine congrArg (V c main_v41) (funext fun a => Fin.ext ?_)
  match a with
  | ⟨0, _⟩ => show win3_1.index t (0 : Fin 2) * 5000 + 1 * p.val = r.val; omega
  | ⟨1, _⟩ => show win3_1.index t (1 : Fin 2) * 1 + 1 * z.val = z.val; omega

/-- The features block at point t: row p is row 5000 t + p of the features. -/
theorem read3_2 (c : Dev nD) (t : Fin cfg3.N) (p : Fin 5000) (k : Fin 16) (r : Fin 500000)
    (hr : r.val = t.val * 5000 + p.val) :
    (iblk3 (F := Ideal) V c 2 t : S5000x16.Idx → EReal) (ix2 p k) = (V c main_v21 : S500000x16.Idx → EReal) (ix2 r k) := by
  obtain ⟨-, -, -, ⟨e0, e1⟩, -⟩ := maps3 t
  show V c main_v21 (((cfg3.win 2).blk t).view.emb (ix2 p k)) = V c main_v21 (ix2 r k)
  refine congrArg (V c main_v21) (funext fun a => Fin.ext ?_)
  match a with
  | ⟨0, _⟩ => show win3_2.index t (0 : Fin 2) * 5000 + 1 * p.val = r.val; omega
  | ⟨1, _⟩ => show win3_2.index t (1 : Fin 2) * 16 + 1 * k.val = k.val; omega

/-- The first weight block at every point is the whole array. -/
theorem read3_3 (c : Dev nD) (t : Fin cfg3.N) (k q : Fin 16) :
    (iblk3 (F := Ideal) V c 3 t : S16x16.Idx → EReal) (ix2 k q) = (V c main_arg15 : S16x16.Idx → EReal) (ix2 k q) := by
  obtain ⟨-, -, -, -, ⟨e0, e1⟩, -⟩ := maps3 t
  show V c main_arg15 (((cfg3.win 3).blk t).view.emb (ix2 k q)) = V c main_arg15 (ix2 k q)
  refine congrArg (V c main_arg15) (funext fun a => Fin.ext ?_)
  match a with
  | ⟨0, _⟩ => show win3_3.index t (0 : Fin 2) * 16 + 1 * k.val = k.val; omega
  | ⟨1, _⟩ => show win3_3.index t (1 : Fin 2) * 16 + 1 * q.val = q.val; omega

/-- The bias block at every point is the whole row. -/
theorem read3_4 (c : Dev nD) (t : Fin cfg3.N) (z : Fin 1) (q : Fin 16) :
    (iblk3 (F := Ideal) V c 4 t : S1x16.Idx → EReal) (ix2 z q) = (V c main_v42 : S1x16.Idx → EReal) (ix2 z q) := by
  obtain ⟨-, -, -, -, -, ⟨e0, e1⟩, -⟩ := maps3 t
  show V c main_v42 (((cfg3.win 4).blk t).view.emb (ix2 z q)) = V c main_v42 (ix2 z q)
  refine congrArg (V c main_v42) (funext fun a => Fin.ext ?_)
  match a with
  | ⟨0, _⟩ => show win3_4.index t (0 : Fin 2) * 1 + 1 * z.val = z.val; omega
  | ⟨1, _⟩ => show win3_4.index t (1 : Fin 2) * 16 + 1 * q.val = q.val; omega

/-- The second weight block at every point is the whole array. -/
theorem read3_5 (c : Dev nD) (t : Fin cfg3.N) (k q : Fin 16) :
    (iblk3 (F := Ideal) V c 5 t : S16x16.Idx → EReal) (ix2 k q) = (V c main_arg17 : S16x16.Idx → EReal) (ix2 k q) := by
  obtain ⟨-, -, -, -, -, -, ⟨e0, e1⟩, -⟩ := maps3 t
  show V c main_arg17 (((cfg3.win 5).blk t).view.emb (ix2 k q)) = V c main_arg17 (ix2 k q)
  refine congrArg (V c main_arg17) (funext fun a => Fin.ext ?_)
  match a with
  | ⟨0, _⟩ => show win3_5.index t (0 : Fin 2) * 16 + 1 * k.val = k.val; omega
  | ⟨1, _⟩ => show win3_5.index t (1 : Fin 2) * 16 + 1 * q.val = q.val; omega

/-- Entry (p, q) of the output block at point t is entry (5000 t + p, q) of the output array. -/
theorem out3 (t : Fin cfg3.N) (p : Fin 5000) (q : Fin 16) (r : Fin 500000) (hr : r.val = t.val * 5000 + p.val) :
    ((cfg3.win 6).blk t).view.emb (ix2 p q) = (ix2 r q : S500000x16.Idx) := by
  obtain ⟨-, -, -, -, -, -, -, ⟨e0, e1⟩⟩ := maps3 t
  refine funext fun a => Fin.ext ?_
  match a with
  | ⟨0, _⟩ => show win3_6.index t (0 : Fin 2) * 5000 + 1 * p.val = r.val; omega
  | ⟨1, _⟩ => show win3_6.index t (1 : Fin 2) * 16 + 1 * q.val = q.val; omega

/-- AT A POINT: entry (p, q) of what point t writes back is entry (p, q) of block t of the layer of the whole arrays. -/
theorem point3 (c : Dev nD) (t : Fin cfg3.N) (p : Fin 5000) (q : Fin 16) (r : Fin 500000)
    (hr : r.val = t.val * 5000 + p.val) :
    (cfg3.win 6).cut (grid3.coords t) (k3_pay1 (F := Ideal) (iblk3 V c 1 t) (iblk3 V c 0 t) (iblk3 V c 2 t)
        (iblk3 V c 3 t) (iblk3 V c 5 t) (iblk3 V c 4 t)) (ix2 p q)
      = ((cfg3.win 6).blk t).view.read (Elt Ideal) (G3 V c) (ix2 p q) := by
  show k3_pay1 (F := Ideal) (iblk3 V c 1 t) (iblk3 V c 0 t) (iblk3 V c 2 t) (iblk3 V c 3 t) (iblk3 V c 5 t)
      (iblk3 V c 4 t) (ix2 p q) = G3 V c (((cfg3.win 6).blk t).view.emb (ix2 p q))
  refine Eq.trans ?_ (congrArg (G3 V c) (out3 t p q r hr).symm)
  exact pay_rows3 (n := 500000) (iblk3 (F := Ideal) V c 0 t) (iblk3 (F := Ideal) V c 1 t) (iblk3 (F := Ideal) V c 2 t)
    (iblk3 (F := Ideal) V c 3 t) (iblk3 (F := Ideal) V c 4 t) (iblk3 (F := Ideal) V c 5 t)
    (V c main_v36) (V c main_v41) (V c main_v21) (V c main_arg15) (V c main_v42) (V c main_arg17) p q r
    (fun k => read3_0 V c t p k r hr) (read3_1 V c t p 0 r hr) (fun k => read3_2 V c t p k r hr)
    (fun k => read3_3 V c t k q) (read3_4 V c t 0 q) (fun k => read3_5 V c t k q)

/-- WHAT POINT t WRITES BACK is block t of the layer of the whole arrays. -/
theorem flushed3 (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero zeroOff]
  simp only [View.ld_unit_zero (S := S5000x1) zeroOff, View.ld_unit_zero (S := S5000x16) zeroOff,
    View.ld_unit_zero (S := S16x16) zeroOff, View.ld_unit_zero (S := S1x16) zeroOff]
  refine funext fun (j : S5000x16.Idx) => ?_
  obtain ⟨p, q, rfl⟩ : ∃ (p : Fin 5000) (q : Fin 16), j = ix2 p q := ⟨j 0, j 1, eq_ix2 j⟩
  have ht : t.val < 100 := (maps3 t).1
  have hp : p.val < 5000 := p.isLt
  exact point3 V c t p q ⟨t.val * 5000 + p.val, by omega⟩ rfl

/-- An index of the output array is in point t's block iff each coordinate is in the block's range on its axis. -/
theorem mem_blk3 (t : Fin cfg3.N) (i : S500000x16.Idx) :
    i ∈ ((cfg3.win 6).blk t).view.set ↔ ∀ a : Fin 2, win3_6.index t a * S5000x16.size a ≤ (i a).val
      ∧ (i a).val < win3_6.index t a * S5000x16.size a + S5000x16.size a := by
  show i ∈ ((View.whole main_v43).slice (win3_6.rect t)).set ↔ _
  rw [View.set_slice_whole, Rect.mem_set_unit]
  exact Iff.rfl

/-- THE BLOCKS COVER THE ARRAY: row r is in the block of point r / 5000. -/
theorem cover3 (i : S500000x16.Idx) :
    ∃ t : Fin cfg3.N, (cfg3.win 6).flush t = true ∧ i ∈ ((cfg3.win 6).blk t).view.set := by
  have hi0 : (i 0).val < 500000 := (i 0).isLt
  have hi1 : (i 1).val < 16 := (i 1).isLt
  obtain ⟨t, ht⟩ := pts3 ⟨(i 0).val / 5000, by omega⟩
  have ht' : t.val = (i 0).val / 5000 := ht
  obtain ⟨-, -, -, -, -, -, -, ⟨e0, e1⟩⟩ := maps3 t
  refine ⟨t, flush3_6 t, ?_⟩
  rw [mem_blk3]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 16 ≤ (i 1).val ∧ (i 1).val < win3_6.index t (1 : Fin 2) * 16 + 16
    omega

/-- REGION 3'S OUTPUT ARRAY after the run is the layer of the six arrays the region reads, as it finds them. -/
theorem arr3 (c : Dev nD) : (dat3 (F := Ideal) V c).arrAt 6 cfg3.N
    = Cert.Sage.layerArrK (V c main_v36) (V c main_v41) (V c main_v21) (V c main_arg15) (V c main_v42) (V c main_arg17) :=
  (dat3 (F := Ideal) V c).arrAt_eq_of_cover 6 (G3 V c) (fun t _ => flushed3 V c t) cover3

end Cert.KernelIdeal.Blocks

end
-- ==== Proof.KFold.lean ====
/- What each buffer holds at each boundary between @main's segments, as a function of the launch memory. An argument is
  never written, so it holds its launch contents at every boundary; the gathered rows, the neighbour sums and counts,
  the reshaped counts and bias are the stretch's functions of what was there before; a region's output array is the
  layer (Cert.Sage.layerArr) of the arrays the region entered with. Composed, the two results are layers over layers:
  zP and zU below.
-/
import proofs.«404925_j76931454206189_1_alg».proof.Proof.Gen.KernelIdeal.Frame
import proofs.«404925_j76931454206189_1_alg».proof.Proof.KStretch
import proofs.«404925_j76931454206189_1_alg».proof.Proof.KTake
import proofs.«404925_j76931454206189_1_alg».proof.Proof.KBlocks01
import proofs.«404925_j76931454206189_1_alg».proof.Proof.KBlocks23
import proofs.«404925_j76931454206189_1_alg».proof.Proof.SageSpec
import Idealize.ShloMosaic.Lib.Pipeline.Value
import Idealize.ShloMosaic.Lib.StableHlo.Run

set_option maxRecDepth 16384

noncomputable section

namespace Cert.KernelIdeal.Fold

open Idealize.ShloMosaic Idealize.ShloMosaic.StableHlo Idealize.ShloMosaic.TcCoe Idealize.ShloMosaic.ValueIdx Idealize.SL.Sem
open Cert.KernelIdeal Cert.KernelIdeal.Gen Cert.KernelIdeal.Stretch Cert.KernelIdeal.Take

/-- A buffer no operation of a host stretch writes holds after the stretch what it held before. -/
macro "skip_host " ops:ident b:ident : tactic => `(tactic| exact StableHlo.after_of_forall_not_mem (b := Proc.devRef .tc $b) _ _ (List.forall_iff_forall_mem.mp (by
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- A column reshaped from a vector, read at row p. -/
theorem col_read {n : Nat} (C : (⟨1, ![n]⟩ : Shape).Idx → EReal) (h : (⟨1, ![n]⟩ : Shape).ShapeCasts ⟨2, ![n, 1]⟩) (p : Fin n) :
    shapeCast ⟨2, ![n, 1]⟩ C h (ix2 p 0) = C (ix1 p) :=
  shapeCast_apply C h (ix2 p 0) (ix1 p) (by rw [Shape.rowMajor_val_one, Shape.rowMajor_val_two]; show p.val = p.val * 1 + 0; omega)

/-- A row reshaped from a vector, read at column q. -/
theorem row_read {n : Nat} (b : (⟨1, ![n]⟩ : Shape).Idx → EReal) (h : (⟨1, ![n]⟩ : Shape).ShapeCasts ⟨2, ![1, n]⟩) (q : Fin n) :
    shapeCast ⟨2, ![1, n]⟩ b h (ix2 0 q) = b (ix1 q) :=
  shapeCast_apply b h (ix2 0 q) (ix1 q) (by rw [Shape.rowMajor_val_one, Shape.rowMajor_val_two]; show q.val = 0 * n + q.val; omega)

/-- The layer of equal arrays. -/
theorem layerArrK_congr {n fi : ℕ} {S S' : (⟨2, ![n, fi]⟩ : Shape).Idx → EReal} {C C' : (⟨2, ![n, 1]⟩ : Shape).Idx → EReal}
    {X X' : (⟨2, ![n, fi]⟩ : Shape).Idx → EReal} {Wl Wl' : (⟨2, ![fi, 16]⟩ : Shape).Idx → EReal} {bl bl' : (⟨2, ![1, 16]⟩ : Shape).Idx → EReal}
    {Wr Wr' : (⟨2, ![fi, 16]⟩ : Shape).Idx → EReal} (hS : S = S') (hC : C = C') (hX : X = X') (hWl : Wl = Wl') (hb : bl = bl') (hWr : Wr = Wr') :
    Cert.Sage.layerArrK S C X Wl bl Wr = Cert.Sage.layerArrK S' C' X' Wl' bl' Wr' := by
  subst hS hC hX hWl hb hWr; rfl

/-! ## The two hidden layers and the two results, as functions of the arguments -/

section Net
variable (x0 : FVec Ideal S500000x4 .f32) (x1 : FVec Ideal S100000x4 .f32) (x2 x3 x4 x5 : IVec S5000000 32)
  (x6 : FVec Ideal S4x16 .f32) (x7 : FVec Ideal S16 .f32) (x8 x9 : FVec Ideal S4x16 .f32) (x10 : FVec Ideal S16 .f32) (x11 : FVec Ideal S4x16 .f32)
  (x12 : FVec Ideal S16x16 .f32) (x13 : FVec Ideal S16 .f32) (x14 x15 : FVec Ideal S16x16 .f32) (x16 : FVec Ideal S16 .f32) (x17 : FVec Ideal S16x16 .f32)

/-- Layer 1 at the 100000 nodes: neighbours gathered from the 500000-row table. -/
def hU : FVec Ideal S100000x16 .f32 := Cert.Sage.layerArr (sumsU4 x3 (takeP4 x0 x2)) (cntU x3) x1 x6 x7 x8
/-- Layer 1 at the 500000 nodes: neighbours gathered from the 100000-row table. -/
def hP : FVec Ideal S500000x16 .f32 := Cert.Sage.layerArr (sumsP4 x5 (takeU4 x1 x4)) (cntP x5) x0 x9 x10 x11
/-- Layer 2 at the 100000 nodes, over layer 1's outputs. -/
def zU : FVec Ideal S100000x16 .f32 :=
  Cert.Sage.layerArr (sumsU16 x3 (takeP16 (hP x0 x1 x4 x5 x9 x10 x11) x2)) (cntU x3) (hU x0 x1 x2 x3 x6 x7 x8) x12 x13 x14
/-- Layer 2 at the 500000 nodes, over layer 1's outputs. -/
def zP : FVec Ideal S500000x16 .f32 :=
  Cert.Sage.layerArr (sumsP16 x5 (takeU16 (hU x0 x1 x2 x3 x6 x7 x8) x4)) (cntP x5) (hP x0 x1 x4 x5 x9 x10 x11) x15 x16 x17
end Net

variable (m : (ℓ : Loc nD τ sig) → Buf (Elt Ideal) ℓ) (ρ : Dev nD → PrngReg) (c : Dev nD)

/-! ## The arguments at every boundary that is read -/

theorem W1_a0 : W1 m ρ c (Proc.devRef .tc main_arg0) = m ((c : Thread nD τ).loc main_arg0) :=
  (by skip_host hostOps0 main_arg0 : W1 m ρ c (Proc.devRef .tc main_arg0) = W0 m ρ c (Proc.devRef .tc main_arg0)).trans rfl
theorem W2_a0 : W2 m ρ c (Proc.devRef .tc main_arg0) = m ((c : Thread nD τ).loc main_arg0) :=
  (by skip_host hostOps0_1 main_arg0 : W2 m ρ c (Proc.devRef .tc main_arg0) = W1 m ρ c (Proc.devRef .tc main_arg0)).trans (W1_a0 m ρ c)
theorem W3_a0 : W3 m ρ c (Proc.devRef .tc main_arg0) = m ((c : Thread nD τ).loc main_arg0) :=
  (W3_of_ne m ρ c main_arg0 (by decide) : W3 m ρ c (Proc.devRef .tc main_arg0) = W2 m ρ c (Proc.devRef .tc main_arg0)).trans (W2_a0 m ρ c)
theorem W4_a0 : W4 m ρ c (Proc.devRef .tc main_arg0) = m ((c : Thread nD τ).loc main_arg0) :=
  (by skip_host hostOps1 main_arg0 : W4 m ρ c (Proc.devRef .tc main_arg0) = W3 m ρ c (Proc.devRef .tc main_arg0)).trans (W3_a0 m ρ c)
theorem W5_a0 : W5 m ρ c (Proc.devRef .tc main_arg0) = m ((c : Thread nD τ).loc main_arg0) :=
  (by skip_host hostOps1_1 main_arg0 : W5 m ρ c (Proc.devRef .tc main_arg0) = W4 m ρ c (Proc.devRef .tc main_arg0)).trans (W4_a0 m ρ c)
theorem W1_a1 : W1 m ρ c (Proc.devRef .tc main_arg1) = m ((c : Thread nD τ).loc main_arg1) :=
  (by skip_host hostOps0 main_arg1 : W1 m ρ c (Proc.devRef .tc main_arg1) = W0 m ρ c (Proc.devRef .tc main_arg1)).trans rfl
theorem W2_a1 : W2 m ρ c (Proc.devRef .tc main_arg1) = m ((c : Thread nD τ).loc main_arg1) :=
  (by skip_host hostOps0_1 main_arg1 : W2 m ρ c (Proc.devRef .tc main_arg1) = W1 m ρ c (Proc.devRef .tc main_arg1)).trans (W1_a1 m ρ c)
theorem W3_a1 : W3 m ρ c (Proc.devRef .tc main_arg1) = m ((c : Thread nD τ).loc main_arg1) :=
  ((W3_arr m ρ c 2).trans (((dat0 (V2 m ρ) c).arrAt_in 2 rfl _).trans (A_eq0 (V2 m ρ) c 2)) : W3 m ρ c (Proc.devRef .tc main_arg1) = W2 m ρ c (Proc.devRef .tc main_arg1)).trans (W2_a1 m ρ c)
theorem W1_a2 : W1 m ρ c (Proc.devRef .tc main_arg2) = m ((c : Thread nD τ).loc main_arg2) :=
  (by skip_host hostOps0 main_arg2 : W1 m ρ c (Proc.devRef .tc main_arg2) = W0 m ρ c (Proc.devRef .tc main_arg2)).trans rfl
theorem W2_a2 : W2 m ρ c (Proc.devRef .tc main_arg2) = m ((c : Thread nD τ).loc main_arg2) :=
  (by skip_host hostOps0_1 main_arg2 : W2 m ρ c (Proc.devRef .tc main_arg2) = W1 m ρ c (Proc.devRef .tc main_arg2)).trans (W1_a2 m ρ c)
theorem W3_a2 : W3 m ρ c (Proc.devRef .tc main_arg2) = m ((c : Thread nD τ).loc main_arg2) :=
  (W3_of_ne m ρ c main_arg2 (by decide) : W3 m ρ c (Proc.devRef .tc main_arg2) = W2 m ρ c (Proc.devRef .tc main_arg2)).trans (W2_a2 m ρ c)
theorem W4_a2 : W4 m ρ c (Proc.devRef .tc main_arg2) = m ((c : Thread nD τ).loc main_arg2) :=
  (by skip_host hostOps1 main_arg2 : W4 m ρ c (Proc.devRef .tc main_arg2) = W3 m ρ c (Proc.devRef .tc main_arg2)).trans (W3_a2 m ρ c)
theorem W5_a2 : W5 m ρ c (Proc.devRef .tc main_arg2) = m ((c : Thread nD τ).loc main_arg2) :=
  (by skip_host hostOps1_1 main_arg2 : W5 m ρ c (Proc.devRef .tc main_arg2) = W4 m ρ c (Proc.devRef .tc main_arg2)).trans (W4_a2 m ρ c)
theorem W6_a2 : W6 m ρ c (Proc.devRef .tc main_arg2) = m ((c : Thread nD τ).loc main_arg2) :=
  (W6_of_ne m ρ c main_arg2 (by decide) : W6 m ρ c (Proc.devRef .tc main_arg2) = W5 m ρ c (Proc.devRef .tc main_arg2)).trans (W5_a2 m ρ c)
theorem W1_a3 : W1 m ρ c (Proc.devRef .tc main_arg3) = m ((c : Thread nD τ).loc main_arg3) :=
  (by skip_host hostOps0 main_arg3 : W1 m ρ c (Proc.devRef .tc main_arg3) = W0 m ρ c (Proc.devRef .tc main_arg3)).trans rfl
theorem W2_a3 : W2 m ρ c (Proc.devRef .tc main_arg3) = m ((c : Thread nD τ).loc main_arg3) :=
  (by skip_host hostOps0_1 main_arg3 : W2 m ρ c (Proc.devRef .tc main_arg3) = W1 m ρ c (Proc.devRef .tc main_arg3)).trans (W1_a3 m ρ c)
theorem W3_a3 : W3 m ρ c (Proc.devRef .tc main_arg3) = m ((c : Thread nD τ).loc main_arg3) :=
  (W3_of_ne m ρ c main_arg3 (by decide) : W3 m ρ c (Proc.devRef .tc main_arg3) = W2 m ρ c (Proc.devRef .tc main_arg3)).trans (W2_a3 m ρ c)
theorem W4_a3 : W4 m ρ c (Proc.devRef .tc main_arg3) = m ((c : Thread nD τ).loc main_arg3) :=
  (by skip_host hostOps1 main_arg3 : W4 m ρ c (Proc.devRef .tc main_arg3) = W3 m ρ c (Proc.devRef .tc main_arg3)).trans (W3_a3 m ρ c)
theorem W5_a3 : W5 m ρ c (Proc.devRef .tc main_arg3) = m ((c : Thread nD τ).loc main_arg3) :=
  (by skip_host hostOps1_1 main_arg3 : W5 m ρ c (Proc.devRef .tc main_arg3) = W4 m ρ c (Proc.devRef .tc main_arg3)).trans (W4_a3 m ρ c)
theorem W6_a3 : W6 m ρ c (Proc.devRef .tc main_arg3) = m ((c : Thread nD τ).loc main_arg3) :=
  (W6_of_ne m ρ c main_arg3 (by decide) : W6 m ρ c (Proc.devRef .tc main_arg3) = W5 m ρ c (Proc.devRef .tc main_arg3)).trans (W5_a3 m ρ c)
theorem W7_a3 : W7 m ρ c (Proc.devRef .tc main_arg3) = m ((c : Thread nD τ).loc main_arg3) :=
  (by skip_host hostOps2 main_arg3 : W7 m ρ c (Proc.devRef .tc main_arg3) = W6 m ρ c (Proc.devRef .tc main_arg3)).trans (W6_a3 m ρ c)
theorem W1_a4 : W1 m ρ c (Proc.devRef .tc main_arg4) = m ((c : Thread nD τ).loc main_arg4) :=
  (by skip_host hostOps0 main_arg4 : W1 m ρ c (Proc.devRef .tc main_arg4) = W0 m ρ c (Proc.devRef .tc main_arg4)).trans rfl
theorem W2_a4 : W2 m ρ c (Proc.devRef .tc main_arg4) = m ((c : Thread nD τ).loc main_arg4) :=
  (by skip_host hostOps0_1 main_arg4 : W2 m ρ c (Proc.devRef .tc main_arg4) = W1 m ρ c (Proc.devRef .tc main_arg4)).trans (W1_a4 m ρ c)
theorem W3_a4 : W3 m ρ c (Proc.devRef .tc main_arg4) = m ((c : Thread nD τ).loc main_arg4) :=
  (W3_of_ne m ρ c main_arg4 (by decide) : W3 m ρ c (Proc.devRef .tc main_arg4) = W2 m ρ c (Proc.devRef .tc main_arg4)).trans (W2_a4 m ρ c)
theorem W4_a4 : W4 m ρ c (Proc.devRef .tc main_arg4) = m ((c : Thread nD τ).loc main_arg4) :=
  (by skip_host hostOps1 main_arg4 : W4 m ρ c (Proc.devRef .tc main_arg4) = W3 m ρ c (Proc.devRef .tc main_arg4)).trans (W3_a4 m ρ c)
theorem W5_a4 : W5 m ρ c (Proc.devRef .tc main_arg4) = m ((c : Thread nD τ).loc main_arg4) :=
  (by skip_host hostOps1_1 main_arg4 : W5 m ρ c (Proc.devRef .tc main_arg4) = W4 m ρ c (Proc.devRef .tc main_arg4)).trans (W4_a4 m ρ c)
theorem W6_a4 : W6 m ρ c (Proc.devRef .tc main_arg4) = m ((c : Thread nD τ).loc main_arg4) :=
  (W6_of_ne m ρ c main_arg4 (by decide) : W6 m ρ c (Proc.devRef .tc main_arg4) = W5 m ρ c (Proc.devRef .tc main_arg4)).trans (W5_a4 m ρ c)
theorem W7_a4 : W7 m ρ c (Proc.devRef .tc main_arg4) = m ((c : Thread nD τ).loc main_arg4) :=
  (by skip_host hostOps2 main_arg4 : W7 m ρ c (Proc.devRef .tc main_arg4) = W6 m ρ c (Proc.devRef .tc main_arg4)).trans (W6_a4 m ρ c)
theorem W8_a4 : W8 m ρ c (Proc.devRef .tc main_arg4) = m ((c : Thread nD τ).loc main_arg4) :=
  (by skip_host hostOps2_1 main_arg4 : W8 m ρ c (Proc.devRef .tc main_arg4) = W7 m ρ c (Proc.devRef .tc main_arg4)).trans (W7_a4 m ρ c)
theorem W9_a4 : W9 m ρ c (Proc.devRef .tc main_arg4) = m ((c : Thread nD τ).loc main_arg4) :=
  (W9_of_ne m ρ c main_arg4 (by decide) : W9 m ρ c (Proc.devRef .tc main_arg4) = W8 m ρ c (Proc.devRef .tc main_arg4)).trans (W8_a4 m ρ c)
theorem W1_a5 : W1 m ρ c (Proc.devRef .tc main_arg5) = m ((c : Thread nD τ).loc main_arg5) :=
  (by skip_host hostOps0 main_arg5 : W1 m ρ c (Proc.devRef .tc main_arg5) = W0 m ρ c (Proc.devRef .tc main_arg5)).trans rfl
theorem W2_a5 : W2 m ρ c (Proc.devRef .tc main_arg5) = m ((c : Thread nD τ).loc main_arg5) :=
  (by skip_host hostOps0_1 main_arg5 : W2 m ρ c (Proc.devRef .tc main_arg5) = W1 m ρ c (Proc.devRef .tc main_arg5)).trans (W1_a5 m ρ c)
theorem W3_a5 : W3 m ρ c (Proc.devRef .tc main_arg5) = m ((c : Thread nD τ).loc main_arg5) :=
  (W3_of_ne m ρ c main_arg5 (by decide) : W3 m ρ c (Proc.devRef .tc main_arg5) = W2 m ρ c (Proc.devRef .tc main_arg5)).trans (W2_a5 m ρ c)
theorem W4_a5 : W4 m ρ c (Proc.devRef .tc main_arg5) = m ((c : Thread nD τ).loc main_arg5) :=
  (by skip_host hostOps1 main_arg5 : W4 m ρ c (Proc.devRef .tc main_arg5) = W3 m ρ c (Proc.devRef .tc main_arg5)).trans (W3_a5 m ρ c)
theorem W5_a5 : W5 m ρ c (Proc.devRef .tc main_arg5) = m ((c : Thread nD τ).loc main_arg5) :=
  (by skip_host hostOps1_1 main_arg5 : W5 m ρ c (Proc.devRef .tc main_arg5) = W4 m ρ c (Proc.devRef .tc main_arg5)).trans (W4_a5 m ρ c)
theorem W6_a5 : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (W5_a5 m ρ c)
theorem W7_a5 : W7 m ρ c (Proc.devRef .tc main_arg5) = m ((c : Thread nD τ).loc main_arg5) :=
  (by skip_host hostOps2 main_arg5 : W7 m ρ c (Proc.devRef .tc main_arg5) = W6 m ρ c (Proc.devRef .tc main_arg5)).trans (W6_a5 m ρ c)
theorem W8_a5 : W8 m ρ c (Proc.devRef .tc main_arg5) = m ((c : Thread nD τ).loc main_arg5) :=
  (by skip_host hostOps2_1 main_arg5 : W8 m ρ c (Proc.devRef .tc main_arg5) = W7 m ρ c (Proc.devRef .tc main_arg5)).trans (W7_a5 m ρ c)
theorem W9_a5 : W9 m ρ c (Proc.devRef .tc main_arg5) = m ((c : Thread nD τ).loc main_arg5) :=
  (W9_of_ne m ρ c main_arg5 (by decide) : W9 m ρ c (Proc.devRef .tc main_arg5) = W8 m ρ c (Proc.devRef .tc main_arg5)).trans (W8_a5 m ρ c)
theorem W10_a5 : W10 m ρ c (Proc.devRef .tc main_arg5) = m ((c : Thread nD τ).loc main_arg5) :=
  (by skip_host hostOps3 main_arg5 : W10 m ρ c (Proc.devRef .tc main_arg5) = W9 m ρ c (Proc.devRef .tc main_arg5)).trans (W9_a5 m ρ c)
theorem W1_a6 : W1 m ρ c (Proc.devRef .tc main_arg6) = m ((c : Thread nD τ).loc main_arg6) :=
  (by skip_host hostOps0 main_arg6 : W1 m ρ c (Proc.devRef .tc main_arg6) = W0 m ρ c (Proc.devRef .tc main_arg6)).trans rfl
theorem W2_a6 : W2 m ρ c (Proc.devRef .tc main_arg6) = m ((c : Thread nD τ).loc main_arg6) :=
  (by skip_host hostOps0_1 main_arg6 : W2 m ρ c (Proc.devRef .tc main_arg6) = W1 m ρ c (Proc.devRef .tc main_arg6)).trans (W1_a6 m ρ c)
theorem W1_a7 : W1 m ρ c (Proc.devRef .tc main_arg7) = m ((c : Thread nD τ).loc main_arg7) :=
  (by skip_host hostOps0 main_arg7 : W1 m ρ c (Proc.devRef .tc main_arg7) = W0 m ρ c (Proc.devRef .tc main_arg7)).trans rfl
theorem W1_a8 : W1 m ρ c (Proc.devRef .tc main_arg8) = m ((c : Thread nD τ).loc main_arg8) :=
  (by skip_host hostOps0 main_arg8 : W1 m ρ c (Proc.devRef .tc main_arg8) = W0 m ρ c (Proc.devRef .tc main_arg8)).trans rfl
theorem W2_a8 : W2 m ρ c (Proc.devRef .tc main_arg8) = m ((c : Thread nD τ).loc main_arg8) :=
  (by skip_host hostOps0_1 main_arg8 : W2 m ρ c (Proc.devRef .tc main_arg8) = W1 m ρ c (Proc.devRef .tc main_arg8)).trans (W1_a8 m ρ c)
theorem W1_a9 : W1 m ρ c (Proc.devRef .tc main_arg9) = m ((c : Thread nD τ).loc main_arg9) :=
  (by skip_host hostOps0 main_arg9 : W1 m ρ c (Proc.devRef .tc main_arg9) = W0 m ρ c (Proc.devRef .tc main_arg9)).trans rfl
theorem W2_a9 : W2 m ρ c (Proc.devRef .tc main_arg9) = m ((c : Thread nD τ).loc main_arg9) :=
  (by skip_host hostOps0_1 main_arg9 : W2 m ρ c (Proc.devRef .tc main_arg9) = W1 m ρ c (Proc.devRef .tc main_arg9)).trans (W1_a9 m ρ c)
theorem W3_a9 : W3 m ρ c (Proc.devRef .tc main_arg9) = m ((c : Thread nD τ).loc main_arg9) :=
  (W3_of_ne m ρ c main_arg9 (by decide) : W3 m ρ c (Proc.devRef .tc main_arg9) = W2 m ρ c (Proc.devRef .tc main_arg9)).trans (W2_a9 m ρ c)
theorem W4_a9 : W4 m ρ c (Proc.devRef .tc main_arg9) = m ((c : Thread nD τ).loc main_arg9) :=
  (by skip_host hostOps1 main_arg9 : W4 m ρ c (Proc.devRef .tc main_arg9) = W3 m ρ c (Proc.devRef .tc main_arg9)).trans (W3_a9 m ρ c)
theorem W5_a9 : W5 m ρ c (Proc.devRef .tc main_arg9) = m ((c : Thread nD τ).loc main_arg9) :=
  (by skip_host hostOps1_1 main_arg9 : W5 m ρ c (Proc.devRef .tc main_arg9) = W4 m ρ c (Proc.devRef .tc main_arg9)).trans (W4_a9 m ρ c)
theorem W1_a10 : W1 m ρ c (Proc.devRef .tc main_arg10) = m ((c : Thread nD τ).loc main_arg10) :=
  (by skip_host hostOps0 main_arg10 : W1 m ρ c (Proc.devRef .tc main_arg10) = W0 m ρ c (Proc.devRef .tc main_arg10)).trans rfl
theorem W2_a10 : W2 m ρ c (Proc.devRef .tc main_arg10) = m ((c : Thread nD τ).loc main_arg10) :=
  (by skip_host hostOps0_1 main_arg10 : W2 m ρ c (Proc.devRef .tc main_arg10) = W1 m ρ c (Proc.devRef .tc main_arg10)).trans (W1_a10 m ρ c)
theorem W3_a10 : W3 m ρ c (Proc.devRef .tc main_arg10) = m ((c : Thread nD τ).loc main_arg10) :=
  (W3_of_ne m ρ c main_arg10 (by decide) : W3 m ρ c (Proc.devRef .tc main_arg10) = W2 m ρ c (Proc.devRef .tc main_arg10)).trans (W2_a10 m ρ c)
theorem W4_a10 : W4 m ρ c (Proc.devRef .tc main_arg10) = m ((c : Thread nD τ).loc main_arg10) :=
  (by skip_host hostOps1 main_arg10 : W4 m ρ c (Proc.devRef .tc main_arg10) = W3 m ρ c (Proc.devRef .tc main_arg10)).trans (W3_a10 m ρ c)
theorem W1_a11 : W1 m ρ c (Proc.devRef .tc main_arg11) = m ((c : Thread nD τ).loc main_arg11) :=
  (by skip_host hostOps0 main_arg11 : W1 m ρ c (Proc.devRef .tc main_arg11) = W0 m ρ c (Proc.devRef .tc main_arg11)).trans rfl
theorem W2_a11 : W2 m ρ c (Proc.devRef .tc main_arg11) = m ((c : Thread nD τ).loc main_arg11) :=
  (by skip_host hostOps0_1 main_arg11 : W2 m ρ c (Proc.devRef .tc main_arg11) = W1 m ρ c (Proc.devRef .tc main_arg11)).trans (W1_a11 m ρ c)
theorem W3_a11 : W3 m ρ c (Proc.devRef .tc main_arg11) = m ((c : Thread nD τ).loc main_arg11) :=
  (W3_of_ne m ρ c main_arg11 (by decide) : W3 m ρ c (Proc.devRef .tc main_arg11) = W2 m ρ c (Proc.devRef .tc main_arg11)).trans (W2_a11 m ρ c)
theorem W4_a11 : W4 m ρ c (Proc.devRef .tc main_arg11) = m ((c : Thread nD τ).loc main_arg11) :=
  (by skip_host hostOps1 main_arg11 : W4 m ρ c (Proc.devRef .tc main_arg11) = W3 m ρ c (Proc.devRef .tc main_arg11)).trans (W3_a11 m ρ c)
theorem W5_a11 : W5 m ρ c (Proc.devRef .tc main_arg11) = m ((c : Thread nD τ).loc main_arg11) :=
  (by skip_host hostOps1_1 main_arg11 : W5 m ρ c (Proc.devRef .tc main_arg11) = W4 m ρ c (Proc.devRef .tc main_arg11)).trans (W4_a11 m ρ c)
theorem W1_a12 : W1 m ρ c (Proc.devRef .tc main_arg12) = m ((c : Thread nD τ).loc main_arg12) :=
  (by skip_host hostOps0 main_arg12 : W1 m ρ c (Proc.devRef .tc main_arg12) = W0 m ρ c (Proc.devRef .tc main_arg12)).trans rfl
theorem W2_a12 : W2 m ρ c (Proc.devRef .tc main_arg12) = m ((c : Thread nD τ).loc main_arg12) :=
  (by skip_host hostOps0_1 main_arg12 : W2 m ρ c (Proc.devRef .tc main_arg12) = W1 m ρ c (Proc.devRef .tc main_arg12)).trans (W1_a12 m ρ c)
theorem W3_a12 : W3 m ρ c (Proc.devRef .tc main_arg12) = m ((c : Thread nD τ).loc main_arg12) :=
  (W3_of_ne m ρ c main_arg12 (by decide) : W3 m ρ c (Proc.devRef .tc main_arg12) = W2 m ρ c (Proc.devRef .tc main_arg12)).trans (W2_a12 m ρ c)
theorem W4_a12 : W4 m ρ c (Proc.devRef .tc main_arg12) = m ((c : Thread nD τ).loc main_arg12) :=
  (by skip_host hostOps1 main_arg12 : W4 m ρ c (Proc.devRef .tc main_arg12) = W3 m ρ c (Proc.devRef .tc main_arg12)).trans (W3_a12 m ρ c)
theorem W5_a12 : W5 m ρ c (Proc.devRef .tc main_arg12) = m ((c : Thread nD τ).loc main_arg12) :=
  (by skip_host hostOps1_1 main_arg12 : W5 m ρ c (Proc.devRef .tc main_arg12) = W4 m ρ c (Proc.devRef .tc main_arg12)).trans (W4_a12 m ρ c)
theorem W6_a12 : W6 m ρ c (Proc.devRef .tc main_arg12) = m ((c : Thread nD τ).loc main_arg12) :=
  (W6_of_ne m ρ c main_arg12 (by decide) : W6 m ρ c (Proc.devRef .tc main_arg12) = W5 m ρ c (Proc.devRef .tc main_arg12)).trans (W5_a12 m ρ c)
theorem W7_a12 : W7 m ρ c (Proc.devRef .tc main_arg12) = m ((c : Thread nD τ).loc main_arg12) :=
  (by skip_host hostOps2 main_arg12 : W7 m ρ c (Proc.devRef .tc main_arg12) = W6 m ρ c (Proc.devRef .tc main_arg12)).trans (W6_a12 m ρ c)
theorem W8_a12 : W8 m ρ c (Proc.devRef .tc main_arg12) = m ((c : Thread nD τ).loc main_arg12) :=
  (by skip_host hostOps2_1 main_arg12 : W8 m ρ c (Proc.devRef .tc main_arg12) = W7 m ρ c (Proc.devRef .tc main_arg12)).trans (W7_a12 m ρ c)
theorem W1_a13 : W1 m ρ c (Proc.devRef .tc main_arg13) = m ((c : Thread nD τ).loc main_arg13) :=
  (by skip_host hostOps0 main_arg13 : W1 m ρ c (Proc.devRef .tc main_arg13) = W0 m ρ c (Proc.devRef .tc main_arg13)).trans rfl
theorem W2_a13 : W2 m ρ c (Proc.devRef .tc main_arg13) = m ((c : Thread nD τ).loc main_arg13) :=
  (by skip_host hostOps0_1 main_arg13 : W2 m ρ c (Proc.devRef .tc main_arg13) = W1 m ρ c (Proc.devRef .tc main_arg13)).trans (W1_a13 m ρ c)
theorem W3_a13 : W3 m ρ c (Proc.devRef .tc main_arg13) = m ((c : Thread nD τ).loc main_arg13) :=
  (W3_of_ne m ρ c main_arg13 (by decide) : W3 m ρ c (Proc.devRef .tc main_arg13) = W2 m ρ c (Proc.devRef .tc main_arg13)).trans (W2_a13 m ρ c)
theorem W4_a13 : W4 m ρ c (Proc.devRef .tc main_arg13) = m ((c : Thread nD τ).loc main_arg13) :=
  (by skip_host hostOps1 main_arg13 : W4 m ρ c (Proc.devRef .tc main_arg13) = W3 m ρ c (Proc.devRef .tc main_arg13)).trans (W3_a13 m ρ c)
theorem W5_a13 : W5 m ρ c (Proc.devRef .tc main_arg13) = m ((c : Thread nD τ).loc main_arg13) :=
  (by skip_host hostOps1_1 main_arg13 : W5 m ρ c (Proc.devRef .tc main_arg13) = W4 m ρ c (Proc.devRef .tc main_arg13)).trans (W4_a13 m ρ c)
theorem W6_a13 : W6 m ρ c (Proc.devRef .tc main_arg13) = m ((c : Thread nD τ).loc main_arg13) :=
  (W6_of_ne m ρ c main_arg13 (by decide) : W6 m ρ c (Proc.devRef .tc main_arg13) = W5 m ρ c (Proc.devRef .tc main_arg13)).trans (W5_a13 m ρ c)
theorem W7_a13 : W7 m ρ c (Proc.devRef .tc main_arg13) = m ((c : Thread nD τ).loc main_arg13) :=
  (by skip_host hostOps2 main_arg13 : W7 m ρ c (Proc.devRef .tc main_arg13) = W6 m ρ c (Proc.devRef .tc main_arg13)).trans (W6_a13 m ρ c)
theorem W1_a14 : W1 m ρ c (Proc.devRef .tc main_arg14) = m ((c : Thread nD τ).loc main_arg14) :=
  (by skip_host hostOps0 main_arg14 : W1 m ρ c (Proc.devRef .tc main_arg14) = W0 m ρ c (Proc.devRef .tc main_arg14)).trans rfl
theorem W2_a14 : W2 m ρ c (Proc.devRef .tc main_arg14) = m ((c : Thread nD τ).loc main_arg14) :=
  (by skip_host hostOps0_1 main_arg14 : W2 m ρ c (Proc.devRef .tc main_arg14) = W1 m ρ c (Proc.devRef .tc main_arg14)).trans (W1_a14 m ρ c)
theorem W3_a14 : W3 m ρ c (Proc.devRef .tc main_arg14) = m ((c : Thread nD τ).loc main_arg14) :=
  (W3_of_ne m ρ c main_arg14 (by decide) : W3 m ρ c (Proc.devRef .tc main_arg14) = W2 m ρ c (Proc.devRef .tc main_arg14)).trans (W2_a14 m ρ c)
theorem W4_a14 : W4 m ρ c (Proc.devRef .tc main_arg14) = m ((c : Thread nD τ).loc main_arg14) :=
  (by skip_host hostOps1 main_arg14 : W4 m ρ c (Proc.devRef .tc main_arg14) = W3 m ρ c (Proc.devRef .tc main_arg14)).trans (W3_a14 m ρ c)
theorem W5_a14 : W5 m ρ c (Proc.devRef .tc main_arg14) = m ((c : Thread nD τ).loc main_arg14) :=
  (by skip_host hostOps1_1 main_arg14 : W5 m ρ c (Proc.devRef .tc main_arg14) = W4 m ρ c (Proc.devRef .tc main_arg14)).trans (W4_a14 m ρ c)
theorem W6_a14 : W6 m ρ c (Proc.devRef .tc main_arg14) = m ((c : Thread nD τ).loc main_arg14) :=
  (W6_of_ne m ρ c main_arg14 (by decide) : W6 m ρ c (Proc.devRef .tc main_arg14) = W5 m ρ c (Proc.devRef .tc main_arg14)).trans (W5_a14 m ρ c)
theorem W7_a14 : W7 m ρ c (Proc.devRef .tc main_arg14) = m ((c : Thread nD τ).loc main_arg14) :=
  (by skip_host hostOps2 main_arg14 : W7 m ρ c (Proc.devRef .tc main_arg14) = W6 m ρ c (Proc.devRef .tc main_arg14)).trans (W6_a14 m ρ c)
theorem W8_a14 : W8 m ρ c (Proc.devRef .tc main_arg14) = m ((c : Thread nD τ).loc main_arg14) :=
  (by skip_host hostOps2_1 main_arg14 : W8 m ρ c (Proc.devRef .tc main_arg14) = W7 m ρ c (Proc.devRef .tc main_arg14)).trans (W7_a14 m ρ c)
theorem W1_a15 : W1 m ρ c (Proc.devRef .tc main_arg15) = m ((c : Thread nD τ).loc main_arg15) :=
  (by skip_host hostOps0 main_arg15 : W1 m ρ c (Proc.devRef .tc main_arg15) = W0 m ρ c (Proc.devRef .tc main_arg15)).trans rfl
theorem W2_a15 : W2 m ρ c (Proc.devRef .tc main_arg15) = m ((c : Thread nD τ).loc main_arg15) :=
  (by skip_host hostOps0_1 main_arg15 : W2 m ρ c (Proc.devRef .tc main_arg15) = W1 m ρ c (Proc.devRef .tc main_arg15)).trans (W1_a15 m ρ c)
theorem W3_a15 : W3 m ρ c (Proc.devRef .tc main_arg15) = m ((c : Thread nD τ).loc main_arg15) :=
  (W3_of_ne m ρ c main_arg15 (by decide) : W3 m ρ c (Proc.devRef .tc main_arg15) = W2 m ρ c (Proc.devRef .tc main_arg15)).trans (W2_a15 m ρ c)
theorem W4_a15 : W4 m ρ c (Proc.devRef .tc main_arg15) = m ((c : Thread nD τ).loc main_arg15) :=
  (by skip_host hostOps1 main_arg15 : W4 m ρ c (Proc.devRef .tc main_arg15) = W3 m ρ c (Proc.devRef .tc main_arg15)).trans (W3_a15 m ρ c)
theorem W5_a15 : W5 m ρ c (Proc.devRef .tc main_arg15) = m ((c : Thread nD τ).loc main_arg15) :=
  (by skip_host hostOps1_1 main_arg15 : W5 m ρ c (Proc.devRef .tc main_arg15) = W4 m ρ c (Proc.devRef .tc main_arg15)).trans (W4_a15 m ρ c)
theorem W6_a15 : W6 m ρ c (Proc.devRef .tc main_arg15) = m ((c : Thread nD τ).loc main_arg15) :=
  (W6_of_ne m ρ c main_arg15 (by decide) : W6 m ρ c (Proc.devRef .tc main_arg15) = W5 m ρ c (Proc.devRef .tc main_arg15)).trans (W5_a15 m ρ c)
theorem W7_a15 : W7 m ρ c (Proc.devRef .tc main_arg15) = m ((c : Thread nD τ).loc main_arg15) :=
  (by skip_host hostOps2 main_arg15 : W7 m ρ c (Proc.devRef .tc main_arg15) = W6 m ρ c (Proc.devRef .tc main_arg15)).trans (W6_a15 m ρ c)
theorem W8_a15 : W8 m ρ c (Proc.devRef .tc main_arg15) = m ((c : Thread nD τ).loc main_arg15) :=
  (by skip_host hostOps2_1 main_arg15 : W8 m ρ c (Proc.devRef .tc main_arg15) = W7 m ρ c (Proc.devRef .tc main_arg15)).trans (W7_a15 m ρ c)
theorem W9_a15 : W9 m ρ c (Proc.devRef .tc main_arg15) = m ((c : Thread nD τ).loc main_arg15) :=
  (W9_of_ne m ρ c main_arg15 (by decide) : W9 m ρ c (Proc.devRef .tc main_arg15) = W8 m ρ c (Proc.devRef .tc main_arg15)).trans (W8_a15 m ρ c)
theorem W10_a15 : W10 m ρ c (Proc.devRef .tc main_arg15) = m ((c : Thread nD τ).loc main_arg15) :=
  (by skip_host hostOps3 main_arg15 : W10 m ρ c (Proc.devRef .tc main_arg15) = W9 m ρ c (Proc.devRef .tc main_arg15)).trans (W9_a15 m ρ c)
theorem W11_a15 : W11 m ρ c (Proc.devRef .tc main_arg15) = m ((c : Thread nD τ).loc main_arg15) :=
  (by skip_host hostOps3_1 main_arg15 : W11 m ρ c (Proc.devRef .tc main_arg15) = W10 m ρ c (Proc.devRef .tc main_arg15)).trans (W10_a15 m ρ c)
theorem W1_a16 : W1 m ρ c (Proc.devRef .tc main_arg16) = m ((c : Thread nD τ).loc main_arg16) :=
  (by skip_host hostOps0 main_arg16 : W1 m ρ c (Proc.devRef .tc main_arg16) = W0 m ρ c (Proc.devRef .tc main_arg16)).trans rfl
theorem W2_a16 : W2 m ρ c (Proc.devRef .tc main_arg16) = m ((c : Thread nD τ).loc main_arg16) :=
  (by skip_host hostOps0_1 main_arg16 : W2 m ρ c (Proc.devRef .tc main_arg16) = W1 m ρ c (Proc.devRef .tc main_arg16)).trans (W1_a16 m ρ c)
theorem W3_a16 : W3 m ρ c (Proc.devRef .tc main_arg16) = m ((c : Thread nD τ).loc main_arg16) :=
  (W3_of_ne m ρ c main_arg16 (by decide) : W3 m ρ c (Proc.devRef .tc main_arg16) = W2 m ρ c (Proc.devRef .tc main_arg16)).trans (W2_a16 m ρ c)
theorem W4_a16 : W4 m ρ c (Proc.devRef .tc main_arg16) = m ((c : Thread nD τ).loc main_arg16) :=
  (by skip_host hostOps1 main_arg16 : W4 m ρ c (Proc.devRef .tc main_arg16) = W3 m ρ c (Proc.devRef .tc main_arg16)).trans (W3_a16 m ρ c)
theorem W5_a16 : W5 m ρ c (Proc.devRef .tc main_arg16) = m ((c : Thread nD τ).loc main_arg16) :=
  (by skip_host hostOps1_1 main_arg16 : W5 m ρ c (Proc.devRef .tc main_arg16) = W4 m ρ c (Proc.devRef .tc main_arg16)).trans (W4_a16 m ρ c)
theorem W6_a16 : W6 m ρ c (Proc.devRef .tc main_arg16) = m ((c : Thread nD τ).loc main_arg16) :=
  (W6_of_ne m ρ c main_arg16 (by decide) : W6 m ρ c (Proc.devRef .tc main_arg16) = W5 m ρ c (Proc.devRef .tc main_arg16)).trans (W5_a16 m ρ c)
theorem W7_a16 : W7 m ρ c (Proc.devRef .tc main_arg16) = m ((c : Thread nD τ).loc main_arg16) :=
  (by skip_host hostOps2 main_arg16 : W7 m ρ c (Proc.devRef .tc main_arg16) = W6 m ρ c (Proc.devRef .tc main_arg16)).trans (W6_a16 m ρ c)
theorem W8_a16 : W8 m ρ c (Proc.devRef .tc main_arg16) = m ((c : Thread nD τ).loc main_arg16) :=
  (by skip_host hostOps2_1 main_arg16 : W8 m ρ c (Proc.devRef .tc main_arg16) = W7 m ρ c (Proc.devRef .tc main_arg16)).trans (W7_a16 m ρ c)
theorem W9_a16 : W9 m ρ c (Proc.devRef .tc main_arg16) = m ((c : Thread nD τ).loc main_arg16) :=
  (W9_of_ne m ρ c main_arg16 (by decide) : W9 m ρ c (Proc.devRef .tc main_arg16) = W8 m ρ c (Proc.devRef .tc main_arg16)).trans (W8_a16 m ρ c)
theorem W10_a16 : W10 m ρ c (Proc.devRef .tc main_arg16) = m ((c : Thread nD τ).loc main_arg16) :=
  (by skip_host hostOps3 main_arg16 : W10 m ρ c (Proc.devRef .tc main_arg16) = W9 m ρ c (Proc.devRef .tc main_arg16)).trans (W9_a16 m ρ c)
theorem W1_a17 : W1 m ρ c (Proc.devRef .tc main_arg17) = m ((c : Thread nD τ).loc main_arg17) :=
  (by skip_host hostOps0 main_arg17 : W1 m ρ c (Proc.devRef .tc main_arg17) = W0 m ρ c (Proc.devRef .tc main_arg17)).trans rfl
theorem W2_a17 : W2 m ρ c (Proc.devRef .tc main_arg17) = m ((c : Thread nD τ).loc main_arg17) :=
  (by skip_host hostOps0_1 main_arg17 : W2 m ρ c (Proc.devRef .tc main_arg17) = W1 m ρ c (Proc.devRef .tc main_arg17)).trans (W1_a17 m ρ c)
theorem W3_a17 : W3 m ρ c (Proc.devRef .tc main_arg17) = m ((c : Thread nD τ).loc main_arg17) :=
  (W3_of_ne m ρ c main_arg17 (by decide) : W3 m ρ c (Proc.devRef .tc main_arg17) = W2 m ρ c (Proc.devRef .tc main_arg17)).trans (W2_a17 m ρ c)
theorem W4_a17 : W4 m ρ c (Proc.devRef .tc main_arg17) = m ((c : Thread nD τ).loc main_arg17) :=
  (by skip_host hostOps1 main_arg17 : W4 m ρ c (Proc.devRef .tc main_arg17) = W3 m ρ c (Proc.devRef .tc main_arg17)).trans (W3_a17 m ρ c)
theorem W5_a17 : W5 m ρ c (Proc.devRef .tc main_arg17) = m ((c : Thread nD τ).loc main_arg17) :=
  (by skip_host hostOps1_1 main_arg17 : W5 m ρ c (Proc.devRef .tc main_arg17) = W4 m ρ c (Proc.devRef .tc main_arg17)).trans (W4_a17 m ρ c)
theorem W6_a17 : W6 m ρ c (Proc.devRef .tc main_arg17) = m ((c : Thread nD τ).loc main_arg17) :=
  (W6_of_ne m ρ c main_arg17 (by decide) : W6 m ρ c (Proc.devRef .tc main_arg17) = W5 m ρ c (Proc.devRef .tc main_arg17)).trans (W5_a17 m ρ c)
theorem W7_a17 : W7 m ρ c (Proc.devRef .tc main_arg17) = m ((c : Thread nD τ).loc main_arg17) :=
  (by skip_host hostOps2 main_arg17 : W7 m ρ c (Proc.devRef .tc main_arg17) = W6 m ρ c (Proc.devRef .tc main_arg17)).trans (W6_a17 m ρ c)
theorem W8_a17 : W8 m ρ c (Proc.devRef .tc main_arg17) = m ((c : Thread nD τ).loc main_arg17) :=
  (by skip_host hostOps2_1 main_arg17 : W8 m ρ c (Proc.devRef .tc main_arg17) = W7 m ρ c (Proc.devRef .tc main_arg17)).trans (W7_a17 m ρ c)
theorem W9_a17 : W9 m ρ c (Proc.devRef .tc main_arg17) = m ((c : Thread nD τ).loc main_arg17) :=
  (W9_of_ne m ρ c main_arg17 (by decide) : W9 m ρ c (Proc.devRef .tc main_arg17) = W8 m ρ c (Proc.devRef .tc main_arg17)).trans (W8_a17 m ρ c)
theorem W10_a17 : W10 m ρ c (Proc.devRef .tc main_arg17) = m ((c : Thread nD τ).loc main_arg17) :=
  (by skip_host hostOps3 main_arg17 : W10 m ρ c (Proc.devRef .tc main_arg17) = W9 m ρ c (Proc.devRef .tc main_arg17)).trans (W9_a17 m ρ c)
theorem W11_a17 : W11 m ρ c (Proc.devRef .tc main_arg17) = m ((c : Thread nD τ).loc main_arg17) :=
  (by skip_host hostOps3_1 main_arg17 : W11 m ρ c (Proc.devRef .tc main_arg17) = W10 m ρ c (Proc.devRef .tc main_arg17)).trans (W10_a17 m ρ c)

/-! ## Layer of region 0 -/

theorem W1_v0 : W1 m ρ c (Proc.devRef .tc main_v0) = takeP4 (m ((c : Thread nD τ).loc main_arg0)) (m ((c : Thread nD τ).loc main_arg2)) :=
  (after_take0 (W0 m ρ c)).trans (congrArg₂ takeP4 rfl rfl)
theorem W2_v3 : W2 m ρ c (Proc.devRef .tc main_v3) = sumsU4 (m ((c : Thread nD τ).loc main_arg3)) (takeP4 (m ((c : Thread nD τ).loc main_arg0)) (m ((c : Thread nD τ).loc main_arg2))) :=
  (after0_sums (W1 m ρ c)).trans (congrArg₂ sumsU4 (W1_a3 m ρ c) (W1_v0 m ρ c))
theorem W2_v8 : W2 m ρ c (Proc.devRef .tc main_v8) = (fun i => shapeCast S100000x1 (cntU (m ((c : Thread nD τ).loc main_arg3))) shapeCasts_S100000_S100000x1 i) :=
  (after0_cnt (W1 m ρ c)).trans (congrArg (fun (d : IVec S5000000 32) => fun i => shapeCast S100000x1 (cntU d) shapeCasts_S100000_S100000x1 i) (W1_a3 m ρ c))
theorem W2_v9 : W2 m ρ c (Proc.devRef .tc main_v9) = (fun i => shapeCast S1x16 (m ((c : Thread nD τ).loc main_arg7)) shapeCasts_S16_S1x16 i) :=
  (after0_bias (W1 m ρ c)).trans (congrArg (fun (d : FVec Ideal S16 .f32) => fun i => shapeCast S1x16 d shapeCasts_S16_S1x16 i) (W1_a7 m ρ c))
theorem W3_v10 : W3 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  have e1 := (W3_arr m ρ c 6).trans (Cert.KernelIdeal.Blocks.arr0 (V2 m ρ) c)
  have e2 := layerArrK_congr (W2_v3 m ρ c) (W2_v8 m ρ c) (W2_a1 m ρ c) (W2_a6 m ρ c) (W2_v9 m ρ c) (W2_a8 m ρ c)
  have e3 := Cert.Sage.layerArrK_eq (sumsU4 (m ((c : Thread nD τ).loc main_arg3)) (takeP4 (m ((c : Thread nD τ).loc main_arg0)) (m ((c : Thread nD τ).loc main_arg2)))) (cntU (m ((c : Thread nD τ).loc main_arg3))) (fun i => shapeCast S100000x1 (cntU (m ((c : Thread nD τ).loc main_arg3))) shapeCasts_S100000_S100000x1 i) (m ((c : Thread nD τ).loc main_arg1)) (m ((c : Thread nD τ).loc main_arg6)) (m ((c : Thread nD τ).loc main_arg7)) (fun i => shapeCast S1x16 (m ((c : Thread nD τ).loc main_arg7)) shapeCasts_S16_S1x16 i) (m ((c : Thread nD τ).loc main_arg8)) (fun p => col_read _ _ p) (fun q => row_read _ _ q)
  exact e1.trans (e2.trans e3)
theorem W4_v10 : W4 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (by skip_host hostOps1 main_v10 : W4 m ρ c (Proc.devRef .tc main_v10) = W3 m ρ c (Proc.devRef .tc main_v10)).trans (W3_v10 m ρ c)
theorem W5_v10 : W5 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (by skip_host hostOps1_1 main_v10 : W5 m ρ c (Proc.devRef .tc main_v10) = W4 m ρ c (Proc.devRef .tc main_v10)).trans (W4_v10 m ρ c)
theorem W6_v10 : W6 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (W6_of_ne m ρ c main_v10 (by decide) : W6 m ρ c (Proc.devRef .tc main_v10) = W5 m ρ c (Proc.devRef .tc main_v10)).trans (W5_v10 m ρ c)
theorem W7_v10 : W7 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (by skip_host hostOps2 main_v10 : W7 m ρ c (Proc.devRef .tc main_v10) = W6 m ρ c (Proc.devRef .tc main_v10)).trans (W6_v10 m ρ c)
theorem W8_v10 : W8 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  (by skip_host hostOps2_1 main_v10 : W8 m ρ c (Proc.devRef .tc main_v10) = W7 m ρ c (Proc.devRef .tc main_v10)).trans (W7_v10 m ρ c)
theorem W9_v10 : W9 m ρ c (Proc.devRef .tc main_v10) = hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) :=
  ((W9_arr m ρ c 2).trans (((dat2 (V8 m ρ) c).arrAt_in 2 rfl _).trans (A_eq2 (V8 m ρ) c 2)) : W9 m ρ c (Proc.devRef .tc main_v10) = W8 m ρ c (Proc.devRef .tc main_v10)).trans (W8_v10 m ρ c)

/-! ## Layer of region 1 -/

theorem W4_v11 : W4 m ρ c (Proc.devRef .tc main_v11) = takeU4 (m ((c : Thread nD τ).loc main_arg1)) (m ((c : Thread nD τ).loc main_arg4)) :=
  (after_take1 (W3 m ρ c)).trans (congrArg₂ takeU4 (W3_a1 m ρ c) (W3_a4 m ρ c))
theorem W5_v14 : W5 m ρ c (Proc.devRef .tc main_v14) = sumsP4 (m ((c : Thread nD τ).loc main_arg5)) (takeU4 (m ((c : Thread nD τ).loc main_arg1)) (m ((c : Thread nD τ).loc main_arg4))) :=
  (after1_sums (W4 m ρ c)).trans (congrArg₂ sumsP4 (W4_a5 m ρ c) (W4_v11 m ρ c))
theorem W5_v19 : W5 m ρ c (Proc.devRef .tc main_v19) = (fun i => shapeCast S500000x1 (cntP (m ((c : Thread nD τ).loc main_arg5))) shapeCasts_S500000_S500000x1 i) :=
  (after1_cnt (W4 m ρ c)).trans (congrArg (fun (d : IVec S5000000 32) => fun i => shapeCast S500000x1 (cntP d) shapeCasts_S500000_S500000x1 i) (W4_a5 m ρ c))
theorem W5_v20 : W5 m ρ c (Proc.devRef .tc main_v20) = (fun i => shapeCast S1x16 (m ((c : Thread nD τ).loc main_arg10)) shapeCasts_S16_S1x16 i) :=
  (after1_bias (W4 m ρ c)).trans (congrArg (fun (d : FVec Ideal S16 .f32) => fun i => shapeCast S1x16 d shapeCasts_S16_S1x16 i) (W4_a10 m ρ c))
theorem W6_v21 : W6 m ρ c (Proc.devRef .tc main_v21) = hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) := by
  have e1 := (W6_arr m ρ c 6).trans (Cert.KernelIdeal.Blocks.arr1 (V5 m ρ) c)
  have e2 := layerArrK_congr (W5_v14 m ρ c) (W5_v19 m ρ c) (W5_a0 m ρ c) (W5_a9 m ρ c) (W5_v20 m ρ c) (W5_a11 m ρ c)
  have e3 := Cert.Sage.layerArrK_eq (sumsP4 (m ((c : Thread nD τ).loc main_arg5)) (takeU4 (m ((c : Thread nD τ).loc main_arg1)) (m ((c : Thread nD τ).loc main_arg4)))) (cntP (m ((c : Thread nD τ).loc main_arg5))) (fun i => shapeCast S500000x1 (cntP (m ((c : Thread nD τ).loc main_arg5))) shapeCasts_S500000_S500000x1 i) (m ((c : Thread nD τ).loc main_arg0)) (m ((c : Thread nD τ).loc main_arg9)) (m ((c : Thread nD τ).loc main_arg10)) (fun i => shapeCast S1x16 (m ((c : Thread nD τ).loc main_arg10)) shapeCasts_S16_S1x16 i) (m ((c : Thread nD τ).loc main_arg11)) (fun p => col_read _ _ p) (fun q => row_read _ _ q)
  exact e1.trans (e2.trans e3)
theorem W7_v21 : W7 m ρ c (Proc.devRef .tc main_v21) = hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) :=
  (by skip_host hostOps2 main_v21 : W7 m ρ c (Proc.devRef .tc main_v21) = W6 m ρ c (Proc.devRef .tc main_v21)).trans (W6_v21 m ρ c)
theorem W8_v21 : W8 m ρ c (Proc.devRef .tc main_v21) = hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) :=
  (by skip_host hostOps2_1 main_v21 : W8 m ρ c (Proc.devRef .tc main_v21) = W7 m ρ c (Proc.devRef .tc main_v21)).trans (W7_v21 m ρ c)
theorem W9_v21 : W9 m ρ c (Proc.devRef .tc main_v21) = hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) :=
  (W9_of_ne m ρ c main_v21 (by decide) : W9 m ρ c (Proc.devRef .tc main_v21) = W8 m ρ c (Proc.devRef .tc main_v21)).trans (W8_v21 m ρ c)
theorem W10_v21 : W10 m ρ c (Proc.devRef .tc main_v21) = hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) :=
  (by skip_host hostOps3 main_v21 : W10 m ρ c (Proc.devRef .tc main_v21) = W9 m ρ c (Proc.devRef .tc main_v21)).trans (W9_v21 m ρ c)
theorem W11_v21 : W11 m ρ c (Proc.devRef .tc main_v21) = hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11)) :=
  (by skip_host hostOps3_1 main_v21 : W11 m ρ c (Proc.devRef .tc main_v21) = W10 m ρ c (Proc.devRef .tc main_v21)).trans (W10_v21 m ρ c)

/-! ## Layer of region 2 -/

theorem W7_v22 : W7 m ρ c (Proc.devRef .tc main_v22) = takeP16 (hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11))) (m ((c : Thread nD τ).loc main_arg2)) :=
  (after_take2 (W6 m ρ c)).trans (congrArg₂ takeP16 (W6_v21 m ρ c) (W6_a2 m ρ c))
theorem W8_v25 : W8 m ρ c (Proc.devRef .tc main_v25) = sumsU16 (m ((c : Thread nD τ).loc main_arg3)) (takeP16 (hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11))) (m ((c : Thread nD τ).loc main_arg2))) :=
  (after2_sums (W7 m ρ c)).trans (congrArg₂ sumsU16 (W7_a3 m ρ c) (W7_v22 m ρ c))
theorem W8_v30 : W8 m ρ c (Proc.devRef .tc main_v30) = (fun i => shapeCast S100000x1 (cntU (m ((c : Thread nD τ).loc main_arg3))) shapeCasts_S100000_S100000x1 i) :=
  (after2_cnt (W7 m ρ c)).trans (congrArg (fun (d : IVec S5000000 32) => fun i => shapeCast S100000x1 (cntU d) shapeCasts_S100000_S100000x1 i) (W7_a3 m ρ c))
theorem W8_v31 : W8 m ρ c (Proc.devRef .tc main_v31) = (fun i => shapeCast S1x16 (m ((c : Thread nD τ).loc main_arg13)) shapeCasts_S16_S1x16 i) :=
  (after2_bias (W7 m ρ c)).trans (congrArg (fun (d : FVec Ideal S16 .f32) => fun i => shapeCast S1x16 d shapeCasts_S16_S1x16 i) (W7_a13 m ρ c))
theorem W9_v32 : W9 m ρ c (Proc.devRef .tc main_v32) = zU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have e1 := (W9_arr m ρ c 6).trans (Cert.KernelIdeal.Blocks.arr2 (V8 m ρ) c)
  have e2 := layerArrK_congr (W8_v25 m ρ c) (W8_v30 m ρ c) (W8_v10 m ρ c) (W8_a12 m ρ c) (W8_v31 m ρ c) (W8_a14 m ρ c)
  have e3 := Cert.Sage.layerArrK_eq (sumsU16 (m ((c : Thread nD τ).loc main_arg3)) (takeP16 (hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11))) (m ((c : Thread nD τ).loc main_arg2)))) (cntU (m ((c : Thread nD τ).loc main_arg3))) (fun i => shapeCast S100000x1 (cntU (m ((c : Thread nD τ).loc main_arg3))) shapeCasts_S100000_S100000x1 i) (hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg12)) (m ((c : Thread nD τ).loc main_arg13)) (fun i => shapeCast S1x16 (m ((c : Thread nD τ).loc main_arg13)) shapeCasts_S16_S1x16 i) (m ((c : Thread nD τ).loc main_arg14)) (fun p => col_read _ _ p) (fun q => row_read _ _ q)
  exact e1.trans (e2.trans e3)
theorem W10_v32 : W10 m ρ c (Proc.devRef .tc main_v32) = zU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (by skip_host hostOps3 main_v32 : W10 m ρ c (Proc.devRef .tc main_v32) = W9 m ρ c (Proc.devRef .tc main_v32)).trans (W9_v32 m ρ c)
theorem W11_v32 : W11 m ρ c (Proc.devRef .tc main_v32) = zU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (by skip_host hostOps3_1 main_v32 : W11 m ρ c (Proc.devRef .tc main_v32) = W10 m ρ c (Proc.devRef .tc main_v32)).trans (W10_v32 m ρ c)
theorem W12_v32 : W12 m ρ c (Proc.devRef .tc main_v32) = zU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W12_of_ne m ρ c main_v32 (by decide) : W12 m ρ c (Proc.devRef .tc main_v32) = W11 m ρ c (Proc.devRef .tc main_v32)).trans (W11_v32 m ρ c)

/-! ## Layer of region 3 -/

theorem W10_v33 : W10 m ρ c (Proc.devRef .tc main_v33) = takeU16 (hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg4)) :=
  (after_take3 (W9 m ρ c)).trans (congrArg₂ takeU16 (W9_v10 m ρ c) (W9_a4 m ρ c))
theorem W11_v36 : W11 m ρ c (Proc.devRef .tc main_v36) = sumsP16 (m ((c : Thread nD τ).loc main_arg5)) (takeU16 (hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg4))) :=
  (after3_sums (W10 m ρ c)).trans (congrArg₂ sumsP16 (W10_a5 m ρ c) (W10_v33 m ρ c))
theorem W11_v41 : W11 m ρ c (Proc.devRef .tc main_v41) = (fun i => shapeCast S500000x1 (cntP (m ((c : Thread nD τ).loc main_arg5))) shapeCasts_S500000_S500000x1 i) :=
  (after3_cnt (W10 m ρ c)).trans (congrArg (fun (d : IVec S5000000 32) => fun i => shapeCast S500000x1 (cntP d) shapeCasts_S500000_S500000x1 i) (W10_a5 m ρ c))
theorem W11_v42 : W11 m ρ c (Proc.devRef .tc main_v42) = (fun i => shapeCast S1x16 (m ((c : Thread nD τ).loc main_arg16)) shapeCasts_S16_S1x16 i) :=
  (after3_bias (W10 m ρ c)).trans (congrArg (fun (d : FVec Ideal S16 .f32) => fun i => shapeCast S1x16 d shapeCasts_S16_S1x16 i) (W10_a16 m ρ c))
theorem W12_v43 : W12 m ρ c (Proc.devRef .tc main_v43) = zP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg15)) (m ((c : Thread nD τ).loc main_arg16)) (m ((c : Thread nD τ).loc main_arg17)) := by
  have e1 := (W12_arr m ρ c 6).trans (Cert.KernelIdeal.Blocks.arr3 (V11 m ρ) c)
  have e2 := layerArrK_congr (W11_v36 m ρ c) (W11_v41 m ρ c) (W11_v21 m ρ c) (W11_a15 m ρ c) (W11_v42 m ρ c) (W11_a17 m ρ c)
  have e3 := Cert.Sage.layerArrK_eq (sumsP16 (m ((c : Thread nD τ).loc main_arg5)) (takeU16 (hU (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg4)))) (cntP (m ((c : Thread nD τ).loc main_arg5))) (fun i => shapeCast S500000x1 (cntP (m ((c : Thread nD τ).loc main_arg5))) shapeCasts_S500000_S500000x1 i) (hP (m ((c : Thread nD τ).loc main_arg0)) (m ((c : Thread nD τ).loc main_arg1)) (m ((c : Thread nD τ).loc main_arg4)) (m ((c : Thread nD τ).loc main_arg5)) (m ((c : Thread nD τ).loc main_arg9)) (m ((c : Thread nD τ).loc main_arg10)) (m ((c : Thread nD τ).loc main_arg11))) (m ((c : Thread nD τ).loc main_arg15)) (m ((c : Thread nD τ).loc main_arg16)) (fun i => shapeCast S1x16 (m ((c : Thread nD τ).loc main_arg16)) shapeCasts_S16_S1x16 i) (m ((c : Thread nD τ).loc main_arg17)) (fun p => col_read _ _ p) (fun q => row_read _ _ q)
  exact e1.trans (e2.trans e3)

end Cert.KernelIdeal.Fold

end
-- ==== Proof.KVal.lean ====
/-
  The idealized kernel's run with its two results named: every weakly fair execution ends with the result arrays at the
  layers-over-layers functions zP and zU of the launch arguments (Proof/KFold.lean), the arguments unchanged.
-/
import proofs.«404925_j76931454206189_1_alg».proof.Proof.KRun
import proofs.«404925_j76931454206189_1_alg».proof.Proof.KFold

noncomputable section

namespace Cert.Proof.KVal

open Idealize.ShloMosaic Idealize.SL.Sem Idealize.ShloMosaic.TcCoe Cert.KernelIdeal Cert.KernelIdeal.Fold

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = zP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      ∧ r.2.mem ((c.tc : Thread nD τ).loc main_v32) = zU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run (defs (F := Ideal)) _ _).mono
    (fun r h c => ⟨(h c).1.trans (W12_v43 m ρ c), (h c).2.1.trans (W12_v32 m ρ c), (h c).2.2⟩)
    (Cert.KernelIdeal.Gen.run_results m ρ)

end Cert.Proof.KVal

end
-- ==== Proof.RefLayer.lean ====
/-
  The reference's four layers against the common specification. Each layer of the reference computes, at row p and
  column q,
      max ( Σ_k (S p k / max (C p) 1) · Wl k q  +  bl q  +  Σ_k X p k · Wr k q ,  0 )
  from its neighbour sums S, its neighbour counts C, the node's own features X and the layer's weights; the sums and
  the counts stay unopened here. The four statements name, for each layer, which arrays play S, C, X, Wl, bl, Wr. The
  defining equations of the sums, the counts and the gathered messages follow, for whoever opens them.
-/
import proofs.«404925_j76931454206189_1_alg».proof.Proof.Gen.ReferenceIdeal.Read
import proofs.«404925_j76931454206189_1_alg».proof.Proof.SageSpec
import Idealize.ShloMosaic.Lib.ValueIdx

noncomputable section

namespace Cert.ReferenceIdeal.RefValue

open Idealize.ShloMosaic Idealize.ShloMosaic.ValueIdx Cert.ReferenceIdeal Cert.ReferenceIdeal.Read

/-- Layer "h_u": rows are the 100000 nodes of the first kind, 4 features in, 16 out. -/
theorem layer_hu
    (x0 : (⟨S500000x4, .f32⟩ : BufTy).Contents (Elt Ideal)) (x1 : (⟨S100000x4, .f32⟩ : BufTy).Contents (Elt Ideal))
    (x2 x3 : (⟨S5000000, .i32⟩ : BufTy).Contents (Elt Ideal)) (x6 : (⟨S4x16, .f32⟩ : BufTy).Contents (Elt Ideal))
    (x7 : (⟨S16, .f32⟩ : BufTy).Contents (Elt Ideal)) (x8 : (⟨S4x16, .f32⟩ : BufTy).Contents (Elt Ideal)) :
    val_main_v25 (F := Ideal) x0 x1 x2 x3 x6 x7 x8
      = Cert.Sage.layerArr (val_main_v9 (F := Ideal) x0 x2 x3) (val_main_v13 (F := Ideal) x3) x1 x6 x7 x8 := by
  funext i
  -- the index functions the operations compose, by coordinates
  have hl : ∀ k : Fin 4, lidx_main_v19 i k = ix2 (n0 := 100000) (n1 := 4) (i 0) k := fun k =>
    funext fun a => Fin.ext (by match a with | ⟨0, _⟩ => rfl | ⟨1, _⟩ => rfl)
  have hr : ∀ k : Fin 4, ridx_main_v19 i k = ix2 (n0 := 4) (n1 := 16) k (i 1) := fun k =>
    funext fun a => Fin.ext (by match a with | ⟨0, _⟩ => rfl | ⟨1, _⟩ => rfl)
  have hc : ∀ k : Fin 4, idx_main_v16 (idx_main_v17 (lidx_main_v19 i k)) = ix1 (n := 100000) (i 0) := fun k =>
    funext fun a => Fin.ext (by match a with | ⟨0, _⟩ => rfl)
  have hb : idx_main_v20 (idx_main_v21 i) = ix1 (n := 16) (i 1) :=
    funext fun a => Fin.ext (by match a with | ⟨0, _⟩ => rfl)
  have hl' : ∀ k : Fin 4, lidx_main_v23 i k = ix2 (n0 := 100000) (n1 := 4) (i 0) k := fun k =>
    funext fun a => Fin.ext (by match a with | ⟨0, _⟩ => rfl | ⟨1, _⟩ => rfl)
  have hr' : ∀ k : Fin 4, ridx_main_v23 i k = ix2 (n0 := 4) (n1 := 16) k (i 1) := fun k =>
    funext fun a => Fin.ext (by match a with | ⟨0, _⟩ => rfl | ⟨1, _⟩ => rfl)
  -- one term of the mean's product: the sum over the clipped count, times the weight
  have hS : ∀ k : Fin 4, val_main_v18 (F := Ideal) x0 x2 x3 (lidx_main_v19 i k) * x6 (ridx_main_v19 i k)
      = Ideal.div (val_main_v9 (F := Ideal) x0 x2 x3 (ix2 (n0 := 100000) (n1 := 4) (i 0) k))
          (max (val_main_v13 (F := Ideal) x3 (ix1 (n := 100000) (i 0))) Cert.Sage.one32)
        * x6 (ix2 (n0 := 4) (n1 := 16) k (i 1)) := by
    intro k
    rewrite [val_main_v18_apply, val_main_v17_apply, val_main_v16_apply, val_main_v15_apply, val_main_v14_apply,
      val_main_cst_3_apply, hc k, hl k, hr k]
    rfl
  -- one term of the own features' product
  have hX : ∀ k : Fin 4, x1 (lidx_main_v23 i k) * x8 (ridx_main_v23 i k)
      = x1 (ix2 (n0 := 100000) (n1 := 4) (i 0) k) * x8 (ix2 (n0 := 4) (n1 := 16) k (i 1)) := by
    intro k
    rewrite [hl' k, hr' k]
    rfl
  rewrite [val_main_v25_apply, val_main_v24_apply, val_main_v22_apply, val_main_v19_apply, val_main_v21_apply,
    val_main_v20_apply, val_main_v23_apply, val_main_call0_v0_apply, val_main_call0_cst_apply]
  show max ((∑ k : Fin 4, val_main_v18 (F := Ideal) x0 x2 x3 (lidx_main_v19 i k) * x6 (ridx_main_v19 i k))
      + x7 (idx_main_v20 (idx_main_v21 i))
      + ∑ k : Fin 4, x1 (lidx_main_v23 i k) * x8 (ridx_main_v23 i k)) Cert.Sage.zero32 = _
  rewrite [(Finset.sum_congr (rfl : (Finset.univ : Finset (Fin 4)) = Finset.univ) fun k _ => hS k),
    (Finset.sum_congr (rfl : (Finset.univ : Finset (Fin 4)) = Finset.univ) fun k _ => hX k), hb]
  rfl

/-- Layer "h_p": rows are the 500000 nodes of the second kind, 4 features in, 16 out. -/
theorem layer_hp
    (x0 : (⟨S500000x4, .f32⟩ : BufTy).Contents (Elt Ideal)) (x1 : (⟨S100000x4, .f32⟩ : BufTy).Contents (Elt Ideal))
    (x4 x5 : (⟨S5000000, .i32⟩ : BufTy).Contents (Elt Ideal)) (x9 : (⟨S4x16, .f32⟩ : BufTy).Contents (Elt Ideal))
    (x10 : (⟨S16, .f32⟩ : BufTy).Contents (Elt Ideal)) (x11 : (⟨S4x16, .f32⟩ : BufTy).Contents (Elt Ideal)) :
    val_main_v51 (F := Ideal) x0 x1 x4 x5 x9 x10 x11
      = Cert.Sage.layerArr (val_main_v35 (F := Ideal) x1 x4 x5) (val_main_v39 (F := Ideal) x5) x0 x9 x10 x11 := by
  funext i
  have hl : ∀ k : Fin 4, lidx_main_v45 i k = ix2 (n0 := 500000) (n1 := 4) (i 0) k := fun k =>
    funext fun a => Fin.ext (by match a with | ⟨0, _⟩ => rfl | ⟨1, _⟩ => rfl)
  have hr : ∀ k : Fin 4, ridx_main_v45 i k = ix2 (n0 := 4) (n1 := 16) k (i 1) := fun k =>
    funext fun a => Fin.ext (by match a with | ⟨0, _⟩ => rfl | ⟨1, _⟩ => rfl)
  have hc : ∀ k : Fin 4, idx_main_v42 (idx_main_v43 (lidx_main_v45 i k)) = ix1 (n := 500000) (i 0) := fun k =>
    funext fun a => Fin.ext (by match a with | ⟨0, _⟩ => rfl)
  have hb : idx_main_v46 (idx_main_v47 i) = ix1 (n := 16) (i 1) :=
    funext fun a => Fin.ext (by match a with | ⟨0, _⟩ => rfl)
  have hl' : ∀ k : Fin 4, lidx_main_v49 i k = ix2 (n0 := 500000) (n1 := 4) (i 0) k := fun k =>
    funext fun a => Fin.ext (by match a with | ⟨0, _⟩ => rfl | ⟨1, _⟩ => rfl)
  have hr' : ∀ k : Fin 4, ridx_main_v49 i k = ix2 (n0 := 4) (n1 := 16) k (i 1) := fun k =>
    funext fun a => Fin.ext (by match a with | ⟨0, _⟩ => rfl | ⟨1, _⟩ => rfl)
  have hS : ∀ k : Fin 4, val_main_v44 (F := Ideal) x1 x4 x5 (lidx_main_v45 i k) * x9 (ridx_main_v45 i k)
      = Ideal.div (val_main_v35 (F := Ideal) x1 x4 x5 (ix2 (n0 := 500000) (n1 := 4) (i 0) k))
          (max (val_main_v39 (F := Ideal) x5 (ix1 (n := 500000) (i 0))) Cert.Sage.one32)
        * x9 (ix2 (n0 := 4) (n1 := 16) k (i 1)) := by
    intro k
    rewrite [val_main_v44_apply, val_main_v43_apply, val_main_v42_apply, val_main_v41_apply, val_main_v40_apply,
      val_main_cst_9_apply, hc k, hl k, hr k]
    rfl
  have hX : ∀ k : Fin 4, x0 (lidx_main_v49 i k) * x11 (ridx_main_v49 i k)
      = x0 (ix2 (n0 := 500000) (n1 := 4) (i 0) k) * x11 (ix2 (n0 := 4) (n1 := 16) k (i 1)) := by
    intro k
    rewrite [hl' k, hr' k]
    rfl
  rewrite [val_main_v51_apply, val_main_v50_apply, val_main_v48_apply, val_main_v45_apply, val_main_v47_apply,
    val_main_v46_apply, val_main_v49_apply, val_main_call1_v0_apply, val_main_call1_cst_apply]
  show max ((∑ k : Fin 4, val_main_v44 (F := Ideal) x1 x4 x5 (lidx_main_v45 i k) * x9 (ridx_main_v45 i k))
      + x10 (idx_main_v46 (idx_main_v47 i))
      + ∑ k : Fin 4, x0 (lidx_main_v49 i k) * x11 (ridx_main_v49 i k)) Cert.Sage.zero32 = _
  rewrite [(Finset.sum_congr (rfl : (Finset.univ : Finset (Fin 4)) = Finset.univ) fun k _ => hS k),
    (Finset.sum_congr (rfl : (Finset.univ : Finset (Fin 4)) = Finset.univ) fun k _ => hX k), hb]
  rfl

/-- Layer "z_u": rows are the 100000 nodes of the first kind, 16 features in (the first layer's results), 16 out. -/
theorem layer_zu
    (x0 : (⟨S500000x4, .f32⟩ : BufTy).Contents (Elt Ideal)) (x1 : (⟨S100000x4, .f32⟩ : BufTy).Contents (Elt Ideal))
    (x2 x3 x4 x5 : (⟨S5000000, .i32⟩ : BufTy).Contents (Elt Ideal)) (x6 : (⟨S4x16, .f32⟩ : BufTy).Contents (Elt Ideal))
    (x7 : (⟨S16, .f32⟩ : BufTy).Contents (Elt Ideal)) (x8 x9 : (⟨S4x16, .f32⟩ : BufTy).Contents (Elt Ideal))
    (x10 : (⟨S16, .f32⟩ : BufTy).Contents (Elt Ideal)) (x11 : (⟨S4x16, .f32⟩ : BufTy).Contents (Elt Ideal))
    (x12 : (⟨S16x16, .f32⟩ : BufTy).Contents (Elt Ideal)) (x13 : (⟨S16, .f32⟩ : BufTy).Contents (Elt Ideal))
    (x14 : (⟨S16x16, .f32⟩ : BufTy).Contents (Elt Ideal)) :
    val_main_v77 (F := Ideal) x0 x1 x2 x3 x4 x5 x6 x7 x8 x9 x10 x11 x12 x13 x14
      = Cert.Sage.layerArr (val_main_v61 (F := Ideal) x0 x1 x2 x3 x4 x5 x9 x10 x11) (val_main_v65 (F := Ideal) x3)
          (val_main_v25 (F := Ideal) x0 x1 x2 x3 x6 x7 x8) x12 x13 x14 := by
  funext i
  have hl : ∀ k : Fin 16, lidx_main_v71 i k = ix2 (n0 := 100000) (n1 := 16) (i 0) k := fun k =>
    funext fun a => Fin.ext (by match a with | ⟨0, _⟩ => rfl | ⟨1, _⟩ => rfl)
  have hr : ∀ k : Fin 16, ridx_main_v71 i k = ix2 (n0 := 16) (n1 := 16) k (i 1) := fun k =>
    funext fun a => Fin.ext (by match a with | ⟨0, _⟩ => rfl | ⟨1, _⟩ => rfl)
  have hc : ∀ k : Fin 16, idx_main_v68 (idx_main_v69 (lidx_main_v71 i k)) = ix1 (n := 100000) (i 0) := fun k =>
    funext fun a => Fin.ext (by match a with | ⟨0, _⟩ => rfl)
  have hb : idx_main_v72 (idx_main_v73 i) = ix1 (n := 16) (i 1) :=
    funext fun a => Fin.ext (by match a with | ⟨0, _⟩ => rfl)
  have hl' : ∀ k : Fin 16, lidx_main_v75 i k = ix2 (n0 := 100000) (n1 := 16) (i 0) k := fun k =>
    funext fun a => Fin.ext (by match a with | ⟨0, _⟩ => rfl | ⟨1, _⟩ => rfl)
  have hr' : ∀ k : Fin 16, ridx_main_v75 i k = ix2 (n0 := 16) (n1 := 16) k (i 1) := fun k =>
    funext fun a => Fin.ext (by match a with | ⟨0, _⟩ => rfl | ⟨1, _⟩ => rfl)
  have hS : ∀ k : Fin 16,
      val_main_v70 (F := Ideal) x0 x1 x2 x3 x4 x5 x9 x10 x11 (lidx_main_v71 i k) * x12 (ridx_main_v71 i k)
      = Ideal.div (val_main_v61 (F := Ideal) x0 x1 x2 x3 x4 x5 x9 x10 x11 (ix2 (n0 := 100000) (n1 := 16) (i 0) k))
          (max (val_main_v65 (F := Ideal) x3 (ix1 (n := 100000) (i 0))) Cert.Sage.one32)
        * x12 (ix2 (n0 := 16) (n1 := 16) k (i 1)) := by
    intro k
    rewrite [val_main_v70_apply, val_main_v69_apply, val_main_v68_apply, val_main_v67_apply, val_main_v66_apply,
      val_main_cst_15_apply, hc k, hl k, hr k]
    rfl
  have hX : ∀ k : Fin 16, val_main_v25 (F := Ideal) x0 x1 x2 x3 x6 x7 x8 (lidx_main_v75 i k) * x14 (ridx_main_v75 i k)
      = val_main_v25 (F := Ideal) x0 x1 x2 x3 x6 x7 x8 (ix2 (n0 := 100000) (n1 := 16) (i 0) k)
        * x14 (ix2 (n0 := 16) (n1 := 16) k (i 1)) := by
    intro k
    rewrite [hl' k, hr' k]
    rfl
  rewrite [val_main_v77_apply, val_main_v76_apply, val_main_v74_apply, val_main_v71_apply, val_main_v73_apply,
    val_main_v72_apply, val_main_v75_apply, val_main_call2_v0_apply, val_main_call2_cst_apply]
  show max ((∑ k : Fin 16,
        val_main_v70 (F := Ideal) x0 x1 x2 x3 x4 x5 x9 x10 x11 (lidx_main_v71 i k) * x12 (ridx_main_v71 i k))
      + x13 (idx_main_v72 (idx_main_v73 i))
      + ∑ k : Fin 16, val_main_v25 (F := Ideal) x0 x1 x2 x3 x6 x7 x8 (lidx_main_v75 i k) * x14 (ridx_main_v75 i k))
    Cert.Sage.zero32 = _
  rewrite [(Finset.sum_congr (rfl : (Finset.univ : Finset (Fin 16)) = Finset.univ) fun k _ => hS k),
    (Finset.sum_congr (rfl : (Finset.univ : Finset (Fin 16)) = Finset.univ) fun k _ => hX k), hb]
  rfl

/-- Layer "z_p": rows are the 500000 nodes of the second kind, 16 features in (the second layer's results), 16 out. -/
theorem layer_zp
    (x0 : (⟨S500000x4, .f32⟩ : BufTy).Contents (Elt Ideal)) (x1 : (⟨S100000x4, .f32⟩ : BufTy).Contents (Elt Ideal))
    (x2 x3 x4 x5 : (⟨S5000000, .i32⟩ : BufTy).Contents (Elt Ideal)) (x6 : (⟨S4x16, .f32⟩ : BufTy).Contents (Elt Ideal))
    (x7 : (⟨S16, .f32⟩ : BufTy).Contents (Elt Ideal)) (x8 x9 : (⟨S4x16, .f32⟩ : BufTy).Contents (Elt Ideal))
    (x10 : (⟨S16, .f32⟩ : BufTy).Contents (Elt Ideal)) (x11 : (⟨S4x16, .f32⟩ : BufTy).Contents (Elt Ideal))
    (x15 : (⟨S16x16, .f32⟩ : BufTy).Contents (Elt Ideal)) (x16 : (⟨S16, .f32⟩ : BufTy).Contents (Elt Ideal))
    (x17 : (⟨S16x16, .f32⟩ : BufTy).Contents (Elt Ideal)) :
    val_main_v103 (F := Ideal) x0 x1 x2 x3 x4 x5 x6 x7 x8 x9 x10 x11 x15 x16 x17
      = Cert.Sage.layerArr (val_main_v87 (F := Ideal) x0 x1 x2 x3 x4 x5 x6 x7 x8) (val_main_v91 (F := Ideal) x5)
          (val_main_v51 (F := Ideal) x0 x1 x4 x5 x9 x10 x11) x15 x16 x17 := by
  funext i
  have hl : ∀ k : Fin 16, lidx_main_v97 i k = ix2 (n0 := 500000) (n1 := 16) (i 0) k := fun k =>
    funext fun a => Fin.ext (by match a with | ⟨0, _⟩ => rfl | ⟨1, _⟩ => rfl)
  have hr : ∀ k : Fin 16, ridx_main_v97 i k = ix2 (n0 := 16) (n1 := 16) k (i 1) := fun k =>
    funext fun a => Fin.ext (by match a with | ⟨0, _⟩ => rfl | ⟨1, _⟩ => rfl)
  have hc : ∀ k : Fin 16, idx_main_v94 (idx_main_v95 (lidx_main_v97 i k)) = ix1 (n := 500000) (i 0) := fun k =>
    funext fun a => Fin.ext (by match a with | ⟨0, _⟩ => rfl)
  have hb : idx_main_v98 (idx_main_v99 i) = ix1 (n := 16) (i 1) :=
    funext fun a => Fin.ext (by match a with | ⟨0, _⟩ => rfl)
  have hl' : ∀ k : Fin 16, lidx_main_v101 i k = ix2 (n0 := 500000) (n1 := 16) (i 0) k := fun k =>
    funext fun a => Fin.ext (by match a with | ⟨0, _⟩ => rfl | ⟨1, _⟩ => rfl)
  have hr' : ∀ k : Fin 16, ridx_main_v101 i k = ix2 (n0 := 16) (n1 := 16) k (i 1) := fun k =>
    funext fun a => Fin.ext (by match a with | ⟨0, _⟩ => rfl | ⟨1, _⟩ => rfl)
  have hS : ∀ k : Fin 16,
      val_main_v96 (F := Ideal) x0 x1 x2 x3 x4 x5 x6 x7 x8 (lidx_main_v97 i k) * x15 (ridx_main_v97 i k)
      = Ideal.div (val_main_v87 (F := Ideal) x0 x1 x2 x3 x4 x5 x6 x7 x8 (ix2 (n0 := 500000) (n1 := 16) (i 0) k))
          (max (val_main_v91 (F := Ideal) x5 (ix1 (n := 500000) (i 0))) Cert.Sage.one32)
        * x15 (ix2 (n0 := 16) (n1 := 16) k (i 1)) := by
    intro k
    rewrite [val_main_v96_apply, val_main_v95_apply, val_main_v94_apply, val_main_v93_apply, val_main_v92_apply,
      val_main_cst_21_apply, hc k, hl k, hr k]
    rfl
  have hX : ∀ k : Fin 16, val_main_v51 (F := Ideal) x0 x1 x4 x5 x9 x10 x11 (lidx_main_v101 i k) * x17 (ridx_main_v101 i k)
      = val_main_v51 (F := Ideal) x0 x1 x4 x5 x9 x10 x11 (ix2 (n0 := 500000) (n1 := 16) (i 0) k)
        * x17 (ix2 (n0 := 16) (n1 := 16) k (i 1)) := by
    intro k
    rewrite [hl' k, hr' k]
    rfl
  rewrite [val_main_v103_apply, val_main_v102_apply, val_main_v100_apply, val_main_v97_apply, val_main_v99_apply,
    val_main_v98_apply, val_main_v101_apply, val_main_call3_v0_apply, val_main_call3_cst_apply]
  show max ((∑ k : Fin 16,
        val_main_v96 (F := Ideal) x0 x1 x2 x3 x4 x5 x6 x7 x8 (lidx_main_v97 i k) * x15 (ridx_main_v97 i k))
      + x16 (idx_main_v98 (idx_main_v99 i))
      + ∑ k : Fin 16, val_main_v51 (F := Ideal) x0 x1 x4 x5 x9 x10 x11 (lidx_main_v101 i k) * x17 (ridx_main_v101 i k))
    Cert.Sage.zero32 = _
  rewrite [(Finset.sum_congr (rfl : (Finset.univ : Finset (Fin 16)) = Finset.univ) fun k _ => hS k),
    (Finset.sum_congr (rfl : (Finset.univ : Finset (Fin 16)) = Finset.univ) fun k _ => hX k), hb]
  rfl

/-! ## The sums, the counts and the gathered messages, as the reference defines them -/

/-- "h_u": the neighbour sums scatter the gathered rows of the second kind's features into 100000 rows of zeros. -/
theorem sums_hu_def (x0 : (⟨S500000x4, .f32⟩ : BufTy).Contents (Elt Ideal))
    (x2 x3 : (⟨S5000000, .i32⟩ : BufTy).Contents (Elt Ideal)) :
    val_main_v9 (F := Ideal) x0 x2 x3
      = (Host.scatterAdd (F := Ideal) (φ := .f32) scatter_S100000x4_S5000000x1_S5000000x4_1_0_0_1 (val_main_v7 (F := Ideal))
          (val_main_v8 (F := Ideal) x3) (val_main_v6 (F := Ideal) x0 x2) : (⟨S100000x4, .f32⟩ : BufTy).Contents (Elt Ideal)) := rfl

/-- "h_u": the neighbour counts scatter ones into 100000 zeros. -/
theorem counts_hu_def (x3 : (⟨S5000000, .i32⟩ : BufTy).Contents (Elt Ideal)) :
    val_main_v13 (F := Ideal) x3
      = (Host.scatterAdd (F := Ideal) (φ := .f32) scatter_S100000_S5000000x1_S5000000_n_0_0_1 (val_main_v11 (F := Ideal))
          (val_main_v12 (F := Ideal) x3) (val_main_v10 (F := Ideal)) : (⟨S100000, .f32⟩ : BufTy).Contents (Elt Ideal)) := rfl

/-- "h_u": the messages are the rows of the second kind's features the source indices name. -/
theorem gather_hu_def (x0 : (⟨S500000x4, .f32⟩ : BufTy).Contents (Elt Ideal))
    (x2 : (⟨S5000000, .i32⟩ : BufTy).Contents (Elt Ideal)) :
    val_main_v6 (F := Ideal) x0 x2
      = (Host.gather gather_S500000x4_S5000000x1_S5000000x4_1_0_n_n_0_1_14 x0 (val_main_v5 (F := Ideal) x2)
          : (⟨S5000000x4, .f32⟩ : BufTy).Contents (Elt Ideal)) := rfl

/-- "h_p": the neighbour sums scatter the gathered rows of the first kind's features into 500000 rows of zeros. -/
theorem sums_hp_def (x1 : (⟨S100000x4, .f32⟩ : BufTy).Contents (Elt Ideal))
    (x4 x5 : (⟨S5000000, .i32⟩ : BufTy).Contents (Elt Ideal)) :
    val_main_v35 (F := Ideal) x1 x4 x5
      = (Host.scatterAdd (F := Ideal) (φ := .f32) scatter_S500000x4_S5000000x1_S5000000x4_1_0_0_1 (val_main_v33 (F := Ideal))
          (val_main_v34 (F := Ideal) x5) (val_main_v32 (F := Ideal) x1 x4) : (⟨S500000x4, .f32⟩ : BufTy).Contents (Elt Ideal)) := rfl

/-- "h_p": the neighbour counts scatter ones into 500000 zeros. -/
theorem counts_hp_def (x5 : (⟨S5000000, .i32⟩ : BufTy).Contents (Elt Ideal)) :
    val_main_v39 (F := Ideal) x5
      = (Host.scatterAdd (F := Ideal) (φ := .f32) scatter_S500000_S5000000x1_S5000000_n_0_0_1 (val_main_v37 (F := Ideal))
          (val_main_v38 (F := Ideal) x5) (val_main_v36 (F := Ideal)) : (⟨S500000, .f32⟩ : BufTy).Contents (Elt Ideal)) := rfl

/-- "h_p": the messages are the rows of the first kind's features the source indices name. -/
theorem gather_hp_def (x1 : (⟨S100000x4, .f32⟩ : BufTy).Contents (Elt Ideal))
    (x4 : (⟨S5000000, .i32⟩ : BufTy).Contents (Elt Ideal)) :
    val_main_v32 (F := Ideal) x1 x4
      = (Host.gather gather_S100000x4_S5000000x1_S5000000x4_1_0_n_n_0_1_14 x1 (val_main_v31 (F := Ideal) x4)
          : (⟨S5000000x4, .f32⟩ : BufTy).Contents (Elt Ideal)) := rfl

/-- "z_u": the neighbour sums scatter the gathered rows of layer "h_p"'s result into 100000 rows of zeros. -/
theorem sums_zu_def (x0 : (⟨S500000x4, .f32⟩ : BufTy).Contents (Elt Ideal)) (x1 : (⟨S100000x4, .f32⟩ : BufTy).Contents (Elt Ideal))
    (x2 x3 x4 x5 : (⟨S5000000, .i32⟩ : BufTy).Contents (Elt Ideal)) (x9 : (⟨S4x16, .f32⟩ : BufTy).Contents (Elt Ideal))
    (x10 : (⟨S16, .f32⟩ : BufTy).Contents (Elt Ideal)) (x11 : (⟨S4x16, .f32⟩ : BufTy).Contents (Elt Ideal)) :
    val_main_v61 (F := Ideal) x0 x1 x2 x3 x4 x5 x9 x10 x11
      = (Host.scatterAdd (F := Ideal) (φ := .f32) scatter_S100000x16_S5000000x1_S5000000x16_1_0_0_1 (val_main_v59 (F := Ideal))
          (val_main_v60 (F := Ideal) x3) (val_main_v58 (F := Ideal) x0 x1 x2 x4 x5 x9 x10 x11)
          : (⟨S100000x16, .f32⟩ : BufTy).Contents (Elt Ideal)) := rfl

/-- "z_u": the neighbour counts scatter ones into 100000 zeros. -/
theorem counts_zu_def (x3 : (⟨S5000000, .i32⟩ : BufTy).Contents (Elt Ideal)) :
    val_main_v65 (F := Ideal) x3
      = (Host.scatterAdd (F := Ideal) (φ := .f32) scatter_S100000_S5000000x1_S5000000_n_0_0_1 (val_main_v63 (F := Ideal))
          (val_main_v64 (F := Ideal) x3) (val_main_v62 (F := Ideal)) : (⟨S100000, .f32⟩ : BufTy).Contents (Elt Ideal)) := rfl

/-- "z_u": the messages are the rows of layer "h_p"'s result the source indices name. -/
theorem gather_zu_def (x0 : (⟨S500000x4, .f32⟩ : BufTy).Contents (Elt Ideal)) (x1 : (⟨S100000x4, .f32⟩ : BufTy).Contents (Elt Ideal))
    (x2 x4 x5 : (⟨S5000000, .i32⟩ : BufTy).Contents (Elt Ideal)) (x9 : (⟨S4x16, .f32⟩ : BufTy).Contents (Elt Ideal))
    (x10 : (⟨S16, .f32⟩ : BufTy).Contents (Elt Ideal)) (x11 : (⟨S4x16, .f32⟩ : BufTy).Contents (Elt Ideal)) :
    val_main_v58 (F := Ideal) x0 x1 x2 x4 x5 x9 x10 x11
      = (Host.gather gather_S500000x16_S5000000x1_S5000000x16_1_0_n_n_0_1_116 (val_main_v51 (F := Ideal) x0 x1 x4 x5 x9 x10 x11)
          (val_main_v57 (F := Ideal) x2) : (⟨S5000000x16, .f32⟩ : BufTy).Contents (Elt Ideal)) := rfl

/-- "z_p": the neighbour sums scatter the gathered rows of layer "h_u"'s result into 500000 rows of zeros. -/
theorem sums_zp_def (x0 : (⟨S500000x4, .f32⟩ : BufTy).Contents (Elt Ideal)) (x1 : (⟨S100000x4, .f32⟩ : BufTy).Contents (Elt Ideal))
    (x2 x3 x4 x5 : (⟨S5000000, .i32⟩ : BufTy).Contents (Elt Ideal)) (x6 : (⟨S4x16, .f32⟩ : BufTy).Contents (Elt Ideal))
    (x7 : (⟨S16, .f32⟩ : BufTy).Contents (Elt Ideal)) (x8 : (⟨S4x16, .f32⟩ : BufTy).Contents (Elt Ideal)) :
    val_main_v87 (F := Ideal) x0 x1 x2 x3 x4 x5 x6 x7 x8
      = (Host.scatterAdd (F := Ideal) (φ := .f32) scatter_S500000x16_S5000000x1_S5000000x16_1_0_0_1 (val_main_v85 (F := Ideal))
          (val_main_v86 (F := Ideal) x5) (val_main_v84 (F := Ideal) x0 x1 x2 x3 x4 x6 x7 x8)
          : (⟨S500000x16, .f32⟩ : BufTy).Contents (Elt Ideal)) := rfl

/-- "z_p": the neighbour counts scatter ones into 500000 zeros. -/
theorem counts_zp_def (x5 : (⟨S5000000, .i32⟩ : BufTy).Contents (Elt Ideal)) :
    val_main_v91 (F := Ideal) x5
      = (Host.scatterAdd (F := Ideal) (φ := .f32) scatter_S500000_S5000000x1_S5000000_n_0_0_1 (val_main_v89 (F := Ideal))
          (val_main_v90 (F := Ideal) x5) (val_main_v88 (F := Ideal)) : (⟨S500000, .f32⟩ : BufTy).Contents (Elt Ideal)) := rfl

/-- "z_p": the messages are the rows of layer "h_u"'s result the source indices name. -/
theorem gather_zp_def (x0 : (⟨S500000x4, .f32⟩ : BufTy).Contents (Elt Ideal)) (x1 : (⟨S100000x4, .f32⟩ : BufTy).Contents (Elt Ideal))
    (x2 x3 x4 : (⟨S5000000, .i32⟩ : BufTy).Contents (Elt Ideal)) (x6 : (⟨S4x16, .f32⟩ : BufTy).Contents (Elt Ideal))
    (x7 : (⟨S16, .f32⟩ : BufTy).Contents (Elt Ideal)) (x8 : (⟨S4x16, .f32⟩ : BufTy).Contents (Elt Ideal)) :
    val_main_v84 (F := Ideal) x0 x1 x2 x3 x4 x6 x7 x8
      = (Host.gather gather_S100000x16_S5000000x1_S5000000x16_1_0_n_n_0_1_116 (val_main_v25 (F := Ideal) x0 x1 x2 x3 x6 x7 x8)
          (val_main_v83 (F := Ideal) x4) : (⟨S5000000x16, .f32⟩ : BufTy).Contents (Elt Ideal)) := rfl

end Cert.ReferenceIdeal.RefValue

end
-- ==== Proof.Bridge.lean ====
/-
  The kernel side's two results are the reference's, as functions of the arguments, when the source indices are in
  range. Layer by layer: the gather with a NaN fill for out-of-range rows is the plain gather (no row is out of range),
  so the neighbour sums are the same scatter-add of the same rows, the counts the same scatter-add of ones, and the
  layer the same function (Cert.Sage.layerArr) of them — on both sides.
-/
import proofs.«404925_j76931454206189_1_alg».proof.Proof.KFold
import proofs.«404925_j76931454206189_1_alg».proof.Proof.KTake
import proofs.«404925_j76931454206189_1_alg».proof.Proof.RefLayer

noncomputable section

namespace Cert.Proof.Bridge

open Idealize.ShloMosaic Idealize.SL.Sem
open Cert.KernelIdeal (S500000x4 S100000x4 S5000000 S4x16 S16 S16x16)
open Cert.KernelIdeal.Fold Cert.KernelIdeal.Take Cert.KernelIdeal.Stretch Cert.ReferenceIdeal.Read

variable (x0 : FVec Ideal S500000x4 .f32) (x1 : FVec Ideal S100000x4 .f32) (x2 x3 x4 x5 : IVec S5000000 32)
  (x6 : FVec Ideal S4x16 .f32) (x7 : FVec Ideal S16 .f32) (x8 x9 : FVec Ideal S4x16 .f32) (x10 : FVec Ideal S16 .f32) (x11 : FVec Ideal S4x16 .f32)
  (x12 : FVec Ideal S16x16 .f32) (x13 : FVec Ideal S16 .f32) (x14 x15 : FVec Ideal S16x16 .f32) (x16 : FVec Ideal S16 .f32) (x17 : FVec Ideal S16x16 .f32)
  (h2 : ∀ e : S5000000.Idx, 0 ≤ (x2 e).toInt ∧ (x2 e).toInt < 500000) (h4 : ∀ e : S5000000.Idx, 0 ≤ (x4 e).toInt ∧ (x4 e).toInt < 100000)

include h2 in
/-- Layer 1 at the 100000 nodes. -/
theorem hU_eq : hU x0 x1 x2 x3 x6 x7 x8 = val_main_v25 (F := Ideal) x0 x1 x2 x3 x6 x7 x8 := by
  rw [Cert.ReferenceIdeal.RefValue.layer_hu]
  unfold hU
  rw [takeP4_eq x0 x2 h2]
  rfl

include h4 in
/-- Layer 1 at the 500000 nodes. -/
theorem hP_eq : hP x0 x1 x4 x5 x9 x10 x11 = val_main_v51 (F := Ideal) x0 x1 x4 x5 x9 x10 x11 := by
  rw [Cert.ReferenceIdeal.RefValue.layer_hp]
  unfold hP
  rw [takeU4_eq x1 x4 h4]
  rfl

include h2 h4 in
/-- Layer 2 at the 100000 nodes. -/
theorem zU_eq : zU x0 x1 x2 x3 x4 x5 x6 x7 x8 x9 x10 x11 x12 x13 x14 = val_main_v77 (F := Ideal) x0 x1 x2 x3 x4 x5 x6 x7 x8 x9 x10 x11 x12 x13 x14 := by
  rw [Cert.ReferenceIdeal.RefValue.layer_zu]
  unfold zU
  rw [hP_eq x0 x1 x4 x5 x9 x10 x11 h4, hU_eq x0 x1 x2 x3 x6 x7 x8 h2, takeP16_eq _ x2 h2]
  rfl

include h2 h4 in
/-- Layer 2 at the 500000 nodes. -/
theorem zP_eq : zP x0 x1 x2 x3 x4 x5 x6 x7 x8 x9 x10 x11 x15 x16 x17 = val_main_v103 (F := Ideal) x0 x1 x2 x3 x4 x5 x6 x7 x8 x9 x10 x11 x15 x16 x17 := by
  rw [Cert.ReferenceIdeal.RefValue.layer_zp]
  unfold zP
  rw [hP_eq x0 x1 x4 x5 x9 x10 x11 h4, hU_eq x0 x1 x2 x3 x6 x7 x8 h2, takeU16_eq _ x4 h4]
  rfl

end Cert.Proof.Bridge

end
-- ==== Proof.PreRange.lean ====
/-
  THE PRECONDITION DECODED: the two index arrays lie inside their tables.

  The printed predicate (generated: proof/Pre_finite_inputs.lean) is one long conjunction of scalar bits. Its outermost
  two conjuncts are not about finiteness: they say that every entry of the i32 array in argument 2 (the source rows of
  the first edge type, read from a table of 500000 rows) satisfies 0 ≤ entry < 500000, and every entry of the i32 array
  in argument 4 (the source rows of the second edge type, table of 100000 rows) satisfies 0 ≤ entry < 100000, both
  comparisons signed. Each conjunct is an "all" — a reduction by "and", from 1, over the whole array, of the pointwise
  "and" of a signed ≥ against a broadcast lower bound and a signed < against a broadcast upper bound.

  The reading, outermost first:
    * a conjunction of bits is 1 exactly when both bits are 1, so of the whole predicate being 1 only the last two
      conjuncts are kept and the rest (the finiteness conjuncts) dropped;
    * an "all" that is 1 had a 1 at every index (the result has a single index, so every source index reduces into it);
    * at one index the bit is the "and" of two comparison bits, a scalar broadcast reads the scalar, and a signed
      comparison bit is 1 exactly when the integers the two words denote compare that way;
    * the words 0, 500000 and 100000 denote the integers 0, 500000 and 100000.
  Under these ranges an out-of-range read of the tables never happens.
-/
import proofs.«404925_j76931454206189_1_alg».proof.Defs
import proofs.«404925_j76931454206189_1_alg».proof.Proof.Gen.Pre_finite_inputs
import Idealize.ShloMosaic.Lib.ReduceAll
import Idealize.ShloMosaic.Lib.StableHlo.Predicate
import Idealize.ShloMosaic.Lib.ValueIdx

namespace Cert.Proof.PreRange

open Idealize.ShloMosaic Idealize.SL.Sem

/-- The scalar shape has exactly one index. -/
instance : Subsingleton Cert.Pre_finite_inputs.S_.Idx := ⟨fun a b => funext fun d => d.elim0⟩

/-- ONE RANGE CONJUNCT, at any shape and any two bounds. If the "all" of the mask (lo ≤ x) ∧ (x < hi) — the bounds
    scalar words broadcast over the array, the comparisons signed — is 1, then every entry of x denotes an integer in
    [L, H), where L and H are the integers the two bound words denote. -/
theorem all_range {s : Shape} {axes : List (Fin s.rank)} (x : IVec s 32) (lo hi : BitVec 32) (L H : ℤ)
    (hL : lo.toInt = L) (hH : hi.toInt = H)
    (hb : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
          (andi (cmpi .sge x (broadcastInDim s ![] hb (constantI Cert.Pre_finite_inputs.S_ 32 lo)))
                (cmpi .slt x (broadcastInDim s ![] hb (constantI Cert.Pre_finite_inputs.S_ 32 hi))))
          (constantI Cert.Pre_finite_inputs.S_ 1 1#1) hr h0 ValueIdx.ix0 = 1#1)
    (e : s.Idx) : L ≤ (x e).toInt ∧ (x e).toInt < H := by
  subst hL hH
  -- every entry of the mask is 1
  have hall := Host.reduce_andi_all _ _ hr h0 ValueIdx.ix0 h e
  -- at e the mask is the "and" of the two comparison bits, each broadcast reading its scalar
  have he : IntOp.andi (IntOp.cmpi .sge (x e) lo) (IntOp.cmpi .slt (x e) hi) = 1#1 := hall
  obtain ⟨hge, hlt⟩ := IntOp.andi_eq_one.1 he
  exact ⟨IntOp.cmpi_sge.1 hge, IntOp.cmpi_slt.1 hlt⟩

/-- THE LAST PART OF THE PREDICATE. Its result is ((carried ∧ all₂) ∧ all₄) with all₂ the range conjunct of argument 2
    against 500000 and all₄ that of argument 4 against 100000; the carried bit (every earlier conjunct) is dropped. -/
theorem part4_ranges [hP : Cert.Pre_finite_inputs.Facts] {F : FTy → Type} [FloatOps F]
    (a2 a4 : IVec Cert.Pre_finite_inputs.S5000000 32) (v63 v67 : IVec Cert.Pre_finite_inputs.S_ 1)
    (h : Cert.Pre_finite_inputs.fn_part4 (F := F) a2 a4 v63 v67 ValueIdx.ix0 = 1#1) :
    (∀ e : Cert.Pre_finite_inputs.S5000000.Idx, 0 ≤ (a2 e).toInt ∧ (a2 e).toInt < 500000)
      ∧ (∀ e : Cert.Pre_finite_inputs.S5000000.Idx, 0 ≤ (a4 e).toInt ∧ (a4 e).toInt < 100000) := by
  dsimp only [Cert.Pre_finite_inputs.fn_part4] at h
  -- outermost "and": (… ∧ all₂) and all₄; then the inner one: carried and all₂
  obtain ⟨h75, h81⟩ := IntOp.andi_eq_one.1 h
  obtain ⟨-, h74⟩ := IntOp.andi_eq_one.1 h75
  exact ⟨fun e => all_range a2 0#32 500000#32 0 500000 (by decide) (by decide) _ _ _ h74 e,
    fun e => all_range a4 0#32 100000#32 0 100000 (by decide) (by decide) _ _ _ h81 e⟩

/-- THE WHOLE PREDICATE. The printed function is its parts in sequence, each ending in the call of the next with the two
    index arrays handed on unchanged; so of the predicate being 1 the last part's two range conjuncts follow. -/
theorem fn_ranges [hP : Cert.Pre_finite_inputs.Facts] {F : FTy → Type} [FloatOps F]
    {a0 : FVec F Cert.Pre_finite_inputs.S500000x4 .f32} {a1 : FVec F Cert.Pre_finite_inputs.S100000x4 .f32}
    {a2 a3 a4 a5 : IVec Cert.Pre_finite_inputs.S5000000 32}
    {a6 : FVec F Cert.Pre_finite_inputs.S4x16 .f32} {a7 : FVec F Cert.Pre_finite_inputs.S16 .f32}
    {a8 a9 : FVec F Cert.Pre_finite_inputs.S4x16 .f32} {a10 : FVec F Cert.Pre_finite_inputs.S16 .f32}
    {a11 : FVec F Cert.Pre_finite_inputs.S4x16 .f32} {a12 : FVec F Cert.Pre_finite_inputs.S16x16 .f32}
    {a13 : FVec F Cert.Pre_finite_inputs.S16 .f32} {a14 a15 : FVec F Cert.Pre_finite_inputs.S16x16 .f32}
    {a16 : FVec F Cert.Pre_finite_inputs.S16 .f32} {a17 : FVec F Cert.Pre_finite_inputs.S16x16 .f32}
    (h : Cert.Pre_finite_inputs.fn (F := F) a0 a1 a2 a3 a4 a5 a6 a7 a8 a9 a10 a11 a12 a13 a14 a15 a16 a17 ValueIdx.ix0 = 1#1) :
    (∀ e : Cert.Pre_finite_inputs.S5000000.Idx, 0 ≤ (a2 e).toInt ∧ (a2 e).toInt < 500000)
      ∧ (∀ e : Cert.Pre_finite_inputs.S5000000.Idx, 0 ≤ (a4 e).toInt ∧ (a4 e).toInt < 100000) := by
  dsimp only [Cert.Pre_finite_inputs.fn, Cert.Pre_finite_inputs.fn_part1, Cert.Pre_finite_inputs.fn_part2,
    Cert.Pre_finite_inputs.fn_part3] at h
  exact part4_ranges _ _ _ _ h

/-- Under the precondition every entry of the first edge type's source-row array names a row of its 500000-row table. -/
theorem src_pu_range
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : Cert.KernelIdeal.S5000000.Idx,
      0 ≤ BitVec.toInt ((m ((c.tc : Thread Cert.KernelIdeal.nD Cert.KernelIdeal.τ).loc Cert.KernelIdeal.main_arg2)) e)
        ∧ BitVec.toInt ((m ((c.tc : Thread Cert.KernelIdeal.nD Cert.KernelIdeal.τ).loc Cert.KernelIdeal.main_arg2)) e) < 500000 := by
  have h := congrFun (hpre c) ValueIdx.ix0
  exact (fn_ranges h).1

/-- Under the precondition every entry of the second edge type's source-row array names a row of its 100000-row table. -/
theorem src_up_range
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : Cert.KernelIdeal.S5000000.Idx,
      0 ≤ BitVec.toInt ((m ((c.tc : Thread Cert.KernelIdeal.nD Cert.KernelIdeal.τ).loc Cert.KernelIdeal.main_arg4)) e)
        ∧ BitVec.toInt ((m ((c.tc : Thread Cert.KernelIdeal.nD Cert.KernelIdeal.τ).loc Cert.KernelIdeal.main_arg4)) e) < 100000 := by
  have h := congrFun (hpre c) ValueIdx.ix0
  exact (fn_ranges h).2

end Cert.Proof.PreRange
-- ==== Proof.lean ====
/-
  A two-layer heterogeneous SAGE network (mean aggregation) over two node types. Each layer, at a node, is
      relu( mean of the neighbours' features · Wl + bl + own features · Wr ),
  the mean being the neighbour sum over max(count, 1). The kernel program gathers the neighbour rows and scatter-adds the
  sums and counts on the host and computes the dense part in one pallas_call per layer and node type, over row blocks of
  5000; the reference is the same arithmetic in plain array operations. On the extended reals the two are the same
  function of the arguments: the bf16 casts are the identity, a product into a zero accumulator is the plain
  contraction, and the two gathers differ only at out-of-range source indices (one fills with NaN, the other clamps),
  which the precondition excludes (0 ≤ src < number of rows of the table gathered from). No algebraic law beyond
  that is needed, so the finiteness of the float inputs is not used.
  The three frames: the two kernel programs' by their generated frame certificates, the reference's by its generated
  run. The idealization rewrote nothing, so `preserves` is trivial. `algebraic`: the kernel's run ends with its results
  at layers over layers of the arguments (Proof/KVal.lean over Proof/KFold.lean), the reference's run with its own terms,
  which are those same functions (Proof/Bridge.lean) once the arguments are identified.
-/
import proofs.«404925_j76931454206189_1_alg».proof.Defs
import proofs.«404925_j76931454206189_1_alg».proof.Proof.Gen.Kernel
import proofs.«404925_j76931454206189_1_alg».proof.Proof.Gen.Kernel.Frame
import proofs.«404925_j76931454206189_1_alg».proof.Proof.Gen.KernelIdeal
import proofs.«404925_j76931454206189_1_alg».proof.Proof.Gen.KernelIdeal.Frame
import proofs.«404925_j76931454206189_1_alg».proof.Proof.Gen.ReferenceIdeal
import proofs.«404925_j76931454206189_1_alg».proof.Proof.Gen.ReferenceIdeal.Run
import proofs.«404925_j76931454206189_1_alg».proof.Proof.Gen.ReferenceIdeal.Read
import proofs.«404925_j76931454206189_1_alg».proof.Proof.Gen.Pre_finite_inputs
import proofs.«404925_j76931454206189_1_alg».proof.Proof.KVal
import proofs.«404925_j76931454206189_1_alg».proof.Proof.Bridge
import proofs.«404925_j76931454206189_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end at the same two arrays: the kernel's at the layers over layers of its arguments, the reference's at
    its own terms of its arguments, which agree with the kernel's arguments and whose source indices are in range. -/
theorem algebraic : Cert.algebraic_KernelIdeal_ReferenceIdeal := by
  intro m ρ m' ρ' hpre hagree
  refine ⟨_, _, Cert.Proof.KVal.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17⟩ := hagree c
  have h2 := Cert.Proof.PreRange.src_pu_range m hpre c
  have h4 := Cert.Proof.PreRange.src_up_range m hpre c
  refine ⟨(h c).1.trans ?_, (h c).2.1.trans ?_, (h c).2.2⟩
  · rw [Cert.ReferenceIdeal.Read.val_main_v103_eq]
    simp only [a0, a1, a2, a3, a4, a5, a6, a7, a8, a9, a10, a11, a15, a16, a17]
    exact (Cert.Proof.Bridge.zP_eq _ _ _ _ _ _ _ _ _ _ _ _ _ _ _ h2 h4).symm
  · rw [Cert.ReferenceIdeal.Read.val_main_v77_eq]
    simp only [a0, a1, a2, a3, a4, a5, a6, a7, a8, a9, a10, a11, a12, a13, a14]
    exact (Cert.Proof.Bridge.zU_eq _ _ _ _ _ _ _ _ _ _ _ _ _ _ _ h2 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
